-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S144x1 : Shape := ⟨2, ![144, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S144x1 : S_.BroadcastsInDim S144x1 (![] : Fin 0 → Fin S144x1.rank)
  reducesTo_S144x1_S_d0_1 : S144x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S2x800000 32 := broadcastInDim S2x800000 ![] bcast_S_S2x800000 main_c_14
  let main_v40 : IVec S2x800000 1 := cmpi .sge main_arg1 main_v39
  let main_c_15 : IVec S_ 32 := constantI S_ 32 50000#32
  let main_v41 : IVec S2x800000 32 := broadcastInDim S2x800000 ![] bcast_S_S2x800000 main_c_15
  let main_v42 : IVec S2x800000 1 := cmpi .slt main_arg1 main_v41
  let main_v43 : IVec S2x800000 1 := andi main_v40 main_v42
  let main_c_16 : IVec S_ 1 := constantI S_ 1 1#1
  let main_v44 : IVec S_ 1 := (fun x v => Host.reduce IntOp.andi x v reducesTo_S2x800000_S_d0_1 h_S_) main_v43 main_c_16
  let main_v45 : IVec S_ 1 := andi main_v38 main_v44
  main_v45

def fn_part1 {F : FTy → Type} [FloatOps F] (main_arg1 : IVec S2x800000 32) (main_arg5 : FVec F S64x64 .f32) (main_arg6 : FVec F S64 .f32) (main_arg7 : FVec F S144x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S144x1 .f32 := Host.absf main_arg7
  let main_cst_10 : FVec F S_ .f32 := constant S_ .f32 0x7F800000#32
  let main_v30 : FVec F S144x1 .f32 := broadcastInDim S144x1 ![] bcast_S_S144x1 main_cst_10
  let main_v31 : IVec S144x1 1 := cmpf .olt main_v29 main_v30
  let main_c_11 : IVec S_ 1 := constantI S_ 1 1#1
  let main_v32 : IVec S_ 1 := (fun x v => Host.reduce IntOp.andi x v reducesTo_S144x1_S_d0_1 h_S_) main_v31 main_c_11
  let main_v33 : IVec S_ 1 := andi main_v28 main_v32
  fn_part2 (F := F) main_arg1 main_arg8 main_v33

def fn {F : FTy → Type} [FloatOps F] (main_arg0 : FVec F S50000x64 .f32) (main_arg1 : IVec S2x800000 32) (main_arg2 : FVec F S800000x16 .f32) (main_arg3 : FVec F S64x64 .f32) (main_arg4 : FVec F S64 .f32) (main_arg5 : FVec F S64x64 .f32) (main_arg6 : FVec F S64 .f32) (main_arg7 : FVec F S144x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S144x1 : Shape := ⟨2, ![144, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S64x50000 : Shape := ⟨2, ![64, 50000]⟩
abbrev S1x128 : Shape := ⟨2, ![1, 128]⟩
abbrev S50000x128 : Shape := ⟨2, ![50000, 128]⟩
abbrev S64x128 : Shape := ⟨2, ![64, 128]⟩
abbrev S50000x1 : Shape := ⟨2, ![50000, 1]⟩
abbrev S1x64 : Shape := ⟨2, ![1, 64]⟩
abbrev S64x1 : Shape := ⟨2, ![64, 1]⟩
abbrev S16x1 : Shape := ⟨2, ![16, 1]⟩
abbrev S1x1 : Shape := ⟨2, ![1, 1]⟩

abbrev nBuf : Space → Nat
  | .hbm => 116
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S144x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S50000x64, .f32⟩
  | .hbm, ⟨50, _⟩ => ⟨S64x50000, .f32⟩
  | .hbm, ⟨51, _⟩ => ⟨S64x50000, .bf16⟩
  | .hbm, ⟨52, _⟩ => ⟨S1x800000, .i32⟩
  | .hbm, ⟨53, _⟩ => ⟨S1x800000, .i32⟩
  | .hbm, ⟨54, _⟩ => ⟨S1x800000, .f32⟩
  | .hbm, ⟨55, _⟩ => ⟨S64x50000, .f32⟩
  | .hbm, ⟨56, _⟩ => ⟨S50000x64, .f32⟩
  | .hbm, ⟨57, _⟩ => ⟨S50000, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S64x50000, .f32⟩
  | .hbm, ⟨70, _⟩ => ⟨S64x50000, .bf16⟩
  | .hbm, ⟨71, _⟩ => ⟨S1x800000, .i32⟩
  | .hbm, ⟨72, _⟩ => ⟨S1x800000, .i32⟩
  | .hbm, ⟨73, _⟩ => ⟨S1x800000, .f32⟩
  | .hbm, ⟨74, _⟩ => ⟨S64x50000, .f32⟩
  | .hbm, ⟨75, _⟩ => ⟨S50000x64, .f32⟩
  | .hbm, ⟨76, _⟩ => ⟨S50000, .f32⟩
  | .hbm, ⟨77, _⟩ => ⟨S50000x1, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000x64, .f32⟩
  | .hbm, ⟨86, _⟩ => ⟨S50000x64, .f32⟩
  | .hbm, ⟨87, _⟩ => ⟨S64x1, .f32⟩
  | .hbm, ⟨88, _⟩ => ⟨S50000x1, .f32⟩
  | .hbm, ⟨89, _⟩ => ⟨S64x1, .f32⟩
  | .hbm, ⟨90, _⟩ => ⟨S50000x1, .f32⟩
  | .hbm, ⟨91, _⟩ => ⟨S16x1, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x1, .f32⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x1, .f32⟩
  | .hbm, ⟨110, _⟩ => ⟨S800000x1, .f32⟩
  | .hbm, ⟨111, _⟩ => ⟨S800000x1, .f32⟩
  | .hbm, ⟨112, _⟩ => ⟨S800000x1, .f32⟩
  | .hbm, ⟨113, _⟩ => ⟨S1x1, .f32⟩
  | .hbm, ⟨114, _⟩ => ⟨S800000x1, .f32⟩
  | .hbm, ⟨115, _⟩ => ⟨S800000x1, .f32⟩
  | .local _ .vmem, ⟨0, _⟩ => ⟨S1x128, .i32⟩
  | .local _ .vmem, ⟨1, _⟩ => ⟨S1x128, .i32⟩
  | .local _ .vmem, ⟨2, _⟩ => ⟨S1x128, .i32⟩
  | .local _ .vmem, ⟨3, _⟩ => ⟨S1x128, .i32⟩
  | .local _ .vmem, ⟨4, _⟩ => ⟨S1x128, .f32⟩
  | .local _ .vmem, ⟨5, _⟩ => ⟨S1x128, .f32⟩
  | .local _ .vmem, ⟨6, _⟩ => ⟨S64x50000, .bf16⟩
  | .local _ .vmem, ⟨7, _⟩ => ⟨S64x50000, .f32⟩
  | .local _ .vmem, ⟨8, _⟩ => ⟨S50000x128, .bf16⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x128, .i32⟩
  | .local _ .vmem, ⟨13, _⟩ => ⟨S1x128, .f32⟩
  | .local _ .vmem, ⟨14, _⟩ => ⟨S1x128, .f32⟩
  | .local _ .vmem, ⟨15, _⟩ => ⟨S64x50000, .bf16⟩
  | .local _ .vmem, ⟨16, _⟩ => ⟨S64x50000, .f32⟩
  | .local _ .vmem, ⟨17, _⟩ => ⟨S50000x128, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_cst : Ref sig .tc := ⟨.hbm, 65, rfl⟩
abbrev main_call1_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call2_cst : Ref sig .tc := ⟨.hbm, 84, rfl⟩
abbrev main_call2_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_7 : Ref sig .tc := ⟨.hbm, 92, rfl⟩
abbrev main_v68 : Ref sig .tc := ⟨.hbm, 93, rfl⟩
abbrev main_v69 : Ref sig .tc := ⟨.hbm, 94, rfl⟩
abbrev main_c_8 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_9 : Ref sig .tc := ⟨.hbm, 101, rfl⟩
abbrev main_v75 : Ref sig .tc := ⟨.hbm, 102, rfl⟩
abbrev main_v76 : Ref sig .tc := ⟨.hbm, 103, rfl⟩
abbrev main_c_10 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨1, ![6250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x50000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x50000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![6250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x50000 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x50000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S50000x64_S64x50000_1_0 : S50000x64.Transposes [1, 0] S64x50000
  bitsLt_bf16_f32 : FTy.bits .bf16 < FTy.bits .f32
  shapeCasts_S800000_S1x800000 : S800000.ShapeCasts S1x800000
  inb_S64x50000_S64x50000_0_0 : ∀ a, (![0, 0] : Fin 2 → Nat) a + S64x50000.size a ≤ S64x50000.size a
  h_S64x50000 : 0 < S64x50000.numel
  iota_S50000x128_d0_w32 : S50000x128.Iotas .tc 32 [0]
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S50000x128 : S1x128.Broadcasts S50000x128
  natLt_1_32 : 1 < 32
  inb_S50000x128_S50000x128_0_0 : ∀ a, (![0, 0] : Fin 2 → Nat) a + S50000x128.size a ≤ S50000x128.size a
  h_S50000x128 : 0 < S50000x128.numel
  shapeCasts_S50000x128_S50000x128 : S50000x128.ShapeCasts S50000x128
  packedbf16_S50000x128_S50000x128_0_0 : (Rect.unit (s := S50000x128) ![0, 0] S50000x128.size inb_S50000x128_S50000x128_0_0).PackedRows (EltTy.packing .bf16)
  shapeCasts_S64x50000_S64x50000 : S64x50000.ShapeCasts S64x50000
  broadcasts_S1x128_S64x128 : S1x128.Broadcasts S64x128
  transposes_S64x50000_S50000x64_1_0 : S64x50000.Transposes [1, 0] S50000x64
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S144x1_S64x1_0_0 : S144x1.Slices ![0, 0] S64x1
  slices_S144x1_S64x1_64_0 : S144x1.Slices ![64, 0] S64x1
  slices_S144x1_S16x1_128_0 : S144x1.Slices ![128, 0] S16x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  dot_S64x50000_S50000x128_S64x128_1_0_0_1_n_n_wf : DotDims.WF S64x50000 S50000x128 S64x128 [1] [0] [0] [1] [] []
  dot_S64x128_S50000x128_S64x50000_1_1_0_0_n_n_wf : DotDims.WF S64x128 S50000x128 S64x50000 [1] [1] [0] [0] [] []
  dot_S50000x64_S64x1_S50000x1_1_0_0_1_n_n_wf : DotDims.WF S50000x64 S64x1 S50000x1 [1] [0] [0] [1] [] []
  gather_S50000x1_S800000x1_S800000x1_1_0_n_n_0_1_11_wf : GatherDims.WF S50000x1 S800000x1 S800000x1 [1] [0] [] [0] [] 1 ![1, 1]
  dot_S800000x16_S16x1_S800000x1_1_0_0_1_n_n_wf : DotDims.WF S800000x16 S16x1 S800000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x800000.size a
  hwx0_0 : ∀ i : grid0.Coords, EltTy.bits .i32 = 32 ∨ (Rect.block (s := S1x800000) S1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x800000.size a
  hwx0_1 : ∀ i : grid0.Coords, EltTy.bits .i32 = 32 ∨ (Rect.block (s := S1x800000) S1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x800000.size a
  hwx0_2 : ∀ i : grid0.Coords, EltTy.bits .f32 = 32 ∨ (Rect.block (s := S1x800000) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x50000.size a ≤ S64x50000.size a
  hwx0_3 : ∀ i : grid0.Coords, EltTy.bits .bf16 = 32 ∨ (Rect.block (s := S64x50000) S64x50000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x50000.size a ≤ S64x50000.size a
  hwx0_4 : ∀ i : grid0.Coords, EltTy.bits .f32 = 32 ∨ (Rect.block (s := S64x50000) S64x50000.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x800000.size a
  hwx1_0 : ∀ i : grid1.Coords, EltTy.bits .i32 = 32 ∨ (Rect.block (s := S1x800000) S1x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x800000.size a
  hwx1_1 : ∀ i : grid1.Coords, EltTy.bits .i32 = 32 ∨ (Rect.block (s := S1x800000) S1x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x800000.size a
  hwx1_2 : ∀ i : grid1.Coords, EltTy.bits .f32 = 32 ∨ (Rect.block (s := S1x800000) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x50000.size a ≤ S64x50000.size a
  hwx1_3 : ∀ i : grid1.Coords, EltTy.bits .bf16 = 32 ∨ (Rect.block (s := S64x50000) S64x50000.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x50000.size a ≤ S64x50000.size a
  hwx1_4 : ∀ i : grid1.Coords, EltTy.bits .f32 = 32 ∨ (Rect.block (s := S64x50000) S64x50000.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S64x50000_S50000x128_S64x128_1_0_0_1_n_n : DotDims S64x50000 S50000x128 S64x128 where
  lhsContracting := [1]
  rhsContracting := [0]
  lhsNonContracting := [0]
  rhsNonContracting := [1]
  lhsBatch := []
  rhsBatch := []
  wf := dot_S64x50000_S50000x128_S64x128_1_0_0_1_n_n_wf
def dot_S64x128_S50000x128_S64x50000_1_1_0_0_n_n : DotDims S64x128 S50000x128 S64x50000 where
  lhsContracting := [1]
  rhsContracting := [1]
  lhsNonContracting := [0]
  rhsNonContracting := [0]
  lhsBatch := []
  rhsBatch := []
  wf := dot_S64x128_S50000x128_S64x50000_1_1_0_0_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S800000x16_S16x1_S800000x1_1_0_0_1_n_n : DotDims S800000x16 S16x1 S800000x1 where
  lhsContracting := [1]
  rhsContracting := [0]
  lhsNonContracting := [0]
  rhsNonContracting := [1]
  lhsBatch := []
  rhsBatch := []
  wf := dot_S800000x16_S16x1_S800000x1_1_0_0_1_n_n_wf

abbrev win0_0 : Pipeline.Window sig grid0 :=
  Pipeline.Window.ofSpec (Memref.whole main_v32) S1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S64x50000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S64x50000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v49) S1x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S64x50000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S64x50000.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S64 : Shape := ⟨1, ![64]⟩
abbrev S144x1 : Shape := ⟨2, ![144, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩
abbrev S800000x144 : Shape := ⟨2, ![800000, 144]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S64x64, .f32⟩
  | 4 => ⟨S64, .f32⟩
  | 5 => ⟨S64x64, .f32⟩
  | 6 => ⟨S64, .f32⟩
  | 7 => ⟨S144x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S50000x64, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x1, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S1x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S50000x64, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x144, .f32⟩
  | 22 => ⟨S800000x1, .f32⟩
  | 23 => ⟨S1x1, .f32⟩
  | 24 => ⟨S800000x1, .f32⟩
  | 25 => ⟨S800000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_c_20 : Ref sig .tc := ⟨.hbm, 131, rfl⟩
abbrev main_v92 : Ref sig .tc := ⟨.hbm, 132, rfl⟩
abbrev main_v93 : Ref sig .tc := ⟨.hbm, 133, rfl⟩
abbrev main_c_21 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_22 : Ref sig .tc := ⟨.hbm, 140, rfl⟩
abbrev main_v99 : Ref sig .tc := ⟨.hbm, 141, rfl⟩
abbrev main_v100 : Ref sig .tc := ⟨.hbm, 142, rfl⟩
abbrev main_c_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  dot_S800000x144_S144x1_S800000x1_1_0_0_1_n_n_wf : DotDims.WF S800000x144 S144x1 S800000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x1_S800000x1_1_0_0_1_n_n : DotDims S800000x144 S144x1 S800000x1 where
  lhsContracting := [1]
  rhsContracting := [0]
  lhsNonContracting := [0]
  rhsNonContracting := [1]
  lhsBatch := []
  rhsBatch := []
  wf := dot_S800000x144_S144x1_S800000x1_1_0_0_1_n_n_wf

class Facts : Prop extends Facts₀ where

variable [Facts]
-- ==== Proof.KTerms.lean ====
/-
  The kernel's host program and its aggregation kernel as pure functions of their operands.

  The host side of one graph-convolution layer: from the 2 x E edge list, the source and destination
  endpoints; the in-degree of each node counted over the edges, plus one for the node's own loop; its
  inverse square root d; per edge the weight d[src] * d[dst]; the feature matrix times the layer's
  weights; and, around the aggregation kernel's result A (features x nodes), the layer's output
  A^T + (d * d) h + b.

  The aggregation kernel at one block of 128 edges: the 0/1 matrix that has a one at (n, j) exactly when
  the j-th endpoint word of the block is n; the block's messages, the transposed feature table times
  the sources' 0/1 matrix, each column scaled by its edge's weight; and the accumulator plus the messages
  times the destinations' 0/1 matrix, transposed. Over the grid the accumulator starts from zero at the
  first block and is carried from block to block.
-/
import proofs.«426948_j5884105195871_1_alg».proof.Proof.Gen.KernelIdeal
import Idealize.ShloMosaic.Lib.ValueIdx

noncomputable section

namespace Cert.KernelIdeal.KT

open Cert.KernelIdeal Cert.KernelIdeal.Gen Idealize.ShloMosaic Idealize.ShloMosaic.ValueIdx

variable {F : FTy → Type} [FloatOps F]

/-! ## The host side -/

/-- The edges' source endpoints: row 0 of the edge list. -/
def src1 (ei : IVec S2x800000 32) : IVec S800000 32 :=
  shapeCast S800000 (extractStridedSlice S1x800000 ![0, 0] ei slices_S2x800000_S1x800000_0_0) shapeCasts_S1x800000_S800000
/-- The edges' destination endpoints: row 1 of the edge list. -/
def dst1 (ei : IVec S2x800000 32) : IVec S800000 32 :=
  shapeCast S800000 (extractStridedSlice S1x800000 ![1, 0] ei slices_S2x800000_S1x800000_1_0) shapeCasts_S1x800000_S800000
/-- An endpoint vector as a column of start indices. -/
def colE (v : IVec S800000 32) : IVec S800000x1 32 := broadcastInDim S800000x1 ![0] bcast_S800000_S800000x1_0 v
/-- A negative endpoint counts from the end: 50000 is added to it. -/
def wrapE (v : IVec S800000 32) : IVec S800000 32 :=
  select (cmpi .slt v (broadcastInDim S800000 ![] bcast_S_S800000 (constantI S_ 32 0#32)))
    (addi v (broadcastInDim S800000 ![] bcast_S_S800000 (constantI S_ 32 50000#32))) v
/-- The degree of each node: the number of edges that end at it, plus one. -/
def degK (ei : IVec S2x800000 32) : FVec F S50000 .f32 :=
  addf (Host.scatterAdd scatter_S50000_S800000x1_S800000_n_0_0_1 (broadcastInDim S50000 ![] bcast_S_S50000 (constant S_ .f32 0x00000000#32))
      (colE (dst1 ei)) (broadcastInDim S800000 ![] bcast_S_S800000 (constant S_ .f32 0x3F800000#32)))
    (broadcastInDim S50000 ![] bcast_S_S50000 (constant S_ .f32 0x3F800000#32))
/-- The inverse square root of a positive degree, zero otherwise. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (id (constant S_ .f32 0x00000000#32)))
/-- Each edge's weight: d at its source times d at its destination. -/
def normK (dinv : FVec F S50000 .f32) (ei : IVec S2x800000 32) : FVec F S800000 .f32 :=
  mulf (Host.gather gather_S50000_S800000x1_S800000_n_0_n_n_0_1_1 dinv (colE (wrapE (src1 ei))))
    (Host.gather gather_S50000_S800000x1_S800000_n_0_n_n_0_1_1 dinv (colE (wrapE (dst1 ei))))
/-- Node features times a layer's weights. -/
def lin (x : FVec F S50000x64 .f32) (W : FVec F S64x64 .f32) : FVec F S50000x64 .f32 :=
  Host.dotGeneral dot_S50000x64_S64x64_S50000x64_1_0_0_1_n_n none x W
/-- The feature table as the aggregation kernel takes it: transposed. -/
def hTof (h : FVec F S50000x64 .f32) : FVec F S64x50000 .bf16 :=
  truncf .bf16 (transpose S64x50000 [1, 0] h transposes_S50000x64_S64x50000_1_0) bitsLt_bf16_f32
/-- A per-edge vector as one row. -/
def rowOf {α : Type} (v : S800000.Idx → α) : S1x800000.Idx → α := shapeCast S1x800000 v shapeCasts_S800000_S1x800000
/-- A layer's output around the aggregate A (features x nodes): A^T + (d * d) h + b. -/
def layerK (aggT : FVec F S64x50000 .f32) (dinv : FVec F S50000 .f32) (h : FVec F S50000x64 .f32) (b : FVec F S64 .f32) :
    FVec F S50000x64 .f32 :=
  addf (addf (transpose S50000x64 [1, 0] aggT transposes_S64x50000_S50000x64_1_0)
      (mulf (broadcastInDim S50000x64 ![0, 1] bcast_S50000x1_S50000x64_0_1 (broadcastInDim S50000x1 ![0] bcast_S50000_S50000x1_0 (mulf dinv dinv))) h))
    (broadcastInDim S50000x64 ![0, 1] bcast_S1x64_S50000x64_0_1 (broadcastInDim S1x64 ![1] bcast_S64_S1x64_1 b))
/-- The positive part. -/
def relu (x : FVec F S50000x64 .f32) : FVec F S50000x64 .f32 :=
  maximumf x (broadcastInDim S50000x64 ![] bcast_S_S50000x64 (constant S_ .f32 0x00000000#32))
/-- The edge scores: the node scores of the two endpoints, the edge attributes' score, and the bias. -/
def headK (h2 : FVec F S50000x64 .f32) (ei : IVec S2x800000 32) (attr : FVec F S800000x16 .f32) (We : FVec F S144x1 .f32)
    (be : FVec F S1 .f32) : FVec F S800000x1 .f32 :=
  addf (addf (addf
        (Host.gather gather_S50000x1_S800000x1_S800000x1_1_0_n_n_0_1_11
          (Host.dotGeneral dot_S50000x64_S64x1_S50000x1_1_0_0_1_n_n none h2 (extractStridedSlice S64x1 ![0, 0] We slices_S144x1_S64x1_0_0))
          (colE (wrapE (src1 ei))))
        (Host.gather gather_S50000x1_S800000x1_S800000x1_1_0_n_n_0_1_11
          (Host.dotGeneral dot_S50000x64_S64x1_S50000x1_1_0_0_1_n_n none h2 (extractStridedSlice S64x1 ![64, 0] We slices_S144x1_S64x1_64_0))
          (colE (wrapE (dst1 ei)))))
      (Host.dotGeneral dot_S800000x16_S16x1_S800000x1_1_0_0_1_n_n none attr (extractStridedSlice S16x1 ![128, 0] We slices_S144x1_S16x1_128_0)))
    (broadcastInDim S800000x1 ![0, 1] bcast_S1x1_S800000x1_0_1 (broadcastInDim S1x1 ![1] bcast_S1_S1x1_1 be))

/-! ## The aggregation kernel -/

/-- The 0/1 matrix of a block of endpoint words: one at (n, j) exactly when word j is n. -/
def onehot (x : Vec F S1x128 .i32) : FVec F S50000x128 .bf16 :=
  shapeCast S50000x128
    (truncf .bf16 (sitofp .f32 (extui 32 (cmpi .eq (iota .tc S50000x128 32 [0] iota_S50000x128_d0_w32)
      (broadcastTo S50000x128 (shapeCast S1x128 (shapeCast S1x128 x shapeCasts_S1x128_S1x128) shapeCasts_S1x128_S1x128) broadcasts_S1x128_S50000x128)) natLt_1_32)) bitsLt_bf16_f32)
    shapeCasts_S50000x128_S50000x128
/-- A block's messages: the feature table times the sources' 0/1 matrix, each column scaled by its edge's weight. -/
def msgOf (hT : Vec F S64x50000 .bf16) (oh : Vec F S50000x128 .bf16) (nrm : Vec F S1x128 .f32) : FVec F S64x128 .bf16 :=
  truncf .bf16 (mulf (matmul dot_S64x50000_S50000x128_S64x128_1_0_0_1_n_n none (shapeCast S64x50000 hT shapeCasts_S64x50000_S64x50000) oh (constant S64x128 .f32 0x00000000#32))
    (broadcastTo S64x128 (shapeCast S1x128 nrm shapeCasts_S1x128_S1x128) broadcasts_S1x128_S64x128)) bitsLt_bf16_f32
/-- One grid point: the accumulator plus the block's messages times the destinations' 0/1 matrix, transposed. -/
def step (x0 x1 : Vec F S1x128 .i32) (x2 : Vec F S1x128 .f32) (x3 : Vec F S64x50000 .bf16) (xo : Vec F S64x50000 .f32) :
    FVec F S64x50000 .f32 :=
  addf (shapeCast S64x50000 xo shapeCasts_S64x50000_S64x50000)
    (matmul dot_S64x128_S50000x128_S64x50000_1_1_0_0_n_n none (msgOf x3 (onehot x0) x2) (onehot x1) (constant S64x50000 .f32 0x00000000#32))
/-- The accumulator the first grid point starts from. -/
def zeroAcc : FVec F S64x50000 .f32 := broadcast S64x50000 (Scalar.ofBits .f32 0x00000000#32)
/-- Block t of a row of 800000 entries: its 128 entries from 128 t on. -/
def blk {α : Type} (row : S1x800000.Idx → α) (t : ℕ) (ht : t < 6250) : S1x128.Idx → α :=
  fun y => row (ix2 (0 : Fin 1) ⟨128 * t + (y 1).val, by have := idx2_lt1 y; omega⟩)
/-- The accumulator after grid point n: the steps folded over blocks 0 … n from zero. -/
def aggAt (s d : S1x800000.Idx → BitVec 32) (nr : S1x800000.Idx → F .f32) (hT : Vec F S64x50000 .bf16) :
    (n : ℕ) → n < 6250 → FVec F S64x50000 .f32
  | 0, h => step (blk s 0 h) (blk d 0 h) (blk nr 0 h) hT zeroAcc
  | n + 1, h => step (blk s (n + 1) h) (blk d (n + 1) h) (blk nr (n + 1) h) hT (aggAt s d nr hT n (Nat.lt_of_succ_lt h))
/-- The aggregation kernel's result: the accumulator after the last grid point. -/
def aggLast (s d : S1x800000.Idx → BitVec 32) (nr : S1x800000.Idx → F .f32) (hT : Vec F S64x50000 .bf16) : FVec F S64x50000 .f32 :=
  aggAt s d nr hT 6249 (by decide)

/-! ## The whole program -/

/-- The aggregate of a layer, from the edge list, the edge weights and the layer's feature table. -/
def aggOf (ei : IVec S2x800000 32) (nrm : FVec F S800000 .f32) (h : FVec F S50000x64 .f32) : FVec F S64x50000 .f32 :=
  aggLast (rowOf (src1 ei)) (rowOf (dst1 ei)) (rowOf nrm) (hTof h)

/-- The kernel program's result as one function of its nine arguments. -/
def resK (x : FVec F S50000x64 .f32) (ei : IVec S2x800000 32) (attr : FVec F S800000x16 .f32) (W1 : FVec F S64x64 .f32)
    (b1 : FVec F S64 .f32) (W2 : FVec F S64x64 .f32) (b2 : FVec F S64 .f32) (We : FVec F S144x1 .f32) (be : FVec F S1 .f32) :
    FVec F S800000x1 .f32 :=
  headK (relu (layerK (aggOf ei (normK (dinvOf (degK ei)) ei) (lin (relu (layerK (aggOf ei (normK (dinvOf (degK ei)) ei) (lin x W1)) (dinvOf (degK ei)) (lin x W1) b1)) W2))
    (dinvOf (degK ei)) (lin (relu (layerK (aggOf ei (normK (dinvOf (degK ei)) ei) (lin x W1)) (dinvOf (degK ei)) (lin x W1) b1)) W2) b2)) ei attr We be

end Cert.KernelIdeal.KT

end
-- ==== Proof.KRegion0.lean ====
/-
  The first aggregation region's result array: after the region, its output array holds the accumulator after the
  last grid point, the steps folded over the 6250 blocks of the three per-edge rows from zero.
-/
import proofs.«426948_j5884105195871_1_alg».proof.Proof.Gen.KernelIdeal.Frame
import proofs.«426948_j5884105195871_1_alg».proof.Proof.KTerms
import Idealize.ShloMosaic.Lib.Pipeline.Value
import Idealize.ShloMosaic.Lib.Tactic

set_option maxRecDepth 16384

noncomputable section

namespace Cert.KernelIdeal.KReg0

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Both coordinates of a whole-buffer rectangle's offset are zero. -/
theorem hz : (![0, 0] : Fin 2 → Nat) = fun _ => 0 := funext fun a => by fin_cases a <;> rfl

/-- A grid point other than the first: over an accumulator holding `xo`, the body leaves one step from `xo`. The
    0/1 matrices pass through the scratch buffer: each is stored whole and read back whole, the destinations' over
    the sources', so each read returns the matrix stored last. -/
theorem stepAfter (c : Dev nD) (i : grid0.Coords) (a1 : Memref sig .tc .vmem S1x128 .i32) (h1 : a1.IsWhole)
    (a2 : Memref sig .tc .vmem S1x128 .i32) (h2 : a2.IsWhole) (a3 : Memref sig .tc .vmem S1x128 .f32) (h3 : a3.IsWhole)
    (a4 : Memref sig .tc .vmem S64x50000 .bf16) (h4 : a4.IsWhole) (a5 : Memref sig .tc .vmem S64x50000 .f32) (h5 : a5.IsWhole)
    (a6 : Memref sig .tc .vmem S50000x128 .bf16) (h6 : a6.IsWhole) (hc : ¬cond0_0 i)
    (x0 x1 : Vec F S1x128 .i32) (x2 : Vec F S1x128 .f32) (x3 : Vec F S64x50000 .bf16) (xo : Vec F S64x50000 .f32) :
    out0_B_4 c i a1 h1 a2 h2 a3 h3 a4 h4 a5 h5 a6 h6 hc x0 x1 x2 x3 xo = KT.step x0 x1 x2 x3 xo := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S1x128) hz, View.ld_unit_zero (S := S64x50000) hz, View.readCov_cons_toLoadRect]
  unfold k0_pay1 k0_pay4 k0_pay3 k0_pay5 KT.step KT.msgOf KT.onehot
  rfl

/-- The first grid point: the body stores the zero accumulator, reads it back, and leaves one step from zero. -/
theorem stepFirst (c : Dev nD) (i : grid0.Coords) (a1 : Memref sig .tc .vmem S1x128 .i32) (h1 : a1.IsWhole)
    (a2 : Memref sig .tc .vmem S1x128 .i32) (h2 : a2.IsWhole) (a3 : Memref sig .tc .vmem S1x128 .f32) (h3 : a3.IsWhole)
    (a4 : Memref sig .tc .vmem S64x50000 .bf16) (h4 : a4.IsWhole) (a5 : Memref sig .tc .vmem S64x50000 .f32) (h5 : a5.IsWhole)
    (a6 : Memref sig .tc .vmem S50000x128 .bf16) (h6 : a6.IsWhole) (hc : cond0_0 i)
    (x0 x1 : Vec F S1x128 .i32) (x2 : Vec F S1x128 .f32) (x3 : Vec F S64x50000 .bf16) :
    out0_A_4 c i a1 h1 a2 h2 a3 h3 a4 h4 a5 h5 a6 h6 hc x0 x1 x2 x3 = KT.step x0 x1 x2 x3 KT.zeroAcc := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S64x50000) hz]
  simp only [View.readAt_eq_ld, h1.read_unread, h2.read_unread, h3.read_unread, h4.read_unread,
    View.ld_unit_zero (S := S1x128) hz, View.ld_unit_zero (S := S64x50000) hz, View.readCov_cons_toLoadRect,
    View.readCov_unit_zero (S := S64x50000) _ hz]
  unfold k0_pay1 k0_pay2 k0_pay4 k0_pay3 k0_pay5 KT.step KT.msgOf KT.onehot KT.zeroAcc
  rfl

/-- The source words' window at grid point `t` holds block `t` of their row: entry `j` of the block is entry `128 t + j` of the row. -/
theorem srcBlock (c : Dev nD) (t : Fin cfg0.N) (ht : t.val < 6250) :
    (iblk0 V c 0 t : Vec F S1x128 .i32) = KT.blk (V c main_v32) t.val ht := by
  have hi : win0_0.index t 0 = 0 ∧ win0_0.index t 1 = t.val :=
    (by decide +kernel : ∀ t : Fin grid0.N, win0_0.index t 0 = 0 ∧ win0_0.index t 1 = t.val) t
  funext j
  unfold iblk0 KT.blk
  rw [View.read_apply]
  show V c main_v32 _ = V c main_v32 _
  congr 1
  funext a
  apply Fin.ext
  have j0 : (j 0).val < 1 := (j 0).isLt
  match a with
  | ⟨0, _⟩ => show win0_0.index t 0 * 1 + 1 * (j 0).val = 0; rw [hi.1]; omega
  | ⟨1, _⟩ => show win0_0.index t 1 * 128 + 1 * (j 1).val = 128 * t.val + (j 1).val; rw [hi.2]; omega

/-- The destination words' window at grid point `t` holds block `t` of their row. -/
theorem dstBlock (c : Dev nD) (t : Fin cfg0.N) (ht : t.val < 6250) :
    (iblk0 V c 1 t : Vec F S1x128 .i32) = KT.blk (V c main_v33) t.val ht := by
  have hi : win0_1.index t 0 = 0 ∧ win0_1.index t 1 = t.val :=
    (by decide +kernel : ∀ t : Fin grid0.N, win0_1.index t 0 = 0 ∧ win0_1.index t 1 = t.val) t
  funext j
  unfold iblk0 KT.blk
  rw [View.read_apply]
  show V c main_v33 _ = V c main_v33 _
  congr 1
  funext a
  apply Fin.ext
  have j0 : (j 0).val < 1 := (j 0).isLt
  match a with
  | ⟨0, _⟩ => show win0_1.index t 0 * 1 + 1 * (j 0).val = 0; rw [hi.1]; omega
  | ⟨1, _⟩ => show win0_1.index t 1 * 128 + 1 * (j 1).val = 128 * t.val + (j 1).val; rw [hi.2]; omega

/-- The edge weights' window at grid point `t` holds block `t` of their row. -/
theorem wgtBlock (c : Dev nD) (t : Fin cfg0.N) (ht : t.val < 6250) :
    (iblk0 V c 2 t : Vec F S1x128 .f32) = KT.blk (V c main_v34) t.val ht := by
  have hi : win0_2.index t 0 = 0 ∧ win0_2.index t 1 = t.val :=
    (by decide +kernel : ∀ t : Fin grid0.N, win0_2.index t 0 = 0 ∧ win0_2.index t 1 = t.val) t
  funext j
  unfold iblk0 KT.blk
  rw [View.read_apply]
  show V c main_v34 _ = V c main_v34 _
  congr 1
  funext a
  apply Fin.ext
  have j0 : (j 0).val < 1 := (j 0).isLt
  match a with
  | ⟨0, _⟩ => show win0_2.index t 0 * 1 + 1 * (j 0).val = 0; rw [hi.1]; omega
  | ⟨1, _⟩ => show win0_2.index t 1 * 128 + 1 * (j 1).val = 128 * t.val + (j 1).val; rw [hi.2]; omega

/-- The feature table's window is the whole table at every grid point: its one block starts at (0, 0). -/
theorem tableBlock (c : Dev nD) (t : Fin cfg0.N) :
    (iblk0 V c 3 t : Vec F S64x50000 .bf16) = V c main_v31 := by
  have hi : win0_3.index t 0 = 0 ∧ win0_3.index t 1 = 0 :=
    (by decide +kernel : ∀ t : Fin grid0.N, win0_3.index t 0 = 0 ∧ win0_3.index t 1 = 0) t
  funext j
  unfold iblk0
  rw [View.read_apply]
  show V c main_v31 _ = V c main_v31 j
  congr 1
  funext a
  apply Fin.ext
  match a with
  | ⟨0, _⟩ => show win0_3.index t 0 * 64 + 1 * (j 0).val = (j 0).val; rw [hi.1]; omega
  | ⟨1, _⟩ => show win0_3.index t 1 * 50000 + 1 * (j 1).val = (j 1).val; rw [hi.2]; omega

/-- After grid point `n` the accumulator's buffer holds the steps folded over blocks 0 … `n` from zero: the first
    point resets and steps once, every later point steps once from what the point before left. -/
theorem accAfter (c : Dev nD) : ∀ (n : ℕ) (h : n < cfg0.N) (h' : n < 6250),
    outsAt0 V c n h = KT.aggAt (V c main_v32) (V c main_v33) (V c main_v34) (V c main_v31) n h'
  | 0, h, h' => by
    refine (outsAt0_A V c ⟨0, h⟩ rfl).trans ?_
    refine (stepFirst c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _)
      ((hcond0_0 ⟨0, h⟩).mpr rfl) (iblk0 V c 0 ⟨0, h⟩) (iblk0 V c 1 ⟨0, h⟩) (iblk0 V c 2 ⟨0, h⟩) (iblk0 V c 3 ⟨0, h⟩)).trans ?_
    rw [srcBlock V c ⟨0, h⟩ h', dstBlock V c ⟨0, h⟩ h', wgtBlock V c ⟨0, h⟩ h', tableBlock V c ⟨0, h⟩]
    rfl
  | n + 1, h, h' => by
    have hB : ¬(⟨n + 1, h⟩ : Fin cfg0.N).val % 6250 = 0 := by dsimp only; omega
    refine (outsAt0_B V c ⟨n + 1, h⟩ hB).trans ?_
    refine (stepAfter c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
      (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩)
      (outsAt0 V c n (Nat.lt_of_succ_lt h))).trans ?_
    rw [srcBlock V c ⟨n + 1, h⟩ h', dstBlock V c ⟨n + 1, h⟩ h', wgtBlock V c ⟨n + 1, h⟩ h', tableBlock V c ⟨n + 1, h⟩]
    show KT.step (KT.blk (V c main_v32) (n + 1) h') (KT.blk (V c main_v33) (n + 1) h') (KT.blk (V c main_v34) (n + 1) h') (V c main_v31) (outsAt0 V c n (Nat.lt_of_succ_lt h))
      = KT.step (KT.blk (V c main_v32) (n + 1) h') (KT.blk (V c main_v33) (n + 1) h') (KT.blk (V c main_v34) (n + 1) h') (V c main_v31) (KT.aggAt (V c main_v32) (V c main_v33) (V c main_v34) (V c main_v31) n (Nat.lt_of_succ_lt h'))
    rw [accAfter c n (Nat.lt_of_succ_lt h) (Nat.lt_of_succ_lt h')]

/-- The last grid point, the only one whose accumulator is written back. -/
abbrev tLast : Fin cfg0.N := ⟨6249, by rw [show cfg0.N = 6250 from N_0]; decide⟩

/-- The fold over all blocks, as contents of the output array. -/
abbrev folded (c : Dev nD) : Buf (Elt F) ((c : Thread nD τ).loc main_v35) :=
  KT.aggLast (V c main_v32) (V c main_v33) (V c main_v34) (V c main_v31)

/-- The output's one block starts at (0, 0), at the last point as at every point. -/
theorem outBlock_origin : (fun a => win0_4.index tLast a * main_v35.ty.shape.size a) = fun _ => 0 :=
  funext fun a => by fin_cases a <;> decide +kernel

/-- The one write-back writes the fold over all blocks: it happens at the last grid point, where the accumulator holds
    that fold, and the block it writes, read through zero offsets at the array's own extents, is the whole array. -/
theorem lastWriteBack (c : Dev nD) (t : Fin cfg0.N) (hf : (cfg0.win 4).flush t = true) :
    (dat0 V c).flushed 4 t = ((cfg0.win 4).blk t).view.read (Elt F) (folded V c) := by
  have hN : cfg0.N = 6250 := N_0
  have h9 : t.val = 6249 := by have := (flush0_4 t).mp hf; have := t.isLt; omega
  obtain rfl : t = tLast := Fin.ext h9
  show (cfg0.win 4).cut (grid0.coords tLast) ((dat0 V c).after 4 tLast) = _
  rw [after0_4, accAfter V c 6249 tLast.isLt (by decide)]
  exact (Memref.read_access_unit_zero (Elt F) main_v35 outBlock_origin
    (fun a => by rw [congrFun outBlock_origin a]; simp) (folded V c)).symm

/-- The region's output array after its last write-back is the fold of the steps over all blocks. -/
theorem agg0 (c : Dev nD) :
    (dat0 V c).arrAt 4 cfg0.N = KT.aggLast (V c main_v32) (V c main_v33) (V c main_v34) (V c main_v31) :=
  (dat0 V c).arrAt_eq_of_cover 4 (folded V c) (lastWriteBack V c) fun i =>
    ⟨tLast, (flush0_4 tLast).mpr rfl, by
      show i ∈ ((View.whole main_v35).slice (win0_4.rect tLast)).set
      rw [View.set_slice_whole, Rect.mem_set_unit]
      have org : ∀ a, win0_4.index tLast a * win0_4.size a = 0 := by decide +kernel
      have ext0 : win0_4.xsize (grid0.coords tLast) 0 = 64 := by decide +kernel
      have ext1 : win0_4.xsize (grid0.coords tLast) 1 = 50000 := by decide +kernel
      have i0 : (i 0 : Nat) < 64 := (i 0).isLt
      have i1 : (i 1 : Nat) < 50000 := (i 1).isLt
      intro a
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [org 0, ext0]; omega
      | ⟨1, _⟩ =>
        show win0_4.index tLast 1 * win0_4.size 1 ≤ (i 1 : Nat)
          ∧ (i 1 : Nat) < win0_4.index tLast 1 * win0_4.size 1 + win0_4.xsize (grid0.coords tLast) 1
        rw [org 1, ext1]; omega⟩

end Cert.KernelIdeal.KReg0

end
-- ==== Proof.KRegion1.lean ====
/-
  The second aggregation region's result array: after the region, its output array holds the accumulator after the
  last grid point, the steps folded over the 6250 blocks of the three per-edge rows from zero.
-/
import proofs.«426948_j5884105195871_1_alg».proof.Proof.Gen.KernelIdeal.Frame
import proofs.«426948_j5884105195871_1_alg».proof.Proof.KTerms
import Idealize.ShloMosaic.Lib.Pipeline.Value
import Idealize.ShloMosaic.Lib.Tactic

set_option maxRecDepth 16384

noncomputable section

namespace Cert.KernelIdeal.KReg1

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Both coordinates of a whole-buffer rectangle's offset are zero. -/
theorem hz : (![0, 0] : Fin 2 → Nat) = fun _ => 0 := funext fun a => by fin_cases a <;> rfl

/-- A grid point other than the first: over an accumulator holding `xo`, the body leaves one step from `xo`. The
    0/1 matrices pass through the scratch buffer: each is stored whole and read back whole, the destinations' over
    the sources', so each read returns the matrix stored last. -/
theorem stepAfter (c : Dev nD) (i : grid1.Coords) (a1 : Memref sig .tc .vmem S1x128 .i32) (h1 : a1.IsWhole)
    (a2 : Memref sig .tc .vmem S1x128 .i32) (h2 : a2.IsWhole) (a3 : Memref sig .tc .vmem S1x128 .f32) (h3 : a3.IsWhole)
    (a4 : Memref sig .tc .vmem S64x50000 .bf16) (h4 : a4.IsWhole) (a5 : Memref sig .tc .vmem S64x50000 .f32) (h5 : a5.IsWhole)
    (a6 : Memref sig .tc .vmem S50000x128 .bf16) (h6 : a6.IsWhole) (hc : ¬cond1_0 i)
    (x0 x1 : Vec F S1x128 .i32) (x2 : Vec F S1x128 .f32) (x3 : Vec F S64x50000 .bf16) (xo : Vec F S64x50000 .f32) :
    out1_B_4 c i a1 h1 a2 h2 a3 h3 a4 h4 a5 h5 a6 h6 hc x0 x1 x2 x3 xo = KT.step x0 x1 x2 x3 xo := by
  unfold out1_B_4
  rw [View.read_writes_eq_canon _ _ _ (cover1_B_4 c i a1 h1 a2 h2 a3 h3 a4 h4 a5 h5 a6 h6 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S1x128) hz, View.ld_unit_zero (S := S64x50000) hz, View.readCov_cons_toLoadRect]
  unfold k1_pay1 k1_pay4 k1_pay3 k1_pay5 KT.step KT.msgOf KT.onehot
  rfl

/-- The first grid point: the body stores the zero accumulator, reads it back, and leaves one step from zero. -/
theorem stepFirst (c : Dev nD) (i : grid1.Coords) (a1 : Memref sig .tc .vmem S1x128 .i32) (h1 : a1.IsWhole)
    (a2 : Memref sig .tc .vmem S1x128 .i32) (h2 : a2.IsWhole) (a3 : Memref sig .tc .vmem S1x128 .f32) (h3 : a3.IsWhole)
    (a4 : Memref sig .tc .vmem S64x50000 .bf16) (h4 : a4.IsWhole) (a5 : Memref sig .tc .vmem S64x50000 .f32) (h5 : a5.IsWhole)
    (a6 : Memref sig .tc .vmem S50000x128 .bf16) (h6 : a6.IsWhole) (hc : cond1_0 i)
    (x0 x1 : Vec F S1x128 .i32) (x2 : Vec F S1x128 .f32) (x3 : Vec F S64x50000 .bf16) :
    out1_A_4 c i a1 h1 a2 h2 a3 h3 a4 h4 a5 h5 a6 h6 hc x0 x1 x2 x3 = KT.step x0 x1 x2 x3 KT.zeroAcc := by
  unfold out1_A_4
  rw [View.read_writes_eq_canon _ _ _ (cover1_A_4 c i a1 h1 a2 h2 a3 h3 a4 h4 a5 h5 a6 h6 hc x0 x1 x2 x3)]
  unfold kernelRun1_A
  dsimp only
  sl_unfold_words
  rw [View.canon_cons_unit_zero (S := S64x50000) hz]
  simp only [View.readAt_eq_ld, h1.read_unread, h2.read_unread, h3.read_unread, h4.read_unread,
    View.ld_unit_zero (S := S1x128) hz, View.ld_unit_zero (S := S64x50000) hz, View.readCov_cons_toLoadRect,
    View.readCov_unit_zero (S := S64x50000) _ hz]
  unfold k1_pay1 k1_pay2 k1_pay4 k1_pay3 k1_pay5 KT.step KT.msgOf KT.onehot KT.zeroAcc
  rfl

/-- The source words' window at grid point `t` holds block `t` of their row: entry `j` of the block is entry `128 t + j` of the row. -/
theorem srcBlock (c : Dev nD) (t : Fin cfg1.N) (ht : t.val < 6250) :
    (iblk1 V c 0 t : Vec F S1x128 .i32) = KT.blk (V c main_v49) t.val ht := by
  have hi : win1_0.index t 0 = 0 ∧ win1_0.index t 1 = t.val :=
    (by decide +kernel : ∀ t : Fin grid1.N, win1_0.index t 0 = 0 ∧ win1_0.index t 1 = t.val) t
  funext j
  unfold iblk1 KT.blk
  rw [View.read_apply]
  show V c main_v49 _ = V c main_v49 _
  congr 1
  funext a
  apply Fin.ext
  have j0 : (j 0).val < 1 := (j 0).isLt
  match a with
  | ⟨0, _⟩ => show win1_0.index t 0 * 1 + 1 * (j 0).val = 0; rw [hi.1]; omega
  | ⟨1, _⟩ => show win1_0.index t 1 * 128 + 1 * (j 1).val = 128 * t.val + (j 1).val; rw [hi.2]; omega

/-- The destination words' window at grid point `t` holds block `t` of their row. -/
theorem dstBlock (c : Dev nD) (t : Fin cfg1.N) (ht : t.val < 6250) :
    (iblk1 V c 1 t : Vec F S1x128 .i32) = KT.blk (V c main_v50) t.val ht := by
  have hi : win1_1.index t 0 = 0 ∧ win1_1.index t 1 = t.val :=
    (by decide +kernel : ∀ t : Fin grid1.N, win1_1.index t 0 = 0 ∧ win1_1.index t 1 = t.val) t
  funext j
  unfold iblk1 KT.blk
  rw [View.read_apply]
  show V c main_v50 _ = V c main_v50 _
  congr 1
  funext a
  apply Fin.ext
  have j0 : (j 0).val < 1 := (j 0).isLt
  match a with
  | ⟨0, _⟩ => show win1_1.index t 0 * 1 + 1 * (j 0).val = 0; rw [hi.1]; omega
  | ⟨1, _⟩ => show win1_1.index t 1 * 128 + 1 * (j 1).val = 128 * t.val + (j 1).val; rw [hi.2]; omega

/-- The edge weights' window at grid point `t` holds block `t` of their row. -/
theorem wgtBlock (c : Dev nD) (t : Fin cfg1.N) (ht : t.val < 6250) :
    (iblk1 V c 2 t : Vec F S1x128 .f32) = KT.blk (V c main_v51) t.val ht := by
  have hi : win1_2.index t 0 = 0 ∧ win1_2.index t 1 = t.val :=
    (by decide +kernel : ∀ t : Fin grid1.N, win1_2.index t 0 = 0 ∧ win1_2.index t 1 = t.val) t
  funext j
  unfold iblk1 KT.blk
  rw [View.read_apply]
  show V c main_v51 _ = V c main_v51 _
  congr 1
  funext a
  apply Fin.ext
  have j0 : (j 0).val < 1 := (j 0).isLt
  match a with
  | ⟨0, _⟩ => show win1_2.index t 0 * 1 + 1 * (j 0).val = 0; rw [hi.1]; omega
  | ⟨1, _⟩ => show win1_2.index t 1 * 128 + 1 * (j 1).val = 128 * t.val + (j 1).val; rw [hi.2]; omega

/-- The feature table's window is the whole table at every grid point: its one block starts at (0, 0). -/
theorem tableBlock (c : Dev nD) (t : Fin cfg1.N) :
    (iblk1 V c 3 t : Vec F S64x50000 .bf16) = V c main_v48 := by
  have hi : win1_3.index t 0 = 0 ∧ win1_3.index t 1 = 0 :=
    (by decide +kernel : ∀ t : Fin grid1.N, win1_3.index t 0 = 0 ∧ win1_3.index t 1 = 0) t
  funext j
  unfold iblk1
  rw [View.read_apply]
  show V c main_v48 _ = V c main_v48 j
  congr 1
  funext a
  apply Fin.ext
  match a with
  | ⟨0, _⟩ => show win1_3.index t 0 * 64 + 1 * (j 0).val = (j 0).val; rw [hi.1]; omega
  | ⟨1, _⟩ => show win1_3.index t 1 * 50000 + 1 * (j 1).val = (j 1).val; rw [hi.2]; omega

/-- After grid point `n` the accumulator's buffer holds the steps folded over blocks 0 … `n` from zero: the first
    point resets and steps once, every later point steps once from what the point before left. -/
theorem accAfter (c : Dev nD) : ∀ (n : ℕ) (h : n < cfg1.N) (h' : n < 6250),
    outsAt1 V c n h = KT.aggAt (V c main_v49) (V c main_v50) (V c main_v51) (V c main_v48) n h'
  | 0, h, h' => by
    refine (outsAt1_A V c ⟨0, h⟩ rfl).trans ?_
    refine (stepFirst c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) scM1_0 (Memref.isWhole_whole _)
      ((hcond1_0 ⟨0, h⟩).mpr rfl) (iblk1 V c 0 ⟨0, h⟩) (iblk1 V c 1 ⟨0, h⟩) (iblk1 V c 2 ⟨0, h⟩) (iblk1 V c 3 ⟨0, h⟩)).trans ?_
    rw [srcBlock V c ⟨0, h⟩ h', dstBlock V c ⟨0, h⟩ h', wgtBlock V c ⟨0, h⟩ h', tableBlock V c ⟨0, h⟩]
    rfl
  | n + 1, h, h' => by
    have hB : ¬(⟨n + 1, h⟩ : Fin cfg1.N).val % 6250 = 0 := by dsimp only; omega
    refine (outsAt1_B V c ⟨n + 1, h⟩ hB).trans ?_
    refine (stepAfter c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _)
      (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
      (outsAt1 V c n (Nat.lt_of_succ_lt h))).trans ?_
    rw [srcBlock V c ⟨n + 1, h⟩ h', dstBlock V c ⟨n + 1, h⟩ h', wgtBlock V c ⟨n + 1, h⟩ h', tableBlock V c ⟨n + 1, h⟩]
    show KT.step (KT.blk (V c main_v49) (n + 1) h') (KT.blk (V c main_v50) (n + 1) h') (KT.blk (V c main_v51) (n + 1) h') (V c main_v48) (outsAt1 V c n (Nat.lt_of_succ_lt h))
      = KT.step (KT.blk (V c main_v49) (n + 1) h') (KT.blk (V c main_v50) (n + 1) h') (KT.blk (V c main_v51) (n + 1) h') (V c main_v48) (KT.aggAt (V c main_v49) (V c main_v50) (V c main_v51) (V c main_v48) n (Nat.lt_of_succ_lt h'))
    rw [accAfter c n (Nat.lt_of_succ_lt h) (Nat.lt_of_succ_lt h')]

/-- The last grid point, the only one whose accumulator is written back. -/
abbrev tLast : Fin cfg1.N := ⟨6249, by rw [show cfg1.N = 6250 from N_1]; decide⟩

/-- The fold over all blocks, as contents of the output array. -/
abbrev folded (c : Dev nD) : Buf (Elt F) ((c : Thread nD τ).loc main_v52) :=
  KT.aggLast (V c main_v49) (V c main_v50) (V c main_v51) (V c main_v48)

/-- The output's one block starts at (0, 0), at the last point as at every point. -/
theorem outBlock_origin : (fun a => win1_4.index tLast a * main_v52.ty.shape.size a) = fun _ => 0 :=
  funext fun a => by fin_cases a <;> decide +kernel

/-- The one write-back writes the fold over all blocks: it happens at the last grid point, where the accumulator holds
    that fold, and the block it writes, read through zero offsets at the array's own extents, is the whole array. -/
theorem lastWriteBack (c : Dev nD) (t : Fin cfg1.N) (hf : (cfg1.win 4).flush t = true) :
    (dat1 V c).flushed 4 t = ((cfg1.win 4).blk t).view.read (Elt F) (folded V c) := by
  have hN : cfg1.N = 6250 := N_1
  have h9 : t.val = 6249 := by have := (flush1_4 t).mp hf; have := t.isLt; omega
  obtain rfl : t = tLast := Fin.ext h9
  show (cfg1.win 4).cut (grid1.coords tLast) ((dat1 V c).after 4 tLast) = _
  rw [after1_4, accAfter V c 6249 tLast.isLt (by decide)]
  exact (Memref.read_access_unit_zero (Elt F) main_v52 outBlock_origin
    (fun a => by rw [congrFun outBlock_origin a]; simp) (folded V c)).symm

/-- The region's output array after its last write-back is the fold of the steps over all blocks. -/
theorem agg1 (c : Dev nD) :
    (dat1 V c).arrAt 4 cfg1.N = KT.aggLast (V c main_v49) (V c main_v50) (V c main_v51) (V c main_v48) :=
  (dat1 V c).arrAt_eq_of_cover 4 (folded V c) (lastWriteBack V c) fun i =>
    ⟨tLast, (flush1_4 tLast).mpr rfl, by
      show i ∈ ((View.whole main_v52).slice (win1_4.rect tLast)).set
      rw [View.set_slice_whole, Rect.mem_set_unit]
      have org : ∀ a, win1_4.index tLast a * win1_4.size a = 0 := by decide +kernel
      have ext0 : win1_4.xsize (grid1.coords tLast) 0 = 64 := by decide +kernel
      have ext1 : win1_4.xsize (grid1.coords tLast) 1 = 50000 := by decide +kernel
      have i0 : (i 0 : Nat) < 64 := (i 0).isLt
      have i1 : (i 1 : Nat) < 50000 := (i 1).isLt
      intro a
      match a with
      | ⟨0, _⟩ =>
        show win1_4.index tLast 0 * win1_4.size 0 ≤ (i 0 : Nat)
          ∧ (i 0 : Nat) < win1_4.index tLast 0 * win1_4.size 0 + win1_4.xsize (grid1.coords tLast) 0
        rw [org 0, ext0]; omega
      | ⟨1, _⟩ =>
        show win1_4.index tLast 1 * win1_4.size 1 ≤ (i 1 : Nat)
          ∧ (i 1 : Nat) < win1_4.index tLast 1 * win1_4.size 1 + win1_4.xsize (grid1.coords tLast) 1
        rw [org 1, ext1]; omega⟩

end Cert.KernelIdeal.KReg1

end
-- ==== Proof.LibAfter.lean ====
/-
  Two general facts about straight lines of host operations.
  (1) The buffer contents after a concatenation of two operation lists are the contents after the second list run from
      the contents after the first.
  (2) A property that holds of every operation of every chunk holds of every operation of the chunks' concatenation.
-/
import Idealize.ShloMosaic.Lib.StableHlo.Run

noncomputable section

namespace Cert.Lib

open Idealize.ShloMosaic Idealize.ShloMosaic.StableHlo

/-- Running one list of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- A property of every element of every chunk holds of every element of the concatenation. -/
theorem forall_flatten {α : Type} {P : α → Prop} (ls : List (List α)) (h : ls.Forall fun l => l.Forall P) : ls.flatten.Forall P :=
  List.forall_iff_forall_mem.mpr fun a ha => by
    obtain ⟨l, hl, hal⟩ := List.mem_flatten.mp ha
    exact List.forall_iff_forall_mem.mp (List.forall_iff_forall_mem.mp h l hl) a hal

end Cert.Lib

end
-- ==== Proof.KHost.lean ====
/-
  The kernel program's last boundary contents at the result buffer: the composition of the host stretches and the
  two aggregation regions, as one function of the nine argument arrays.
-/
import proofs.«426948_j5884105195871_1_alg».proof.Proof.Gen.KernelIdeal.Frame
import proofs.«426948_j5884105195871_1_alg».proof.Proof.KTerms
import proofs.«426948_j5884105195871_1_alg».proof.Proof.KRegion0
import proofs.«426948_j5884105195871_1_alg».proof.Proof.KRegion1
import proofs.«426948_j5884105195871_1_alg».proof.Proof.LibAfter
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The nine arguments as launched, and the values the program builds from them -/

section Values
variable (c : Dev nD)

/-- The node features. -/
private def aX : FVec F S50000x64 .f32 := m ((c.tc : Thread nD τ).loc main_arg0)
/-- The edge list. -/
private def aEi : IVec S2x800000 32 := m ((c.tc : Thread nD τ).loc main_arg1)
/-- The edge attributes. -/
private def aAttr : FVec F S800000x16 .f32 := m ((c.tc : Thread nD τ).loc main_arg2)
/-- The first layer's weights and bias, the second layer's, the head's. -/
private def aW1 : FVec F S64x64 .f32 := m ((c.tc : Thread nD τ).loc main_arg3)
private def aB1 : FVec F S64 .f32 := m ((c.tc : Thread nD τ).loc main_arg4)
private def aW2 : FVec F S64x64 .f32 := m ((c.tc : Thread nD τ).loc main_arg5)
private def aB2 : FVec F S64 .f32 := m ((c.tc : Thread nD τ).loc main_arg6)
private def aWe : FVec F S144x1 .f32 := m ((c.tc : Thread nD τ).loc main_arg7)
private def aBe : FVec F S1 .f32 := m ((c.tc : Thread nD τ).loc main_arg8)

/-- The inverse square roots of the degrees. -/
private def vDinv : FVec F S50000 .f32 := KT.dinvOf (KT.degK (aEi m c))
/-- The edge weights. -/
private def vNrm : FVec F S800000 .f32 := KT.normK (vDinv m c) (aEi m c)
/-- The first layer's linear part, its aggregate, its output. -/
private def vLin1 : FVec F S50000x64 .f32 := KT.lin (aX m c) (aW1 m c)
private def vAgg1 : FVec F S64x50000 .f32 := KT.aggOf (aEi m c) (vNrm m c) (vLin1 m c)
private def vH1 : FVec F S50000x64 .f32 := KT.relu (KT.layerK (vAgg1 m c) (vDinv m c) (vLin1 m c) (aB1 m c))
/-- The second layer's linear part, its aggregate, its output. -/
private def vLin2 : FVec F S50000x64 .f32 := KT.lin (vH1 m c) (aW2 m c)
private def vAgg2 : FVec F S64x50000 .f32 := KT.aggOf (aEi m c) (vNrm m c) (vLin2 m c)
private def vH2 : FVec F S50000x64 .f32 := KT.relu (KT.layerK (vAgg2 m c) (vDinv m c) (vLin2 m c) (aB2 m c))

/-- The program's result is the head applied to the second layer's output. -/
private theorem resK_eq :
    KT.resK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
      = KT.headK (vH2 m c) (aEi m c) (aAttr m c) (aWe m c) (aBe m c) := rfl

end Values

/-! ## What each host stretch writes, and that it leaves every other buffer alone -/

private abbrev wr0 : List (Ref sig .tc) :=
  [main_v0, main_v1, main_v2, main_v3, main_cst, main_v4, main_cst_0, main_v5, main_v6, main_v7, main_cst_1, main_v8, main_v9,
   main_cst_2, main_v10, main_v11, main_v12, main_cst_3]
private theorem wr0_sub : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W1_of (c : Dev nD) (r : Ref sig .tc) (h : r ∉ wr0) : W1 m ρ c (Proc.devRef .tc r) = W0 m ρ c (Proc.devRef .tc r) :=
  StableHlo.after_of_writes_sub hostOps0 _ wr0_sub h

private abbrev wr0_1 : List (Ref sig .tc) := [main_call0_v0, main_call0_v1, main_v13]
private theorem wr0_1_sub : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W2_of (c : Dev nD) (r : Ref sig .tc) (h : r ∉ wr0_1) : W2 m ρ c (Proc.devRef .tc r) = W1 m ρ c (Proc.devRef .tc r) :=
  StableHlo.after_of_writes_sub hostOps0_1 _ wr0_1_sub h

private abbrev wr0_2 : List (Ref sig .tc) :=
  [main_c, main_v14, main_v15, main_c_4, main_v16, main_v17, main_v18, main_v19, main_v20, main_c_5, main_v21, main_v22, main_c_6,
   main_v23, main_v24, main_v25, main_v26, main_v27, main_v28, main_v29, main_v30, main_v31, main_v32, main_v33, main_v34]
private theorem wr0_2_sub : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W3_of (c : Dev nD) (r : Ref sig .tc) (h : r ∉ wr0_2) : W3 m ρ c (Proc.devRef .tc r) = W2 m ρ c (Proc.devRef .tc r) :=
  StableHlo.after_of_writes_sub hostOps0_2 _ wr0_2_sub h

private abbrev wr1 : List (Ref sig .tc) :=
  [main_v36, main_v37, main_v38, main_v39, main_v40, main_v41, main_v42, main_v43, main_v44]
private theorem wr1_sub : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W5_of (c : Dev nD) (r : Ref sig .tc) (h : r ∉ wr1) : W5 m ρ c (Proc.devRef .tc r) = W4 m ρ c (Proc.devRef .tc r) :=
  StableHlo.after_of_writes_sub hostOps1 _ wr1_sub h

private abbrev wr1_1 : List (Ref sig .tc) := [main_call1_cst, main_call1_v0, main_v45]
private theorem wr1_1_sub : (hostOps1_1 : List (HloOp τ sig (Elt F))).Forall fun op => op.writes ⊆ (wr1_1.map (Proc.devRef (τ := τ) .tc)).toFinset := by
  simp only [hostOps1_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W6_of (c : Dev nD) (r : Ref sig .tc) (h : r ∉ wr1_1) : W6 m ρ c (Proc.devRef .tc r) = W5 m ρ c (Proc.devRef .tc r) :=
  StableHlo.after_of_writes_sub hostOps1_1 _ wr1_1_sub h

private abbrev wr1_2 : List (Ref sig .tc) := [main_v46, main_v47, main_v48, main_v49, main_v50, main_v51]
private theorem wr1_2_sub : (hostOps1_2 : List (HloOp τ sig (Elt F))).Forall fun op => op.writes ⊆ (wr1_2.map (Proc.devRef (τ := τ) .tc)).toFinset := by
  simp only [hostOps1_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W7_of (c : Dev nD) (r : Ref sig .tc) (h : r ∉ wr1_2) : W7 m ρ c (Proc.devRef .tc r) = W6 m ρ c (Proc.devRef .tc r) :=
  StableHlo.after_of_writes_sub hostOps1_2 _ wr1_2_sub h

private abbrev wr2 : List (Ref sig .tc) :=
  [main_v53, main_v54, main_v55, main_v56, main_v57, main_v58, main_v59, main_v60, main_v61]
private theorem wr2_sub : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W9_of (c : Dev nD) (r : Ref sig .tc) (h : r ∉ wr2) : W9 m ρ c (Proc.devRef .tc r) = W8 m ρ c (Proc.devRef .tc r) :=
  StableHlo.after_of_writes_sub hostOps2 _ wr2_sub h

private abbrev wr2_1 : List (Ref sig .tc) := [main_call2_cst, main_call2_v0, main_v62]
private theorem wr2_1_sub : (hostOps2_1 : List (HloOp τ sig (Elt F))).Forall fun op => op.writes ⊆ (wr2_1.map (Proc.devRef (τ := τ) .tc)).toFinset := by
  simp only [hostOps2_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
private theorem W10_of (c : Dev nD) (r : Ref sig .tc) (h : r ∉ wr2_1) : W10 m ρ c (Proc.devRef .tc r) = W9 m ρ c (Proc.devRef .tc r) :=
  StableHlo.after_of_writes_sub hostOps2_1 _ wr2_1_sub h

/-! ## The first three stretches: from the launch to the first aggregation's entry -/

private theorem W1_v1 (c : Dev nD) : W1 m ρ c (Proc.devRef .tc main_v1) = KT.src1 (aEi m c) := by
  simp only [W1, hostOps0]
  after_results
  rfl
private theorem W1_v3 (c : Dev nD) : W1 m ρ c (Proc.devRef .tc main_v3) = KT.dst1 (aEi m c) := by
  simp only [W1, hostOps0]
  after_results
  rfl
private theorem W2_v1 (c : Dev nD) : W2 m ρ c (Proc.devRef .tc main_v1) = KT.src1 (aEi m c) :=
  (W2_of m ρ c main_v1 (by decide)).trans (W1_v1 m ρ c)
private theorem W2_v3 (c : Dev nD) : W2 m ρ c (Proc.devRef .tc main_v3) = KT.dst1 (aEi m c) :=
  (W2_of m ρ c main_v3 (by decide)).trans (W1_v3 m ρ c)
/-- The where-function's result: the inverse square root of the degree where it is positive. -/
private theorem W2_v13 (c : Dev nD) : W2 m ρ c (Proc.devRef .tc main_v13) = vDinv m c := by
  simp only [W2, W1, hostOps0_1, hostOps0]
  after_results_simp
  rfl
private theorem W2_arg0 (c : Dev nD) : W2 m ρ c (Proc.devRef .tc main_arg0) = aX m c :=
  (W2_of m ρ c main_arg0 (by decide)).trans ((W1_of m ρ c main_arg0 (by decide)).trans rfl)
private theorem W2_arg3 (c : Dev nD) : W2 m ρ c (Proc.devRef .tc main_arg3) = aW1 m c :=
  (W2_of m ρ c main_arg3 (by decide)).trans ((W1_of m ρ c main_arg3 (by decide)).trans rfl)

private theorem W3_v1 (c : Dev nD) : W3 m ρ c (Proc.devRef .tc main_v1) = KT.src1 (aEi m c) :=
  (W3_of m ρ c main_v1 (by decide)).trans (W2_v1 m ρ c)
private theorem W3_v3 (c : Dev nD) : W3 m ρ c (Proc.devRef .tc main_v3) = KT.dst1 (aEi m c) :=
  (W3_of m ρ c main_v3 (by decide)).trans (W2_v3 m ρ c)
private theorem W3_v13 (c : Dev nD) : W3 m ρ c (Proc.devRef .tc main_v13) = vDinv m c :=
  (W3_of m ρ c main_v13 (by decide)).trans (W2_v13 m ρ c)
private theorem W3_v28 (c : Dev nD) : W3 m ρ c (Proc.devRef .tc main_v28) = vNrm m c := by
  have e13 := W2_v13 m ρ c
  have e1 := W2_v1 m ρ c
  have e3 := W2_v3 m ρ c
  simp only [W3]
  generalize W2 m ρ c = V at e13 e1 e3 ⊢
  simp only [hostOps0_2]
  after_results_simp
  rw [e13, e1, e3]
  rfl
private theorem W3_v29 (c : Dev nD) : W3 m ρ c (Proc.devRef .tc main_v29) = vLin1 m c := by
  have e0 := W2_arg0 m ρ c
  have e3 := W2_arg3 m ρ c
  simp only [W3]
  generalize W2 m ρ c = V at e0 e3 ⊢
  simp only [hostOps0_2]
  after_results
  rw [e0, e3]
  rfl
private theorem W3_v31 (c : Dev nD) : W3 m ρ c (Proc.devRef .tc main_v31) = KT.hTof (vLin1 m c) := by
  have e0 := W2_arg0 m ρ c
  have e3 := W2_arg3 m ρ c
  simp only [W3]
  generalize W2 m ρ c = V at e0 e3 ⊢
  simp only [hostOps0_2]
  after_results_simp
  rw [e0, e3]
  rfl
private theorem W3_v32 (c : Dev nD) : W3 m ρ c (Proc.devRef .tc main_v32) = KT.rowOf (KT.src1 (aEi m c)) := by
  have e1 := W2_v1 m ρ c
  simp only [W3]
  generalize W2 m ρ c = V at e1 ⊢
  simp only [hostOps0_2]
  after_results_simp
  rw [e1]
  rfl
private theorem W3_v33 (c : Dev nD) : W3 m ρ c (Proc.devRef .tc main_v33) = KT.rowOf (KT.dst1 (aEi m c)) := by
  have e3 := W2_v3 m ρ c
  simp only [W3]
  generalize W2 m ρ c = V at e3 ⊢
  simp only [hostOps0_2]
  after_results_simp
  rw [e3]
  rfl
private theorem W3_v34 (c : Dev nD) : W3 m ρ c (Proc.devRef .tc main_v34) = KT.rowOf (vNrm m c) := by
  have e13 := W2_v13 m ρ c
  have e1 := W2_v1 m ρ c
  have e3 := W2_v3 m ρ c
  simp only [W3]
  generalize W2 m ρ c = V at e13 e1 e3 ⊢
  simp only [hostOps0_2]
  after_results_simp
  rw [e13, e1, e3]
  rfl
private theorem W3_arg (c : Dev nD) (b : Ref sig .tc) (h2 : b ∉ wr0_2) (h1 : b ∉ wr0_1) (h0 : b ∉ wr0) :
    W3 m ρ c (Proc.devRef .tc b) = m ((c.tc : Thread nD τ).loc b) :=
  (W3_of m ρ c b h2).trans ((W2_of m ρ c b h1).trans ((W1_of m ρ c b h0).trans rfl))

/-! ## The first aggregation -/

/-- The first aggregation's result array: the aggregate of the first layer's linear part. -/
private theorem W4_v35 (c : Dev nD) : W4 m ρ c (Proc.devRef .tc main_v35) = vAgg1 m c := by
  refine (W4_arr m ρ c 4).trans ?_
  refine (KReg0.agg0 (V3 m ρ) c).trans ?_
  show KT.aggLast (W3 m ρ c (Proc.devRef .tc main_v32)) (W3 m ρ c (Proc.devRef .tc main_v33)) (W3 m ρ c (Proc.devRef .tc main_v34))
    (W3 m ρ c (Proc.devRef .tc main_v31)) = _
  rw [W3_v32, W3_v33, W3_v34, W3_v31]
  rfl
/-- What the region does not touch it leaves as entered. -/
private theorem W4_v1 (c : Dev nD) : W4 m ρ c (Proc.devRef .tc main_v1) = KT.src1 (aEi m c) :=
  (W4_of_ne m ρ c main_v1 (by decide)).trans (W3_v1 m ρ c)
private theorem W4_v3 (c : Dev nD) : W4 m ρ c (Proc.devRef .tc main_v3) = KT.dst1 (aEi m c) :=
  (W4_of_ne m ρ c main_v3 (by decide)).trans (W3_v3 m ρ c)
private theorem W4_v13 (c : Dev nD) : W4 m ρ c (Proc.devRef .tc main_v13) = vDinv m c :=
  (W4_of_ne m ρ c main_v13 (by decide)).trans (W3_v13 m ρ c)
private theorem W4_v28 (c : Dev nD) : W4 m ρ c (Proc.devRef .tc main_v28) = vNrm m c :=
  (W4_of_ne m ρ c main_v28 (by decide)).trans (W3_v28 m ρ c)
private theorem W4_v29 (c : Dev nD) : W4 m ρ c (Proc.devRef .tc main_v29) = vLin1 m c :=
  (W4_of_ne m ρ c main_v29 (by decide)).trans (W3_v29 m ρ c)
private theorem W4_arg (c : Dev nD) (b : Ref sig .tc) (h3 : ∀ w, Pipeline.arrRef spec0 w ≠ b) (h2 : b ∉ wr0_2) (h1 : b ∉ wr0_1) (h0 : b ∉ wr0) :
    W4 m ρ c (Proc.devRef .tc b) = m ((c.tc : Thread nD τ).loc b) :=
  (W4_of_ne m ρ c b h3).trans (W3_arg m ρ c b h2 h1 h0)

/-! ## The stretches between the aggregations: the first layer's output, the second layer's linear part -/

private theorem W5_v44 (c : Dev nD) :
    W5 m ρ c (Proc.devRef .tc main_v44) = KT.layerK (vAgg1 m c) (vDinv m c) (vLin1 m c) (aB1 m c) := by
  have e35 := W4_v35 m ρ c
  have e13 := W4_v13 m ρ c
  have e29 := W4_v29 m ρ c
  have e4 : W4 m ρ c (Proc.devRef .tc main_arg4) = aB1 m c :=
    W4_arg m ρ c main_arg4 (by decide) (by decide) (by decide) (by decide)
  simp only [W5]
  generalize W4 m ρ c = V at e35 e13 e29 e4 ⊢
  simp only [hostOps1]
  after_results_simp
  rw [e35, e13, e29, e4]
  rfl
/-- The relu-function's result: the first layer's output. -/
private theorem W6_v45 (c : Dev nD) : W6 m ρ c (Proc.devRef .tc main_v45) = vH1 m c := by
  have e44 := W5_v44 m ρ c
  simp only [W6]
  generalize W5 m ρ c = V at e44 ⊢
  simp only [hostOps1_1]
  after_results_simp
  rw [e44]
  rfl
private theorem W6_of4 (c : Dev nD) (b : Ref sig .tc) (h5 : b ∉ wr1) (h6 : b ∉ wr1_1) :
    W6 m ρ c (Proc.devRef .tc b) = W4 m ρ c (Proc.devRef .tc b) :=
  (W6_of m ρ c b h6).trans (W5_of m ρ c b h5)
private theorem W7_of4 (c : Dev nD) (b : Ref sig .tc) (h5 : b ∉ wr1) (h6 : b ∉ wr1_1) (h7 : b ∉ wr1_2) :
    W7 m ρ c (Proc.devRef .tc b) = W4 m ρ c (Proc.devRef .tc b) :=
  (W7_of m ρ c b h7).trans (W6_of4 m ρ c b h5 h6)
private theorem W6_v1 (c : Dev nD) : W6 m ρ c (Proc.devRef .tc main_v1) = KT.src1 (aEi m c) :=
  (W6_of4 m ρ c main_v1 (by decide) (by decide)).trans (W4_v1 m ρ c)
private theorem W6_v3 (c : Dev nD) : W6 m ρ c (Proc.devRef .tc main_v3) = KT.dst1 (aEi m c) :=
  (W6_of4 m ρ c main_v3 (by decide) (by decide)).trans (W4_v3 m ρ c)
private theorem W6_v28 (c : Dev nD) : W6 m ρ c (Proc.devRef .tc main_v28) = vNrm m c :=
  (W6_of4 m ρ c main_v28 (by decide) (by decide)).trans (W4_v28 m ρ c)
private theorem W6_arg5 (c : Dev nD) : W6 m ρ c (Proc.devRef .tc main_arg5) = aW2 m c :=
  (W6_of4 m ρ c main_arg5 (by decide) (by decide)).trans (W4_arg m ρ c main_arg5 (by decide) (by decide) (by decide) (by decide))

private theorem W7_v46 (c : Dev nD) : W7 m ρ c (Proc.devRef .tc main_v46) = vLin2 m c := by
  have e45 := W6_v45 m ρ c
  have e5 := W6_arg5 m ρ c
  simp only [W7]
  generalize W6 m ρ c = V at e45 e5 ⊢
  simp only [hostOps1_2]
  after_results_simp
  rw [e45, e5]
  rfl
private theorem W7_v48 (c : Dev nD) : W7 m ρ c (Proc.devRef .tc main_v48) = KT.hTof (vLin2 m c) := by
  have e45 := W6_v45 m ρ c
  have e5 := W6_arg5 m ρ c
  simp only [W7]
  generalize W6 m ρ c = V at e45 e5 ⊢
  simp only [hostOps1_2]
  after_results_simp
  rw [e45, e5]
  rfl
private theorem W7_v49 (c : Dev nD) : W7 m ρ c (Proc.devRef .tc main_v49) = KT.rowOf (KT.src1 (aEi m c)) := by
  have e1 := W6_v1 m ρ c
  simp only [W7]
  generalize W6 m ρ c = V at e1 ⊢
  simp only [hostOps1_2]
  after_results_simp
  rw [e1]
  rfl
private theorem W7_v50 (c : Dev nD) : W7 m ρ c (Proc.devRef .tc main_v50) = KT.rowOf (KT.dst1 (aEi m c)) := by
  have e3 := W6_v3 m ρ c
  simp only [W7]
  generalize W6 m ρ c = V at e3 ⊢
  simp only [hostOps1_2]
  after_results_simp
  rw [e3]
  rfl
private theorem W7_v51 (c : Dev nD) : W7 m ρ c (Proc.devRef .tc main_v51) = KT.rowOf (vNrm m c) := by
  have e28 := W6_v28 m ρ c
  simp only [W7]
  generalize W6 m ρ c = V at e28 ⊢
  simp only [hostOps1_2]
  after_results_simp
  rw [e28]
  rfl
private theorem W7_v1 (c : Dev nD) : W7 m ρ c (Proc.devRef .tc main_v1) = KT.src1 (aEi m c) :=
  (W7_of4 m ρ c main_v1 (by decide) (by decide) (by decide)).trans (W4_v1 m ρ c)
private theorem W7_v3 (c : Dev nD) : W7 m ρ c (Proc.devRef .tc main_v3) = KT.dst1 (aEi m c) :=
  (W7_of4 m ρ c main_v3 (by decide) (by decide) (by decide)).trans (W4_v3 m ρ c)
private theorem W7_v13 (c : Dev nD) : W7 m ρ c (Proc.devRef .tc main_v13) = vDinv m c :=
  (W7_of4 m ρ c main_v13 (by decide) (by decide) (by decide)).trans (W4_v13 m ρ c)
private theorem W7_arg (c : Dev nD) (b : Ref sig .tc) (h7 : b ∉ wr1_2) (h6 : b ∉ wr1_1) (h5 : b ∉ wr1)
    (h3 : ∀ w, Pipeline.arrRef spec0 w ≠ b) (h2 : b ∉ wr0_2) (h1 : b ∉ wr0_1) (h0 : b ∉ wr0) :
    W7 m ρ c (Proc.devRef .tc b) = m ((c.tc : Thread nD τ).loc b) :=
  (W7_of4 m ρ c b h5 h6 h7).trans (W4_arg m ρ c b h3 h2 h1 h0)

/-! ## The second aggregation -/

/-- The second aggregation's result array: the aggregate of the second layer's linear part. -/
private theorem W8_v52 (c : Dev nD) : W8 m ρ c (Proc.devRef .tc main_v52) = vAgg2 m c := by
  refine (W8_arr m ρ c 4).trans ?_
  refine (KReg1.agg1 (V7 m ρ) c).trans ?_
  show KT.aggLast (W7 m ρ c (Proc.devRef .tc main_v49)) (W7 m ρ c (Proc.devRef .tc main_v50)) (W7 m ρ c (Proc.devRef .tc main_v51))
    (W7 m ρ c (Proc.devRef .tc main_v48)) = _
  rw [W7_v49, W7_v50, W7_v51, W7_v48]
  rfl
private theorem W8_v1 (c : Dev nD) : W8 m ρ c (Proc.devRef .tc main_v1) = KT.src1 (aEi m c) :=
  (W8_of_ne m ρ c main_v1 (by decide)).trans (W7_v1 m ρ c)
private theorem W8_v3 (c : Dev nD) : W8 m ρ c (Proc.devRef .tc main_v3) = KT.dst1 (aEi m c) :=
  (W8_of_ne m ρ c main_v3 (by decide)).trans (W7_v3 m ρ c)
private theorem W8_v13 (c : Dev nD) : W8 m ρ c (Proc.devRef .tc main_v13) = vDinv m c :=
  (W8_of_ne m ρ c main_v13 (by decide)).trans (W7_v13 m ρ c)
private theorem W8_v46 (c : Dev nD) : W8 m ρ c (Proc.devRef .tc main_v46) = vLin2 m c :=
  (W8_of_ne m ρ c main_v46 (by decide)).trans (W7_v46 m ρ c)
private theorem W8_arg (c : Dev nD) (b : Ref sig .tc) (h8 : ∀ w, Pipeline.arrRef spec1 w ≠ b) (h7 : b ∉ wr1_2) (h6 : b ∉ wr1_1) (h5 : b ∉ wr1)
    (h3 : ∀ w, Pipeline.arrRef spec0 w ≠ b) (h2 : b ∉ wr0_2) (h1 : b ∉ wr0_1) (h0 : b ∉ wr0) :
    W8 m ρ c (Proc.devRef .tc b) = m ((c.tc : Thread nD τ).loc b) :=
  (W8_of_ne m ρ c b h8).trans (W7_arg m ρ c b h7 h6 h5 h3 h2 h1 h0)

/-! ## The last stretches: the second layer's output and the head -/

private theorem W9_v61 (c : Dev nD) :
    W9 m ρ c (Proc.devRef .tc main_v61) = KT.layerK (vAgg2 m c) (vDinv m c) (vLin2 m c) (aB2 m c) := by
  have e52 := W8_v52 m ρ c
  have e13 := W8_v13 m ρ c
  have e46 := W8_v46 m ρ c
  have e6 : W8 m ρ c (Proc.devRef .tc main_arg6) = aB2 m c :=
    W8_arg m ρ c main_arg6 (by decide) (by decide) (by decide) (by decide) (by decide) (by decide) (by decide) (by decide)
  simp only [W9]
  generalize W8 m ρ c = V at e52 e13 e46 e6 ⊢
  simp only [hostOps2]
  after_results_simp
  rw [e52, e13, e46, e6]
  rfl
/-- The relu-function's result: the second layer's output. -/
private theorem W10_v62 (c : Dev nD) : W10 m ρ c (Proc.devRef .tc main_v62) = vH2 m c := by
  have e61 := W9_v61 m ρ c
  simp only [W10]
  generalize W9 m ρ c = V at e61 ⊢
  simp only [hostOps2_1]
  after_results_simp
  rw [e61]
  rfl
private theorem W10_of8 (c : Dev nD) (b : Ref sig .tc) (h9 : b ∉ wr2) (h10 : b ∉ wr2_1) :
    W10 m ρ c (Proc.devRef .tc b) = W8 m ρ c (Proc.devRef .tc b) :=
  (W10_of m ρ c b h10).trans (W9_of m ρ c b h9)
private theorem W10_v1 (c : Dev nD) : W10 m ρ c (Proc.devRef .tc main_v1) = KT.src1 (aEi m c) :=
  (W10_of8 m ρ c main_v1 (by decide) (by decide)).trans (W8_v1 m ρ c)
private theorem W10_v3 (c : Dev nD) : W10 m ρ c (Proc.devRef .tc main_v3) = KT.dst1 (aEi m c) :=
  (W10_of8 m ρ c main_v3 (by decide) (by decide)).trans (W8_v3 m ρ c)
private theorem W10_arg (c : Dev nD) (b : Ref sig .tc) (h10 : b ∉ wr2_1) (h9 : b ∉ wr2) (h8 : ∀ w, Pipeline.arrRef spec1 w ≠ b)
    (h7 : b ∉ wr1_2) (h6 : b ∉ wr1_1) (h5 : b ∉ wr1) (h3 : ∀ w, Pipeline.arrRef spec0 w ≠ b) (h2 : b ∉ wr0_2) (h1 : b ∉ wr0_1)
    (h0 : b ∉ wr0) :
    W10 m ρ c (Proc.devRef .tc b) = m ((c.tc : Thread nD τ).loc b) :=
  (W10_of8 m ρ c b h9 h10).trans (W8_arg m ρ c b h8 h7 h6 h5 h3 h2 h1 h0)

/-- The result buffer after the last host stretch holds resK of the argument arrays. -/
theorem W11_result (c : Dev nD) :
    W11 m ρ c (Proc.devRef .tc main_v87)
      = KT.resK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  have e62 := W10_v62 m ρ c
  have e1 := W10_v1 m ρ c
  have e3 := W10_v3 m ρ c
  have e7 : W10 m ρ c (Proc.devRef .tc main_arg7) = aWe m c :=
    W10_arg m ρ c main_arg7 (by decide) (by decide) (by decide) (by decide) (by decide) (by decide) (by decide) (by decide) (by decide)
      (by decide)
  have e2 : W10 m ρ c (Proc.devRef .tc main_arg2) = aAttr m c :=
    W10_arg m ρ c main_arg2 (by decide) (by decide) (by decide) (by decide) (by decide) (by decide) (by decide) (by decide) (by decide)
      (by decide)
  have e8 : W10 m ρ c (Proc.devRef .tc main_arg8) = aBe m c :=
    W10_arg m ρ c main_arg8 (by decide) (by decide) (by decide) (by decide) (by decide) (by decide) (by decide) (by decide) (by decide)
      (by decide)
  refine Eq.trans ?_ (resK_eq m c).symm
  simp only [W11]
  generalize W10 m ρ c = V at e62 e1 e3 e7 e2 e8 ⊢
  simp only [hostOps2_2]
  after_results_simp
  rw [e62, e1, e3, e7, e2, e8]
  rfl

end Cert.KernelIdeal.KHost

end
-- ==== Proof.RTerms.lean ====
/-
  The reference program as pure functions of its operands.

  One graph-convolution layer with explicit self-loops: the edge list's endpoints followed by the loop
  (n, n) of every node n, E + N entries in all; the degree of a node counted over the destination entries;
  its inverse square root d; per entry the weight d[src] * d[dst]; the feature rows taken at the source
  entries, scaled by the weights and added into the rows named by the destination entries; plus the bias.
  The edge scores: the rows of the last layer's features at an edge's two endpoints and the edge's
  attributes, laid side by side, times the score weights, plus the bias.
-/
import proofs.«426948_j5884105195871_1_alg».proof.Proof.Gen.ReferenceIdeal

noncomputable section

namespace Cert.ReferenceIdeal.RT

open Cert.ReferenceIdeal Cert.ReferenceIdeal.Gen Idealize.ShloMosaic

variable {F : FTy → Type} [FloatOps F]

/-- The edges' source endpoints: row 0 of the edge list. -/
def src1 (ei : IVec S2x800000 32) : IVec S800000 32 :=
  shapeCast S800000 (extractStridedSlice S1x800000 ![0, 0] ei slices_S2x800000_S1x800000_0_0) shapeCasts_S1x800000_S800000
/-- The edges' destination endpoints: row 1 of the edge list. -/
def dst1 (ei : IVec S2x800000 32) : IVec S800000 32 :=
  shapeCast S800000 (extractStridedSlice S1x800000 ![1, 0] ei slices_S2x800000_S1x800000_1_0) shapeCasts_S1x800000_S800000
/-- An endpoint vector followed by the nodes 0 … N - 1: the edges, then every node's own loop. -/
def withLoops (v : IVec S800000 32) : IVec S850000 32 :=
  concatenate S850000 0 [⟨S800000, v⟩, ⟨S50000, iotaInDim S50000 32 0⟩] concatenates_S800000_S50000_S850000_d0
/-- Such a vector as a column of start indices. -/
def col (v : IVec S850000 32) : IVec S850000x1 32 := broadcastInDim S850000x1 ![0] bcast_S850000_S850000x1_0 v
/-- A negative entry counts from the end: 50000 is added to it. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v
/-- The degree of each node: the number of destination entries (edges and loops) that name it. -/
def degR (ei : IVec S2x800000 32) : FVec F S50000 .f32 :=
  Host.scatterAdd scatter_S50000_S850000x1_S850000_n_0_0_1 (broadcastInDim S50000 ![] bcast_S_S50000 (constant S_ .f32 0x00000000#32))
    (col (withLoops (dst1 ei))) (broadcastInDim S850000 ![] bcast_S_S850000 (constant S_ .f32 0x3F800000#32))
/-- The inverse square root of a positive degree, zero otherwise. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (id (constant S_ .f32 0x00000000#32)))
/-- Each entry's weight: d at its source times d at its destination. -/
def normR (dinv : FVec F S50000 .f32) (ei : IVec S2x800000 32) : FVec F S850000 .f32 :=
  mulf (Host.gather gather_S50000_S850000x1_S850000_n_0_n_n_0_1_1 dinv (col (wrap (withLoops (src1 ei)))))
    (Host.gather gather_S50000_S850000x1_S850000_n_0_n_n_0_1_1 dinv (col (wrap (withLoops (dst1 ei)))))
/-- Node features times a layer's weights. -/
def lin (x : FVec F S50000x64 .f32) (W : FVec F S64x64 .f32) : FVec F S50000x64 .f32 :=
  Host.dotGeneral dot_S50000x64_S64x64_S50000x64_1_0_0_1_n_n none x W
/-- A layer's output: the weighted source rows added into the destination rows, plus the bias. -/
def layerR (dinv : FVec F S50000 .f32) (ei : IVec S2x800000 32) (h : FVec F S50000x64 .f32) (b : FVec F S64 .f32) :
    FVec F S50000x64 .f32 :=
  addf (Host.scatterAdd scatter_S50000x64_S850000x1_S850000x64_1_0_0_1
      (broadcastInDim S50000x64 ![] bcast_S_S50000x64 (constant S_ .f32 0x00000000#32))
      (col (withLoops (dst1 ei)))
      (mulf (Host.gather gather_S50000x64_S850000x1_S850000x64_1_0_n_n_0_1_164 h (col (wrap (withLoops (src1 ei)))))
        (broadcastInDim S850000x64 ![0, 1] bcast_S850000x1_S850000x64_0_1 (broadcastInDim S850000x1 ![0] bcast_S850000_S850000x1_0 (normR dinv ei)))))
    (broadcastInDim S50000x64 ![0, 1] bcast_S1x64_S50000x64_0_1 (broadcastInDim S1x64 ![1] bcast_S64_S1x64_1 b))
/-- The positive part. -/
def relu (x : FVec F S50000x64 .f32) : FVec F S50000x64 .f32 :=
  maximumf x (broadcastInDim S50000x64 ![] bcast_S_S50000x64 (constant S_ .f32 0x00000000#32))
/-- An endpoint vector of the edges alone as a column of start indices. -/
def colE (v : IVec S800000 32) : IVec S800000x1 32 := broadcastInDim S800000x1 ![0] bcast_S800000_S800000x1_0 v
/-- A negative endpoint counts from the end. -/
def wrapE (v : IVec S800000 32) : IVec S800000 32 :=
  select (cmpi .slt v (broadcastInDim S800000 ![] bcast_S_S800000 (constantI S_ 32 0#32)))
    (addi v (broadcastInDim S800000 ![] bcast_S_S800000 (constantI S_ 32 50000#32))) v
/-- The edge scores: endpoint rows and attributes side by side, times the score weights, plus the bias. -/
def headR (h2 : FVec F S50000x64 .f32) (ei : IVec S2x800000 32) (attr : FVec F S800000x16 .f32) (We : FVec F S144x1 .f32)
    (be : FVec F S1 .f32) : FVec F S800000x1 .f32 :=
  addf (Host.dotGeneral dot_S800000x144_S144x1_S800000x1_1_0_0_1_n_n none
      (concatenate S800000x144 1
        [⟨S800000x64, Host.gather gather_S50000x64_S800000x1_S800000x64_1_0_n_n_0_1_164 h2 (colE (wrapE (src1 ei)))⟩,
         ⟨S800000x64, Host.gather gather_S50000x64_S800000x1_S800000x64_1_0_n_n_0_1_164 h2 (colE (wrapE (dst1 ei)))⟩,
         ⟨S800000x16, attr⟩] concatenates_S800000x64_S800000x64_S800000x16_S800000x144_d1) We)
    (broadcastInDim S800000x1 ![0, 1] bcast_S1x1_S800000x1_0_1 (broadcastInDim S1x1 ![1] bcast_S1_S1x1_1 be))

/-- The reference program's result as one function of its nine arguments. -/
def resR (x : FVec F S50000x64 .f32) (ei : IVec S2x800000 32) (attr : FVec F S800000x16 .f32) (W1 : FVec F S64x64 .f32)
    (b1 : FVec F S64 .f32) (W2 : FVec F S64x64 .f32) (b2 : FVec F S64 .f32) (We : FVec F S144x1 .f32) (be : FVec F S1 .f32) :
    FVec F S800000x1 .f32 :=
  headR (relu (layerR (dinvOf (degR ei)) ei (lin (relu (layerR (dinvOf (degR ei)) ei (lin x W1) b1)) W2) b2)) ei attr We be

end Cert.ReferenceIdeal.RT

end
-- ==== Proof.RRun.lean ====
/-
  The reference's run, with its result named as the composition of the reference's pure functions: every weakly fair
  execution of the reference program ends with the result buffer at resR of the nine argument arrays, the arguments
  unchanged. The program is a straight line of 145 host operations; what a buffer holds after the line is read
  operation by operation: an operation's result buffer holds its function of its operands' contents, and every other
  buffer what it held before.
-/
import proofs.«426948_j5884105195871_1_alg».proof.Proof.RefRun
import proofs.«426948_j5884105195871_1_alg».proof.Proof.RTerms
import proofs.«426948_j5884105195871_1_alg».proof.Proof.LibAfter

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

section Read

set_option maxRecDepth 16384

/-! ## The line cut into eight stretches -/

/-- The contents after a list of operations are those after its tail part run from those after its head part. -/
private theorem after_split (n : ℕ) (l : List (HloOp τ sig (Elt F))) (V : Valuation τ sig (Elt F)) :
    StableHlo.after l V = StableHlo.after (l.drop n) (StableHlo.after (l.take n) V) := by
  conv_lhs => rw [← List.take_append_drop n l]
  exact Cert.Lib.after_append _ _ _

variable (V : Valuation τ sig (Elt F))

/-- After operations 0 … 20: the endpoints, the endpoints with the loops, the degree's inverse square root. -/
private def B1 : Valuation τ sig (Elt F) := StableHlo.after ((ValueP.ops (F := F)).take 21) V
/-- After operations 21 … 40: the entries' weights and the first layer's linear part. -/
private def B2 : Valuation τ sig (Elt F) := StableHlo.after (((ValueP.ops (F := F)).drop 21).take 20) (B1 V)
/-- After operations 41 … 62: the first layer's output. -/
private def B3 : Valuation τ sig (Elt F) := StableHlo.after ((((ValueP.ops (F := F)).drop 21).drop 20).take 22) (B2 V)
/-- After operations 63 … 79: the second layer's endpoints with the loops and inverse square roots. -/
private def B4 : Valuation τ sig (Elt F) := StableHlo.after (((((ValueP.ops (F := F)).drop 21).drop 20).drop 22).take 17) (B3 V)
/-- After operations 80 … 99: the second layer's weights and linear part. -/
private def B5 : Valuation τ sig (Elt F) :=
  StableHlo.after ((((((ValueP.ops (F := F)).drop 21).drop 20).drop 22).drop 17).take 20) (B4 V)
/-- After operations 100 … 121: the second layer's output. -/
private def B6 : Valuation τ sig (Elt F) :=
  StableHlo.after (((((((ValueP.ops (F := F)).drop 21).drop 20).drop 22).drop 17).drop 20).take 22) (B5 V)
/-- After operations 122 … 139: the output's rows at the edges' endpoints. -/
private def B7 : Valuation τ sig (Elt F) :=
  StableHlo.after ((((((((ValueP.ops (F := F)).drop 21).drop 20).drop 22).drop 17).drop 20).drop 22).take 18) (B6 V)

/-- The whole line is the last five operations run from the contents after the seven stretches before them. -/
private theorem after_ops :
    StableHlo.after (ValueP.ops (F := F)) V
      = StableHlo.after ((((((((ValueP.ops (F := F)).drop 21).drop 20).drop 22).drop 17).drop 20).drop 22).drop 18) (B7 V) :=
  (after_split 21 _ _).trans <| (after_split 20 _ _).trans <| (after_split 22 _ _).trans <| (after_split 17 _ _).trans <|
    (after_split 20 _ _).trans <| (after_split 22 _ _).trans <| (after_split 18 _ _).trans rfl

/-! ## What each stretch writes, and that it leaves every other buffer alone -/

private abbrev wrA : List (Ref sig .tc) :=
  [main_v0, main_v1, main_v2, main_v3, main_v4, main_v5, main_v6, main_cst, main_v7, main_cst_0, main_v8, main_v9, main_v10, main_cst_1,
   main_v11, main_v12, main_v13, main_cst_2, main_call0_v0, main_call0_v1, main_v14]
private theorem wrA_sub :
    ((ValueP.ops (F := F)).take 21 : List (HloOp τ sig (Elt F))).Forall fun op =>
      op.writes ⊆ (wrA.map (Proc.devRef (τ := τ) .tc)).toFinset := by
  simp only [ValueP.ops, List.drop_succ_cons, List.drop_zero, List.take_succ_cons, List.take_zero, List.Forall, StableHlo.nullary_writes,
    StableHlo.unary_writes, StableHlo.binary_writes, StableHlo.ternary_writes, StableHlo.reshape_writes, Finset.singleton_subset_iff,
    List.mem_toFinset]
  repeat' apply And.intro
  all_goals exact List.mem_map_of_mem (by decide)
private theorem B1_of (r : Ref sig .tc) (h : r ∉ wrA) : B1 V (Proc.devRef .tc r) = V (Proc.devRef .tc r) :=
  StableHlo.after_of_writes_sub _ _ wrA_sub h

private abbrev wrB : List (Ref sig .tc) :=
  [main_c, main_v15, main_v16, main_c_3, main_v17, main_v18, main_v19, main_v20, main_v21, main_c_4, main_v22, main_v23, main_c_5, main_v24,
   main_v25, main_v26, main_v27, main_v28, main_v29, main_v30]
private theorem wrB_sub :
    (((ValueP.ops (F := F)).drop 21).take 20 : List (HloOp τ sig (Elt F))).Forall fun op =>
      op.writes ⊆ (wrB.map (Proc.devRef (τ := τ) .tc)).toFinset := by
  simp only [ValueP.ops, List.drop_succ_cons, List.drop_zero, List.take_succ_cons, List.take_zero, List.Forall, StableHlo.nullary_writes,
    StableHlo.unary_writes, StableHlo.binary_writes, StableHlo.ternary_writes, StableHlo.reshape_writes, Finset.singleton_subset_iff,
    List.mem_toFinset]
  repeat' apply And.intro
  all_goals exact List.mem_map_of_mem (by decide)
private theorem B2_of (r : Ref sig .tc) (h : r ∉ wrB) : B2 V (Proc.devRef .tc r) = B1 V (Proc.devRef .tc r) :=
  StableHlo.after_of_writes_sub _ _ wrB_sub h

private abbrev wrC : List (Ref sig .tc) :=
  [main_c_6, main_v31, main_v32, main_c_7, main_v33, main_v34, main_v35, main_v36, main_v37, main_v38, main_v39, main_v40, main_cst_8,
   main_v41, main_v42, main_v43, main_v44, main_v45, main_v46, main_call1_cst, main_call1_v0, main_v47]
private theorem wrC_sub :
    ((((ValueP.ops (F := F)).drop 21).drop 20).take 22 : List (HloOp τ sig (Elt F))).Forall fun op =>
      op.writes ⊆ (wrC.map (Proc.devRef (τ := τ) .tc)).toFinset := by
  simp only [ValueP.ops, List.drop_succ_cons, List.drop_zero, List.take_succ_cons, List.take_zero, List.Forall, StableHlo.nullary_writes,
    StableHlo.unary_writes, StableHlo.binary_writes, StableHlo.ternary_writes, StableHlo.reshape_writes, Finset.singleton_subset_iff,
    List.mem_toFinset]
  repeat' apply And.intro
  all_goals exact List.mem_map_of_mem (by decide)
private theorem B3_of (r : Ref sig .tc) (h : r ∉ wrC) : B3 V (Proc.devRef .tc r) = B2 V (Proc.devRef .tc r) :=
  StableHlo.after_of_writes_sub _ _ wrC_sub h

private abbrev wrD : List (Ref sig .tc) :=
  [main_v48, main_v49, main_v50, main_cst_9, main_v51, main_cst_10, main_v52, main_v53, main_v54, main_cst_11, main_v55, main_v56, main_v57,
   main_cst_12, main_call2_v0, main_call2_v1, main_v58]
private theorem wrD_sub :
    (((((ValueP.ops (F := F)).drop 21).drop 20).drop 22).take 17 : List (HloOp τ sig (Elt F))).Forall fun op =>
      op.writes ⊆ (wrD.map (Proc.devRef (τ := τ) .tc)).toFinset := by
  simp only [ValueP.ops, List.drop_succ_cons, List.drop_zero, List.take_succ_cons, List.take_zero, List.Forall, StableHlo.nullary_writes,
    StableHlo.unary_writes, StableHlo.binary_writes, StableHlo.ternary_writes, StableHlo.reshape_writes, Finset.singleton_subset_iff,
    List.mem_toFinset]
  repeat' apply And.intro
  all_goals exact List.mem_map_of_mem (by decide)
private theorem B4_of (r : Ref sig .tc) (h : r ∉ wrD) : B4 V (Proc.devRef .tc r) = B3 V (Proc.devRef .tc r) :=
  StableHlo.after_of_writes_sub _ _ wrD_sub h

private abbrev wrE : List (Ref sig .tc) :=
  [main_c_13, main_v59, main_v60, main_c_14, main_v61, main_v62, main_v63, main_v64, main_v65, main_c_15, main_v66, main_v67, main_c_16,
   main_v68, main_v69, main_v70, main_v71, main_v72, main_v73, main_v74]
private theorem wrE_sub :
    ((((((ValueP.ops (F := F)).drop 21).drop 20).drop 22).drop 17).take 20 : List (HloOp τ sig (Elt F))).Forall fun op =>
      op.writes ⊆ (wrE.map (Proc.devRef (τ := τ) .tc)).toFinset := by
  simp only [ValueP.ops, List.drop_succ_cons, List.drop_zero, List.take_succ_cons, List.take_zero, List.Forall, StableHlo.nullary_writes,
    StableHlo.unary_writes, StableHlo.binary_writes, StableHlo.ternary_writes, StableHlo.reshape_writes, Finset.singleton_subset_iff,
    List.mem_toFinset]
  repeat' apply And.intro
  all_goals exact List.mem_map_of_mem (by decide)
private theorem B5_of (r : Ref sig .tc) (h : r ∉ wrE) : B5 V (Proc.devRef .tc r) = B4 V (Proc.devRef .tc r) :=
  StableHlo.after_of_writes_sub _ _ wrE_sub h

private abbrev wrF : List (Ref sig .tc) :=
  [main_c_17, main_v75, main_v76, main_c_18, main_v77, main_v78, main_v79, main_v80, main_v81, main_v82, main_v83, main_v84, main_cst_19,
   main_v85, main_v86, main_v87, main_v88, main_v89, main_v90, main_call3_cst, main_call3_v0, main_v91]
private theorem wrF_sub :
    (((((((ValueP.ops (F := F)).drop 21).drop 20).drop 22).drop 17).drop 20).take 22 : List (HloOp τ sig (Elt F))).Forall fun op =>
      op.writes ⊆ (wrF.map (Proc.devRef (τ := τ) .tc)).toFinset := by
  simp only [ValueP.ops, List.drop_succ_cons, List.drop_zero, List.take_succ_cons, List.take_zero, List.Forall, StableHlo.nullary_writes,
    StableHlo.unary_writes, StableHlo.binary_writes, StableHlo.ternary_writes, StableHlo.reshape_writes, Finset.singleton_subset_iff,
    List.mem_toFinset]
  repeat' apply And.intro
  all_goals exact List.mem_map_of_mem (by decide)
private theorem B6_of (r : Ref sig .tc) (h : r ∉ wrF) : B6 V (Proc.devRef .tc r) = B5 V (Proc.devRef .tc r) :=
  StableHlo.after_of_writes_sub _ _ wrF_sub h

private abbrev wrG : List (Ref sig .tc) :=
  [main_c_20, main_v92, main_v93, main_c_21, main_v94, main_v95, main_v96, main_v97, main_v98, main_c_22, main_v99, main_v100, main_c_23,
   main_v101, main_v102, main_v103, main_v104, main_v105]
private theorem wrG_sub :
    ((((((((ValueP.ops (F := F)).drop 21).drop 20).drop 22).drop 17).drop 20).drop 22).take 18 : List (HloOp τ sig (Elt F))).Forall fun op =>
      op.writes ⊆ (wrG.map (Proc.devRef (τ := τ) .tc)).toFinset := by
  simp only [ValueP.ops, List.drop_succ_cons, List.drop_zero, List.take_succ_cons, List.take_zero, List.Forall, StableHlo.nullary_writes,
    StableHlo.unary_writes, StableHlo.binary_writes, StableHlo.ternary_writes, StableHlo.reshape_writes, Finset.singleton_subset_iff,
    List.mem_toFinset]
  repeat' apply And.intro
  all_goals exact List.mem_map_of_mem (by decide)
private theorem B7_of (r : Ref sig .tc) (h : r ∉ wrG) : B7 V (Proc.devRef .tc r) = B6 V (Proc.devRef .tc r) :=
  StableHlo.after_of_writes_sub _ _ wrG_sub h

/-! ## The nine arguments at the start, and the values the line builds from them -/

/-- The node features, the edge list, the edge attributes. -/
private def aX : FVec F S50000x64 .f32 := V (Proc.devRef .tc main_arg0)
private def aEi : IVec S2x800000 32 := V (Proc.devRef .tc main_arg1)
private def aAttr : FVec F S800000x16 .f32 := V (Proc.devRef .tc main_arg2)
/-- The first layer's weights and bias, the second layer's, the head's. -/
private def aW1 : FVec F S64x64 .f32 := V (Proc.devRef .tc main_arg3)
private def aB1 : FVec F S64 .f32 := V (Proc.devRef .tc main_arg4)
private def aW2 : FVec F S64x64 .f32 := V (Proc.devRef .tc main_arg5)
private def aB2 : FVec F S64 .f32 := V (Proc.devRef .tc main_arg6)
private def aWe : FVec F S144x1 .f32 := V (Proc.devRef .tc main_arg7)
private def aBe : FVec F S1 .f32 := V (Proc.devRef .tc main_arg8)
/-- The inverse square roots of the degrees, and the entries' weights. -/
private def vDinv : FVec F S50000 .f32 := RT.dinvOf (RT.degR (aEi V))
private def vNrm : FVec F S850000 .f32 := RT.normR (vDinv V) (aEi V)
/-- The two layers' outputs. -/
private def vH1 : FVec F S50000x64 .f32 := RT.relu (RT.layerR (vDinv V) (aEi V) (RT.lin (aX V) (aW1 V)) (aB1 V))
private def vH2 : FVec F S50000x64 .f32 := RT.relu (RT.layerR (vDinv V) (aEi V) (RT.lin (vH1 V) (aW2 V)) (aB2 V))

/-- The reference's result is the head applied to the second layer's output. -/
private theorem resR_eq :
    RT.resR (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8))
      = RT.headR (vH2 V) (aEi V) (aAttr V) (aWe V) (aBe V) := rfl

/-- The scores from the two row blocks at the endpoints and the attributes laid side by side. -/
private def headCat (g1 g2 : FVec F S800000x64 .f32) (attr : FVec F S800000x16 .f32) (We : FVec F S144x1 .f32) (be : FVec F S1 .f32) :
    FVec F S800000x1 .f32 :=
  addf (Host.dotGeneral dot_S800000x144_S144x1_S800000x1_1_0_0_1_n_n none
      (concatenate S800000x144 1 [⟨S800000x64, g1⟩, ⟨S800000x64, g2⟩, ⟨S800000x16, attr⟩]
        concatenates_S800000x64_S800000x64_S800000x16_S800000x144_d1) We)
    (broadcastInDim S800000x1 ![0, 1] bcast_S1x1_S800000x1_0_1 (broadcastInDim S1x1 ![1] bcast_S1_S1x1_1 be))

/-! ## Operations 0 … 20 -/

private theorem B1_v1 : B1 V (Proc.devRef .tc main_v1) = RT.src1 (aEi V) := by
  simp only [B1]
  simp only [ValueP.ops, List.drop_succ_cons, List.drop_zero, List.take_succ_cons, List.take_zero]
  after_results_simp
  rfl
private theorem B1_v3 : B1 V (Proc.devRef .tc main_v3) = RT.dst1 (aEi V) := by
  simp only [B1]
  simp only [ValueP.ops, List.drop_succ_cons, List.drop_zero, List.take_succ_cons, List.take_zero]
  after_results_simp
  rfl
private theorem B1_v5 : B1 V (Proc.devRef .tc main_v5) = RT.withLoops (RT.src1 (aEi V)) := by
  simp only [B1]
  simp only [ValueP.ops, List.drop_succ_cons, List.drop_zero, List.take_succ_cons, List.take_zero]
  after_results_simp
  rfl
private theorem B1_v6 : B1 V (Proc.devRef .tc main_v6) = RT.withLoops (RT.dst1 (aEi V)) := by
  simp only [B1]
  simp only [ValueP.ops, List.drop_succ_cons, List.drop_zero, List.take_succ_cons, List.take_zero]
  after_results_simp
  rfl
private theorem B1_v14 : B1 V (Proc.devRef .tc main_v14) = vDinv V := by
  simp only [B1]
  simp only [ValueP.ops, List.drop_succ_cons, List.drop_zero, List.take_succ_cons, List.take_zero]
  after_results_simp
  rfl

/-! ## No stretch writes an argument: it is carried from the start -/

private theorem B2_arg (b : Ref sig .tc) (h1 : b ∉ wrA) (h2 : b ∉ wrB) : B2 V (Proc.devRef .tc b) = V (Proc.devRef .tc b) :=
  (B2_of V b h2).trans (B1_of V b h1)
private theorem B3_arg (b : Ref sig .tc) (h1 : b ∉ wrA) (h2 : b ∉ wrB) (h3 : b ∉ wrC) : B3 V (Proc.devRef .tc b) = V (Proc.devRef .tc b) :=
  (B3_of V b h3).trans (B2_arg V b h1 h2)
private theorem B4_arg (b : Ref sig .tc) (h1 : b ∉ wrA) (h2 : b ∉ wrB) (h3 : b ∉ wrC) (h4 : b ∉ wrD) :
    B4 V (Proc.devRef .tc b) = V (Proc.devRef .tc b) :=
  (B4_of V b h4).trans (B3_arg V b h1 h2 h3)
private theorem B5_arg (b : Ref sig .tc) (h1 : b ∉ wrA) (h2 : b ∉ wrB) (h3 : b ∉ wrC) (h4 : b ∉ wrD) (h5 : b ∉ wrE) :
    B5 V (Proc.devRef .tc b) = V (Proc.devRef .tc b) :=
  (B5_of V b h5).trans (B4_arg V b h1 h2 h3 h4)
private theorem B7_arg (b : Ref sig .tc) (h1 : b ∉ wrA) (h2 : b ∉ wrB) (h3 : b ∉ wrC) (h4 : b ∉ wrD) (h5 : b ∉ wrE) (h6 : b ∉ wrF)
    (h7 : b ∉ wrG) : B7 V (Proc.devRef .tc b) = V (Proc.devRef .tc b) :=
  (B7_of V b h7).trans ((B6_of V b h6).trans (B5_arg V b h1 h2 h3 h4 h5))

/-! ## Operations 21 … 40 -/

private theorem B2_v29 : B2 V (Proc.devRef .tc main_v29) = vNrm V := by
  have e5 := B1_v5 V
  have e6 := B1_v6 V
  have e14 := B1_v14 V
  simp only [B2]
  generalize B1 V = W at e5 e6 e14 ⊢
  simp only [ValueP.ops, List.drop_succ_cons, List.drop_zero, List.take_succ_cons, List.take_zero]
  after_results_simp
  rw [e5, e6, e14]
  rfl
private theorem B2_v30 : B2 V (Proc.devRef .tc main_v30) = RT.lin (aX V) (aW1 V) := by
  have e0 : B1 V (Proc.devRef .tc main_arg0) = aX V := B1_of V main_arg0 (by decide)
  have e3 : B1 V (Proc.devRef .tc main_arg3) = aW1 V := B1_of V main_arg3 (by decide)
  simp only [B2]
  generalize B1 V = W at e0 e3 ⊢
  simp only [ValueP.ops, List.drop_succ_cons, List.drop_zero, List.take_succ_cons, List.take_zero]
  after_results_simp
  rw [e0, e3]
  rfl
private theorem B2_v5 : B2 V (Proc.devRef .tc main_v5) = RT.withLoops (RT.src1 (aEi V)) :=
  (B2_of V main_v5 (by decide)).trans (B1_v5 V)
private theorem B2_v6 : B2 V (Proc.devRef .tc main_v6) = RT.withLoops (RT.dst1 (aEi V)) :=
  (B2_of V main_v6 (by decide)).trans (B1_v6 V)

/-! ## Operations 41 … 62 -/

private theorem B3_v47 : B3 V (Proc.devRef .tc main_v47) = vH1 V := by
  have e5 := B2_v5 V
  have e6 := B2_v6 V
  have e29 := B2_v29 V
  have e30 := B2_v30 V
  have e4 : B2 V (Proc.devRef .tc main_arg4) = aB1 V := B2_arg V main_arg4 (by decide) (by decide)
  simp only [B3]
  generalize B2 V = W at e5 e6 e29 e30 e4 ⊢
  simp only [ValueP.ops, List.drop_succ_cons, List.drop_zero, List.take_succ_cons, List.take_zero]
  after_results_simp
  rw [e5, e6, e29, e30, e4]
  rfl
private theorem B3_v1 : B3 V (Proc.devRef .tc main_v1) = RT.src1 (aEi V) :=
  (B3_of V main_v1 (by decide)).trans ((B2_of V main_v1 (by decide)).trans (B1_v1 V))
private theorem B3_v3 : B3 V (Proc.devRef .tc main_v3) = RT.dst1 (aEi V) :=
  (B3_of V main_v3 (by decide)).trans ((B2_of V main_v3 (by decide)).trans (B1_v3 V))

/-! ## Operations 63 … 79 -/

private theorem B4_v49 : B4 V (Proc.devRef .tc main_v49) = RT.withLoops (RT.src1 (aEi V)) := by
  have e1 := B3_v1 V
  simp only [B4]
  generalize B3 V = W at e1 ⊢
  simp only [ValueP.ops, List.drop_succ_cons, List.drop_zero, List.take_succ_cons, List.take_zero]
  after_results
  rw [e1]
  rfl
private theorem B4_v50 : B4 V (Proc.devRef .tc main_v50) = RT.withLoops (RT.dst1 (aEi V)) := by
  have e3 := B3_v3 V
  simp only [B4]
  generalize B3 V = W at e3 ⊢
  simp only [ValueP.ops, List.drop_succ_cons, List.drop_zero, List.take_succ_cons, List.take_zero]
  after_results
  rw [e3]
  rfl
private theorem B4_v58 : B4 V (Proc.devRef .tc main_v58) = vDinv V := by
  have e3 := B3_v3 V
  simp only [B4]
  generalize B3 V = W at e3 ⊢
  simp only [ValueP.ops, List.drop_succ_cons, List.drop_zero, List.take_succ_cons, List.take_zero]
  after_results_simp
  repeat (first
    | rw [StableHlo.nullary_result]
    | (rw [StableHlo.nullary_result_ne]; rotate_left; decide)
    | (rw [StableHlo.binary_result_ne]; rotate_left; decide))
  rw [e3]
  rfl
private theorem B4_v47 : B4 V (Proc.devRef .tc main_v47) = vH1 V :=
  (B4_of V main_v47 (by decide)).trans (B3_v47 V)
private theorem B4_v1 : B4 V (Proc.devRef .tc main_v1) = RT.src1 (aEi V) :=
  (B4_of V main_v1 (by decide)).trans (B3_v1 V)
private theorem B4_v3 : B4 V (Proc.devRef .tc main_v3) = RT.dst1 (aEi V) :=
  (B4_of V main_v3 (by decide)).trans (B3_v3 V)

/-! ## Operations 80 … 99 -/

private theorem B5_v73 : B5 V (Proc.devRef .tc main_v73) = vNrm V := by
  have e49 := B4_v49 V
  have e50 := B4_v50 V
  have e58 := B4_v58 V
  simp only [B5]
  generalize B4 V = W at e49 e50 e58 ⊢
  simp only [ValueP.ops, List.drop_succ_cons, List.drop_zero, List.take_succ_cons, List.take_zero]
  after_results_simp
  rw [e49, e50, e58]
  rfl
private theorem B5_v74 : B5 V (Proc.devRef .tc main_v74) = RT.lin (vH1 V) (aW2 V) := by
  have e47 := B4_v47 V
  have e5 : B4 V (Proc.devRef .tc main_arg5) = aW2 V := B4_arg V main_arg5 (by decide) (by decide) (by decide) (by decide)
  simp only [B5]
  generalize B4 V = W at e47 e5 ⊢
  simp only [ValueP.ops, List.drop_succ_cons, List.drop_zero, List.take_succ_cons, List.take_zero]
  after_results_simp
  rw [e47, e5]
  rfl
private theorem B5_v49 : B5 V (Proc.devRef .tc main_v49) = RT.withLoops (RT.src1 (aEi V)) :=
  (B5_of V main_v49 (by decide)).trans (B4_v49 V)
private theorem B5_v50 : B5 V (Proc.devRef .tc main_v50) = RT.withLoops (RT.dst1 (aEi V)) :=
  (B5_of V main_v50 (by decide)).trans (B4_v50 V)

/-! ## Operations 100 … 121 -/

private theorem B6_v91 : B6 V (Proc.devRef .tc main_v91) = vH2 V := by
  have e49 := B5_v49 V
  have e50 := B5_v50 V
  have e73 := B5_v73 V
  have e74 := B5_v74 V
  have e6 : B5 V (Proc.devRef .tc main_arg6) = aB2 V := B5_arg V main_arg6 (by decide) (by decide) (by decide) (by decide) (by decide)
  simp only [B6]
  generalize B5 V = W at e49 e50 e73 e74 e6 ⊢
  simp only [ValueP.ops, List.drop_succ_cons, List.drop_zero, List.take_succ_cons, List.take_zero]
  after_results_simp
  rw [e49, e50, e73, e74, e6]
  rfl
private theorem B6_v1 : B6 V (Proc.devRef .tc main_v1) = RT.src1 (aEi V) :=
  (B6_of V main_v1 (by decide)).trans ((B5_of V main_v1 (by decide)).trans (B4_v1 V))
private theorem B6_v3 : B6 V (Proc.devRef .tc main_v3) = RT.dst1 (aEi V) :=
  (B6_of V main_v3 (by decide)).trans ((B5_of V main_v3 (by decide)).trans (B4_v3 V))

/-! ## Operations 122 … 139 -/

private theorem B7_v98 :
    B7 V (Proc.devRef .tc main_v98)
      = Host.gather gather_S50000x64_S800000x1_S800000x64_1_0_n_n_0_1_164 (vH2 V) (RT.colE (RT.wrapE (RT.src1 (aEi V)))) := by
  have e1 := B6_v1 V
  have e91 := B6_v91 V
  simp only [B7]
  generalize B6 V = W at e1 e91 ⊢
  simp only [ValueP.ops, List.drop_succ_cons, List.drop_zero, List.take_succ_cons, List.take_zero]
  after_results_simp
  rw [e1, e91]
  rfl
private theorem B7_v105 :
    B7 V (Proc.devRef .tc main_v105)
      = Host.gather gather_S50000x64_S800000x1_S800000x64_1_0_n_n_0_1_164 (vH2 V) (RT.colE (RT.wrapE (RT.dst1 (aEi V)))) := by
  have e3 := B6_v3 V
  have e91 := B6_v91 V
  simp only [B7]
  generalize B6 V = W at e3 e91 ⊢
  simp only [ValueP.ops, List.drop_succ_cons, List.drop_zero, List.take_succ_cons, List.take_zero]
  after_results_simp
  rw [e3, e91]
  rfl

/-! ## Operations 140 … 144: the three blocks side by side, the score weights, the bias -/

private theorem last_v110 (W : Valuation τ sig (Elt F)) :
    StableHlo.after ((((((((ValueP.ops (F := F)).drop 21).drop 20).drop 22).drop 17).drop 20).drop 22).drop 18) W (Proc.devRef .tc main_v110)
      = headCat (W (Proc.devRef .tc main_v98)) (W (Proc.devRef .tc main_v105)) (W (Proc.devRef .tc main_arg2))
          (W (Proc.devRef .tc main_arg7)) (W (Proc.devRef .tc main_arg8)) := by
  simp only [ValueP.ops, List.drop_succ_cons, List.drop_zero, List.take_succ_cons, List.take_zero]
  after_results
  rfl

/-- After the whole line the result buffer holds the head of the second layer's output. -/
private theorem read_v110 :
    StableHlo.after (ValueP.ops (F := F)) V (Proc.devRef .tc main_v110) = RT.headR (vH2 V) (aEi V) (aAttr V) (aWe V) (aBe V) := by
  rw [after_ops V, last_v110, B7_v98, B7_v105,
    B7_arg V main_arg2 (by decide) (by decide) (by decide) (by decide) (by decide) (by decide) (by decide),
    B7_arg V main_arg7 (by decide) (by decide) (by decide) (by decide) (by decide) (by decide) (by decide),
    B7_arg V main_arg8 (by decide) (by decide) (by decide) (by decide) (by decide) (by decide) (by decide)]
  rfl

end Read

set_option maxRecDepth 16384 in
/-- After the 145 operations the result buffer holds resR of the nine arguments' launch contents. -/
theorem res_read (m : (ℓ : Loc nD τ sig) → Buf (Elt F) ℓ) (c : Dev nD) :
    StableHlo.after (ValueP.ops (F := F)) (launchContents m c) (Proc.devRef .tc main_v110)
      = RT.resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  refine ((read_v110 (launchContents m c)).trans (resR_eq (launchContents m c)).symm).trans ?_
  rfl

set_option maxRecDepth 8192

/-- No operation writes argument 0. -/
theorem arg0_read (m : (ℓ : Loc nD τ sig) → Buf (Elt F) ℓ) (c : Dev nD) :
    StableHlo.after (ValueP.ops (F := F)) (launchContents m c) (Proc.devRef .tc main_arg0) = m ((c.tc : Thread nD τ).loc main_arg0) := by
  after_results_simp <;> rfl
/-- No operation writes argument 1. -/
theorem arg1_read (m : (ℓ : Loc nD τ sig) → Buf (Elt F) ℓ) (c : Dev nD) :
    StableHlo.after (ValueP.ops (F := F)) (launchContents m c) (Proc.devRef .tc main_arg1) = m ((c.tc : Thread nD τ).loc main_arg1) := by
  after_results_simp <;> rfl
/-- No operation writes argument 2. -/
theorem arg2_read (m : (ℓ : Loc nD τ sig) → Buf (Elt F) ℓ) (c : Dev nD) :
    StableHlo.after (ValueP.ops (F := F)) (launchContents m c) (Proc.devRef .tc main_arg2) = m ((c.tc : Thread nD τ).loc main_arg2) := by
  after_results_simp <;> rfl
/-- No operation writes argument 3. -/
theorem arg3_read (m : (ℓ : Loc nD τ sig) → Buf (Elt F) ℓ) (c : Dev nD) :
    StableHlo.after (ValueP.ops (F := F)) (launchContents m c) (Proc.devRef .tc main_arg3) = m ((c.tc : Thread nD τ).loc main_arg3) := by
  after_results_simp <;> rfl
/-- No operation writes argument 4. -/
theorem arg4_read (m : (ℓ : Loc nD τ sig) → Buf (Elt F) ℓ) (c : Dev nD) :
    StableHlo.after (ValueP.ops (F := F)) (launchContents m c) (Proc.devRef .tc main_arg4) = m ((c.tc : Thread nD τ).loc main_arg4) := by
  after_results_simp <;> rfl
/-- No operation writes argument 5. -/
theorem arg5_read (m : (ℓ : Loc nD τ sig) → Buf (Elt F) ℓ) (c : Dev nD) :
    StableHlo.after (ValueP.ops (F := F)) (launchContents m c) (Proc.devRef .tc main_arg5) = m ((c.tc : Thread nD τ).loc main_arg5) := by
  after_results_simp <;> rfl
/-- No operation writes argument 6. -/
theorem arg6_read (m : (ℓ : Loc nD τ sig) → Buf (Elt F) ℓ) (c : Dev nD) :
    StableHlo.after (ValueP.ops (F := F)) (launchContents m c) (Proc.devRef .tc main_arg6) = m ((c.tc : Thread nD τ).loc main_arg6) := by
  after_results_simp <;> rfl
/-- No operation writes argument 7. -/
theorem arg7_read (m : (ℓ : Loc nD τ sig) → Buf (Elt F) ℓ) (c : Dev nD) :
    StableHlo.after (ValueP.ops (F := F)) (launchContents m c) (Proc.devRef .tc main_arg7) = m ((c.tc : Thread nD τ).loc main_arg7) := by
  after_results_simp <;> rfl
/-- No operation writes argument 8. -/
theorem arg8_read (m : (ℓ : Loc nD τ sig) → Buf (Elt F) ℓ) (c : Dev nD) :
    StableHlo.after (ValueP.ops (F := F)) (launchContents m c) (Proc.devRef .tc main_arg8) = m ((c.tc : Thread nD τ).loc main_arg8) := by
  after_results_simp <;> rfl

/-- The reference's run with the result at resR of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110)
        = RT.resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v110).trans (res_read m c),
      (h c main_arg0).trans (arg0_read m c), (h c main_arg1).trans (arg1_read m c), (h c main_arg2).trans (arg2_read m c),
      (h c main_arg3).trans (arg3_read m c), (h c main_arg4).trans (arg4_read m c), (h c main_arg5).trans (arg5_read m c),
      (h c main_arg6).trans (arg6_read m c), (h c main_arg7).trans (arg7_read m c), (h c main_arg8).trans (arg8_read m c)⟩)
    (run_seq ValueP.scopedRefs_eq ValueP.scopedSems_eq defs main (fun _ => ValueP.ops) ValueP.main_eq (fun _ => ValueP.ops_sub) m ρ)

end Cert.ReferenceIdeal.RRun

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.LibIdx.lean ====
/-
  Reads at an index used on both sides.

  (1) The gather of a vector of n entries at a column of e start indices, read at entry p: the vector at the word
      idx[p, 0] read as a signed integer and clamped into [0, n - 1].
  (2) An endpoint vector of 800000 entries followed by the nodes 0 … 49999, read at entry p: the endpoint when
      p < 800000, else the word of p - 800000.
  (3) A word in [0, 50000) read signed is not negative, so adding 50000 to negative words leaves it, and clamping
      into [0, 49999] leaves it.
-/
import Idealize.ShloMosaic.PureOps.Ideal
import Idealize.ShloMosaic.Lib.ValueIdx
import Idealize.ShloMosaic.Lib.Pipeline.Value
import proofs.«426948_j5884105195871_1_alg».proof.Proof.RTerms

noncomputable section

namespace Cert.LibIdx

open Idealize.ShloMosaic Idealize.ShloMosaic.ValueIdx

/-- The dimension numbers of "entries of an [n] operand at an [e, 1] column of start indices": no offset axis, the
    operand's one axis collapsed and named by the start index, slices of one entry. -/
abbrev vecGatherDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE VECTOR GATHER READ AT p: the operand at the start index idx[p, 0], read signed and clamped into [0, n - 1]. -/
theorem vecGather_apply {α : Type} {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (p : Fin e) :
    Host.gather (vecGatherDims n e wf) x idx (ix1 p) = x (ix1 ⟨min (idx (ix2 p (0 : Fin 1))).toInt.toNat (n - 1), by omega⟩) := by
  unfold Host.gather
  congr 1
  funext a
  obtain rfl : a = 0 := Subsingleton.elim _ _
  refine Fin.ext ?_
  -- the one operand axis: collapsed (no offset), not batching, named by the start index map
  show (vecGatherDims n e wf).start (ix1 p) idx 0 + (vecGatherDims n e wf).batchCoord (ix1 p) 0
      + (vecGatherDims n e wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 p) ⟨List.idxOf (0 : Fin 1) (vecGatherDims n e wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- An endpoint vector followed by the nodes, read at entry p. -/
theorem withLoops_apply (v : IVec Cert.ReferenceIdeal.S800000 32) (p : Fin 850000) :
    Cert.ReferenceIdeal.RT.withLoops v (ix1 p)
      = if h : p.val < 800000 then v (ix1 ⟨p.val, h⟩) else BitVec.ofNat 32 (p.val - 800000) := by
  unfold Cert.ReferenceIdeal.RT.withLoops
  by_cases h : p.val < 800000
  · -- the first piece, at offset 0
    rw [dif_pos h]
    refine concatenate_apply_piece (t := Cert.ReferenceIdeal.S850000) 0
      [⟨Cert.ReferenceIdeal.S800000, v⟩, ⟨Cert.ReferenceIdeal.S50000, iotaInDim Cert.ReferenceIdeal.S50000 32 0⟩] _ (ix1 p) 0 Nat.zero_lt_two
      Cert.ReferenceIdeal.S800000 v rfl rfl 0 rfl (ix1 ⟨p.val, h⟩) ?_ ?_
    · intro b hb
      exact absurd (Subsingleton.elim _ _) hb
    · exact Nat.zero_add _
  · -- the second piece, at offset 800000: the words of 0 … 49999
    rw [dif_neg h]
    have hp : p.val - 800000 < 50000 := by have := p.isLt; omega
    refine (concatenate_apply_piece (t := Cert.ReferenceIdeal.S850000) 0
      [⟨Cert.ReferenceIdeal.S800000, v⟩, ⟨Cert.ReferenceIdeal.S50000, iotaInDim Cert.ReferenceIdeal.S50000 32 0⟩] _ (ix1 p) 1 Nat.one_lt_two
      Cert.ReferenceIdeal.S50000 (iotaInDim Cert.ReferenceIdeal.S50000 32 0) rfl rfl 800000 rfl
      (ix1 ⟨p.val - 800000, hp⟩) ?_ ?_).trans ?_
    · intro b hb
      exact absurd (Subsingleton.elim _ _) hb
    · show 800000 + (p.val - 800000) = p.val
      omega
    · rfl

/-- A negative word counts from the end; a word in range is left alone. -/
def wrapW (w : BitVec 32) : BitVec 32 := Scalar.select (Scalar.cmpi .slt w 0#32) (w + 50000#32) w

/-- Clamping a signed word into [0, 49999]. -/
def clampN (w : BitVec 32) : Fin 50000 := ⟨min w.toInt.toNat 49999, by omega⟩

/-- A word in [0, 50000) is its own wrapped and clamped index. -/
theorem clamp_wrap_of_inRange (w : BitVec 32) (h0 : 0 ≤ w.toInt) (h1 : w.toInt < 50000) :
    ((clampN (wrapW w)).val : Int) = w.toInt := by
  have hlt : Scalar.cmpi .slt w 0#32 = 0#1 := by
    have hs : w.slt 0#32 = false := by
      rw [BitVec.slt_eq_decide]
      simp only [BitVec.toInt_zero]
      exact decide_eq_false (by omega)
    show BitVec.ofBool (w.slt 0#32) = 0#1
    rw [hs]
    rfl
  unfold wrapW clampN
  rw [hlt, select_zero]
  show ((min w.toInt.toNat 49999 : Nat) : Int) = w.toInt
  omega

/-- The word of a node number below 50000, read signed, is the number. -/
theorem toInt_ofNat_lt (k : Nat) (hk : k < 50000) : (BitVec.ofNat 32 k).toInt = (k : Int) := by
  rw [BitVec.toInt_eq_toNat_of_lt (by rw [BitVec.toNat_ofNat]; omega), BitVec.toNat_ofNat]
  omega

end Cert.LibIdx

end
-- ==== Proof.BridgeDeg.lean ====
/-
  The two programs' node degrees agree over the extended reals: the number of edges that end at a node, plus one, is the
  number of destination entries that name it among the edges followed by every node's own loop.
-/
import proofs.«426948_j5884105195871_1_alg».proof.Proof.KTerms
import proofs.«426948_j5884105195871_1_alg».proof.Proof.RTerms
import proofs.«426948_j5884105195871_1_alg».proof.Proof.LibRows
import proofs.«426948_j5884105195871_1_alg».proof.Proof.LibIdx
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx
open Cert.KernelIdeal (S50000x64 S2x800000 S800000x16 S64x64 S64 S144x1 S1 S50000 S800000x1)

/-! ## The algebra on sums -/

/-- Among the numbers 0 … m - 1 exactly one is r: a sum that takes c where k = r and 0 elsewhere is c. -/
private theorem sum_nodes {m : Nat} (c : EReal) (r : Fin m) :
    ∑ k : Fin m, (if (k.val : Int) = (r.val : Int) then c else 0) = c := by
  rw [Finset.sum_eq_single r]
  · rw [if_pos rfl]
  · intro k _ hk
    rw [if_neg]
    intro h
    exact hk (Fin.ext (Int.ofNat_inj.mp h))
  · intro h
    exact absurd (Finset.mem_univ r) h

/-- Counting the entries that name node r among n edge entries f followed by the m nodes' own numbers: the count
    over the edges, plus one for the node's own loop. -/
private theorem count_split {n m : Nat} (c : EReal) (f : Fin n → Int) (g : Fin (n + m) → Int) (r : Fin m)
    (h1 : ∀ p : Fin n, g (Fin.castAdd m p) = f p) (h2 : ∀ k : Fin m, g (Fin.natAdd n k) = (k.val : Int)) :
    (0 + ∑ p : Fin n, (if f p = (r.val : Int) then c else 0)) + c
      = 0 + ∑ p : Fin (n + m), (if g p = (r.val : Int) then c else 0) := by
  rw [Fin.sum_univ_add]
  simp only [h1, h2, sum_nodes]
  exact add_assoc _ _ _

/-! ## The operations read at an index -/

/-- A constant broadcast to any shape reads the constant. -/
private theorem bcast_const_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b :=
by
  unfold broadcastInDim
  rfl

/-- A vector as a column of start indices reads the vector. -/
private theorem col_apply {α : Type} {e : Nat} (he : e ≠ 1)
    (h : (⟨1, ![e]⟩ : Shape).BroadcastsInDim ⟨2, ![e, 1]⟩ ![0])
    (v : (⟨1, ![e]⟩ : Shape).Idx → α) (p : Fin e) :
    broadcastInDim ⟨2, ![e, 1]⟩ ![0] h v (ix2 p (0 : Fin 1)) = v (ix1 p) := by
  refine broadcastInDim_apply _ h v _ (ix1 p) (fun a => ?_)
  obtain rfl : a = 0 := Subsingleton.elim _ _
  show p.val = if e = 1 then 0 else p.val
  rw [if_neg he]

/-- The kernel side's degree of node r: the ones of the edges whose destination word is r, added into zero, plus
    one. -/
private theorem degK_apply (ei : IVec S2x800000 32) (r : Fin 50000) :
    Cert.KernelIdeal.KT.degK (F := Ideal) ei (ix1 r)
      = (0 + ∑ p : Fin 800000, (if (Cert.KernelIdeal.KT.dst1 ei (ix1 p)).toInt = (r.val : Int)
            then Ideal.ofBits .f32 0x3F800000#32 else 0)) + Ideal.ofBits .f32 0x3F800000#32 := by
  unfold Cert.KernelIdeal.KT.degK
  rw [addf_apply]
  refine congrArg₂ (· + ·) ?_ (bcast_const_apply _ _ _)
  refine (Cert.LibRows.rowScatterAdd1_apply (n := 50000) (e := 800000)
    Cert.KernelIdeal.Gen.scatter_S50000_S800000x1_S800000_n_0_0_1_wf _ _ _ r).trans ?_
  rw [bcast_const_apply, Ideal.ofBits_zero_f32]
  refine congrArg (fun s => (0 : EReal) + s) ?_
  refine Finset.sum_congr rfl fun p _ => ?_
  rw [bcast_const_apply]
  unfold Cert.KernelIdeal.KT.colE
  rw [col_apply (by decide)]

/-- The reference side's degree of node r: the ones of the entries — edges, then loops — whose destination word is
    r, added into zero. -/
private theorem degR_apply (ei : IVec S2x800000 32) (r : Fin 50000) :
    Cert.ReferenceIdeal.RT.degR (F := Ideal) ei (ix1 r)
      = 0 + ∑ p : Fin 850000, (if (Cert.ReferenceIdeal.RT.withLoops (Cert.ReferenceIdeal.RT.dst1 ei) (ix1 p)).toInt = (r.val : Int)
            then Ideal.ofBits .f32 0x3F800000#32 else 0) := by
  unfold Cert.ReferenceIdeal.RT.degR
  refine (Cert.LibRows.rowScatterAdd1_apply (n := 50000) (e := 850000)
    Cert.ReferenceIdeal.Gen.scatter_S50000_S850000x1_S850000_n_0_0_1_wf _ _ _ r).trans ?_
  rw [bcast_const_apply, Ideal.ofBits_zero_f32]
  refine congrArg (fun s => (0 : EReal) + s) ?_
  refine Finset.sum_congr rfl fun p _ => ?_
  rw [bcast_const_apply]
  unfold Cert.ReferenceIdeal.RT.col
  rw [col_apply (by decide)]

/-! ## The degrees agree -/

/-- The degrees agree: the edges that end at a node plus one is the count over edges and loops. -/
theorem deg_eq (ei : IVec S2x800000 32) :
    Cert.KernelIdeal.KT.degK (F := Ideal) ei = Cert.ReferenceIdeal.RT.degR (F := Ideal) ei := by
  funext i
  obtain ⟨r, rfl⟩ : ∃ r, i = ix1 r := ⟨i 0, eq_ix1 i⟩
  rw [degK_apply, degR_apply]
  -- the 850000 entries are the 800000 edges followed by the 50000 nodes
  have hnm : 800000 + 50000 = 850000 := by norm_num
  rw [← Fintype.sum_equiv (finCongr hnm)
    (fun p : Fin (800000 + 50000) => if (Cert.ReferenceIdeal.RT.withLoops (Cert.ReferenceIdeal.RT.dst1 ei) (ix1 (Fin.cast hnm p))).toInt = (r.val : Int)
      then Ideal.ofBits .f32 0x3F800000#32 else 0) _ (fun _ => rfl)]
  refine count_split (n := 800000) (m := 50000) (Ideal.ofBits .f32 0x3F800000#32)
    (fun p => (Cert.KernelIdeal.KT.dst1 ei (ix1 p)).toInt)
    (fun p => (Cert.ReferenceIdeal.RT.withLoops (Cert.ReferenceIdeal.RT.dst1 ei) (ix1 (Fin.cast hnm p))).toInt) r ?_ ?_
  · -- an edge entry reads the edge's destination word, the same word on both sides
    intro p
    show (Cert.ReferenceIdeal.RT.withLoops (Cert.ReferenceIdeal.RT.dst1 ei) (ix1 (Fin.cast hnm (Fin.castAdd 50000 p)))).toInt = _
    rw [Cert.LibIdx.withLoops_apply, dif_pos (show (Fin.cast hnm (Fin.castAdd 50000 p)).val < 800000 from p.isLt)]
    rfl
  · -- a loop entry reads the node's own number
    intro k
    show (Cert.ReferenceIdeal.RT.withLoops (Cert.ReferenceIdeal.RT.dst1 ei) (ix1 (Fin.cast hnm (Fin.natAdd 800000 k)))).toInt = _
    rw [Cert.LibIdx.withLoops_apply,
      dif_neg (show ¬ (Fin.cast hnm (Fin.natAdd 800000 k)).val < 800000 from Nat.not_lt.mpr (Nat.le_add_right _ _))]
    show (BitVec.ofNat 32 (800000 + k.val - 800000)).toInt = _
    rw [Nat.add_sub_cancel_left]
    exact Cert.LibIdx.toInt_ofNat_lt k.val k.isLt

end Cert.Bridge

end
-- ==== Proof.KAggSum.lean ====
/-
  The aggregation kernel's result read at an entry, over the extended reals: entry (q, r) is the sum, over the edges
  that end at node r, of the feature table's entry (q, source of the edge) times the edge's weight — when every
  source endpoint names a node.
-/
import proofs.«426948_j5884105195871_1_alg».proof.Proof.KTerms
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

open scoped BigOperators

namespace Cert.KernelIdeal.KAggSum

open Cert.KernelIdeal Cert.KernelIdeal.Gen Idealize.ShloMosaic Idealize.ShloMosaic.ValueIdx

/-! ## Words -/

/-- The word of a number below 2^31, read signed, is the number. -/
theorem toInt_ofNat_small (n : Nat) (hn : n < 2147483648) : (BitVec.ofNat 32 n).toInt = (n : Int) := by
  rw [BitVec.toInt_eq_toNat_cond, BitVec.toNat_ofNat]
  have h : n % 2 ^ 32 = n := Nat.mod_eq_of_lt (by omega)
  rw [h]
  split <;> omega

/-- A word is the word of a number below 2^31 exactly when its signed reading is that number. -/
theorem eq_ofNat_iff (w : BitVec 32) (n : Nat) (hn : n < 2147483648) : w = BitVec.ofNat 32 n ↔ w.toInt = (n : Int) := by
  rw [← toInt_ofNat_small n hn]
  exact BitVec.toInt_inj.symm

/-- The equality test of two words, widened and converted, is the real 1 or 0. -/
theorem cmpEq_toReal (a b : BitVec 32) :
    (((((IntOp.cmpi .eq a b).setWidth 32).toInt : ℝ)) : EReal) = if b = a then 1 else 0 := by
  by_cases h : b = a
  · subst h
    rw [if_pos rfl]
    simp [IntOp.cmpi]
  · rw [if_neg h]
    have h' : (a == b) = false := by
      rw [beq_eq_false_iff_ne]
      exact fun e => h e.symm
    simp [IntOp.cmpi, h']

/-! ## The 0/1 matrix of a block of endpoint words -/

/-- Entry (n, j) of the 0/1 matrix: one exactly when word j is the word of n. -/
theorem onehot_apply (x : S1x128.Idx → BitVec 32) (n : Fin 50000) (j : Fin 128) :
    KT.onehot (F := Ideal) x (ix2 n j) = if x (ix2 (0 : Fin 1) j) = BitVec.ofNat 32 n.val then 1 else 0 := by
  unfold KT.onehot
  rw [shapeCast_self, shapeCast_self, shapeCast_self]
  have hb : broadcastTo S50000x128 x broadcasts_S1x128_S50000x128 (ix2 n j) = x (ix2 (0 : Fin 1) j) :=
    broadcastTo_apply x broadcasts_S1x128_S50000x128 (ix2 n j) (ix2 (0 : Fin 1) j)
      (fun a => match a with | ⟨0, _⟩ => rfl | ⟨1, _⟩ => rfl)
  have hi : iota .tc S50000x128 32 [0] iota_S50000x128_d0_w32 (ix2 n j) = BitVec.ofNat 32 n.val :=
    iota_single_apply .tc S50000x128 32 0 iota_S50000x128_d0_w32 (ix2 n j)
  show ((((IntOp.cmpi .eq (iota .tc S50000x128 32 [0] iota_S50000x128_d0_w32 (ix2 n j))
      (broadcastTo S50000x128 x broadcasts_S1x128_S50000x128 (ix2 n j))).setWidth 32).toInt : ℝ) : EReal) = _
  rw [hb, hi]
  exact cmpEq_toReal _ _

/-! ## The two products read at an entry -/

/-- The feature table times a [50000, 128] matrix, into zero: the sum over the 50000 nodes. -/
theorem matmulA_apply (A : FVec Ideal S64x50000 .bf16) (B : FVec Ideal S50000x128 .bf16) (q : Fin 64) (j : Fin 128) :
    matmul dot_S64x50000_S50000x128_S64x128_1_0_0_1_n_n none A B (constant (F := Ideal) S64x128 .f32 0x00000000#32) (ix2 q j)
      = ∑ n : Fin 50000, A (ix2 q n) * B (ix2 n j) := by
  show FloatOps.matmul _ none A B _ (ix2 q j) = _
  rw [Ideal.matmul_constant_zero_apply,
    ← Equiv.sum_comp (contrEquiv1 dot_S64x50000_S50000x128_S64x128_1_0_0_1_n_n 50000 rfl rfl).symm]
  refine Finset.sum_congr rfl fun c _ => ?_
  have c2 := contrEquiv1_symm_val dot_S64x50000_S50000x128_S64x128_1_0_0_1_n_n 50000 rfl rfl c
  have l2 : dot_S64x50000_S50000x128_S64x128_1_0_0_1_n_n.lhsIdx (ix2 q j) ((contrEquiv1 _ 50000 rfl rfl).symm c) = ix2 q c := by
    funext ax; apply Fin.ext
    match ax with
    | ⟨0, _⟩ => simp [DotDims.lhsIdx, dot_S64x50000_S50000x128_S64x128_1_0_0_1_n_n]; rfl
    | ⟨1, _⟩ => simp [DotDims.lhsIdx, dot_S64x50000_S50000x128_S64x128_1_0_0_1_n_n]; exact c2
  have r2 : dot_S64x50000_S50000x128_S64x128_1_0_0_1_n_n.rhsIdx (ix2 q j) ((contrEquiv1 _ 50000 rfl rfl).symm c) = ix2 c j := by
    funext ax; apply Fin.ext
    match ax with
    | ⟨0, _⟩ => simp [DotDims.rhsIdx, dot_S64x50000_S50000x128_S64x128_1_0_0_1_n_n]; exact c2
    | ⟨1, _⟩ => simp [DotDims.rhsIdx, dot_S64x50000_S50000x128_S64x128_1_0_0_1_n_n]; rfl
  rw [l2, r2]

/-- A [64, 128] matrix times the transpose of a [50000, 128] matrix, into zero: the sum over the 128 columns. -/
theorem matmulB_apply (A : FVec Ideal S64x128 .bf16) (B : FVec Ideal S50000x128 .bf16) (q : Fin 64) (r : Fin 50000) :
    matmul dot_S64x128_S50000x128_S64x50000_1_1_0_0_n_n none A B (constant (F := Ideal) S64x50000 .f32 0x00000000#32) (ix2 q r)
      = ∑ j : Fin 128, A (ix2 q j) * B (ix2 r j) := by
  show FloatOps.matmul _ none A B _ (ix2 q r) = _
  rw [Ideal.matmul_constant_zero_apply,
    ← Equiv.sum_comp (contrEquiv1 dot_S64x128_S50000x128_S64x50000_1_1_0_0_n_n 128 rfl rfl).symm]
  refine Finset.sum_congr rfl fun c _ => ?_
  have c2 := contrEquiv1_symm_val dot_S64x128_S50000x128_S64x50000_1_1_0_0_n_n 128 rfl rfl c
  have l2 : dot_S64x128_S50000x128_S64x50000_1_1_0_0_n_n.lhsIdx (ix2 q r) ((contrEquiv1 _ 128 rfl rfl).symm c) = ix2 q c := by
    funext ax; apply Fin.ext
    match ax with
    | ⟨0, _⟩ => simp [DotDims.lhsIdx, dot_S64x128_S50000x128_S64x50000_1_1_0_0_n_n]; rfl
    | ⟨1, _⟩ => simp [DotDims.lhsIdx, dot_S64x128_S50000x128_S64x50000_1_1_0_0_n_n]; exact c2
  have r2 : dot_S64x128_S50000x128_S64x50000_1_1_0_0_n_n.rhsIdx (ix2 q r) ((contrEquiv1 _ 128 rfl rfl).symm c) = ix2 r c := by
    funext ax; apply Fin.ext
    match ax with
    | ⟨0, _⟩ => simp [DotDims.rhsIdx, dot_S64x128_S50000x128_S64x50000_1_1_0_0_n_n]; rfl
    | ⟨1, _⟩ => simp [DotDims.rhsIdx, dot_S64x128_S50000x128_S64x50000_1_1_0_0_n_n]; exact c2
  rw [l2, r2]

/-! ## A block's messages and one grid point -/

/-- A sum of products with a 0/1 column that has its one at node m is the factor at m. -/
theorem sum_mul_ite_eq (f : Fin 50000 → EReal) (w : BitVec 32) (h0 : 0 ≤ w.toInt) (h1 : w.toInt < 50000) :
    (∑ n : Fin 50000, f n * (if w = BitVec.ofNat 32 n.val then (1 : EReal) else 0)) = f ⟨w.toInt.toNat, by omega⟩ := by
  have e : ∀ n : Fin 50000, f n * (if w = BitVec.ofNat 32 n.val then (1 : EReal) else 0)
      = if (⟨w.toInt.toNat, by omega⟩ : Fin 50000) = n then f n else 0 := by
    intro n
    have hiff : w = BitVec.ofNat 32 n.val ↔ (⟨w.toInt.toNat, by omega⟩ : Fin 50000) = n := by
      rw [eq_ofNat_iff w n.val (by have := n.isLt; omega), Fin.ext_iff]
      show w.toInt = (n.val : Int) ↔ w.toInt.toNat = n.val
      omega
    by_cases h : w = BitVec.ofNat 32 n.val
    · rw [if_pos h, if_pos (hiff.mp h), mul_one]
    · rw [if_neg h, if_neg (fun e => h (hiff.mpr e)), mul_zero]
  rw [Finset.sum_congr rfl (fun n _ => e n), Finset.sum_ite_eq]
  simp

/-- A block's messages at (q, j): the feature table's entry (q, source j) times the weight of edge j. -/
theorem msgOf_onehot_apply (hT : FVec Ideal S64x50000 .bf16) (x0 : S1x128.Idx → BitVec 32) (x2 : FVec Ideal S1x128 .f32)
    (q : Fin 64) (j : Fin 128) (h0 : 0 ≤ (x0 (ix2 (0 : Fin 1) j)).toInt) (h1 : (x0 (ix2 (0 : Fin 1) j)).toInt < 50000) :
    KT.msgOf (F := Ideal) hT (KT.onehot (F := Ideal) x0) x2 (ix2 q j)
      = hT (ix2 q ⟨(x0 (ix2 (0 : Fin 1) j)).toInt.toNat, by omega⟩) * x2 (ix2 (0 : Fin 1) j) := by
  unfold KT.msgOf
  rw [shapeCast_self, shapeCast_self]
  have hb : broadcastTo S64x128 x2 broadcasts_S1x128_S64x128 (ix2 q j) = x2 (ix2 (0 : Fin 1) j) :=
    broadcastTo_apply x2 broadcasts_S1x128_S64x128 (ix2 q j) (ix2 (0 : Fin 1) j)
      (fun a => match a with | ⟨0, _⟩ => rfl | ⟨1, _⟩ => rfl)
  rw [truncf_apply, mulf_apply, hb, matmulA_apply]
  refine congrArg (fun z : EReal => z * x2 (ix2 (0 : Fin 1) j)) ?_
  refine (Finset.sum_congr rfl (fun n _ => by rw [onehot_apply])).trans ?_
  exact sum_mul_ite_eq (fun n => hT (ix2 q n)) _ h0 h1

/-- The feature table's entry (q, node of the word w); zero when the word names no node. -/
def featAt (hT : FVec Ideal S64x50000 .bf16) (q : Fin 64) (w : BitVec 32) : EReal :=
  if h : 0 ≤ w.toInt ∧ w.toInt < 50000 then hT (ix2 q ⟨w.toInt.toNat, by omega⟩) else 0

/-- One grid point at (q, r): the accumulator plus the messages of the block's edges that end at node r. -/
theorem step_apply (x0 x1 : S1x128.Idx → BitVec 32) (x2 : FVec Ideal S1x128 .f32) (x3 : FVec Ideal S64x50000 .bf16)
    (xo : FVec Ideal S64x50000 .f32)
    (h0 : ∀ j : Fin 128, 0 ≤ (x0 (ix2 (0 : Fin 1) j)).toInt ∧ (x0 (ix2 (0 : Fin 1) j)).toInt < 50000) (q : Fin 64) (r : Fin 50000) :
    KT.step (F := Ideal) x0 x1 x2 x3 xo (ix2 q r)
      = xo (ix2 q r) + ∑ j : Fin 128, if (x1 (ix2 (0 : Fin 1) j)).toInt = (r.val : Int)
          then featAt x3 q (x0 (ix2 (0 : Fin 1) j)) * x2 (ix2 (0 : Fin 1) j) else 0 := by
  unfold KT.step
  rw [addf_apply, shapeCast_self, matmulB_apply]
  refine congrArg (fun z : EReal => xo (ix2 q r) + z) ?_
  refine Finset.sum_congr rfl fun j _ => ?_
  rw [msgOf_onehot_apply x3 x0 x2 q j (h0 j).1 (h0 j).2, onehot_apply]
  have hiff := eq_ofNat_iff (x1 (ix2 (0 : Fin 1) j)) r.val (by have := r.isLt; omega)
  unfold featAt
  rw [dif_pos (h0 j)]
  by_cases h : (x1 (ix2 (0 : Fin 1) j)).toInt = (r.val : Int)
  · rw [if_pos h, if_pos (hiff.mpr h), mul_one]
  · rw [if_neg h, if_neg (fun e => h (hiff.mp e)), mul_zero]

/-! ## The fold over the blocks -/

/-- The contribution of edge number p to entry (q, r); zero past the last edge. -/
def edgeTerm (s d : S1x800000.Idx → BitVec 32) (nr : FVec Ideal S1x800000 .f32) (hT : FVec Ideal S64x50000 .bf16)
    (q : Fin 64) (r : Fin 50000) (p : ℕ) : EReal :=
  if h : p < 800000 then
    (if (d (ix2 (0 : Fin 1) ⟨p, h⟩)).toInt = (r.val : Int)
      then featAt hT q (s (ix2 (0 : Fin 1) ⟨p, h⟩)) * nr (ix2 (0 : Fin 1) ⟨p, h⟩) else 0)
  else 0

/-- Grid point t at (q, r): the accumulator plus the contributions of the edges 128 t … 128 t + 127. -/
theorem step_blk_apply (s d : S1x800000.Idx → BitVec 32) (nr : FVec Ideal S1x800000 .f32) (hT : FVec Ideal S64x50000 .bf16)
    (hs : ∀ p : Fin 800000, 0 ≤ (s (ix2 (0 : Fin 1) p)).toInt ∧ (s (ix2 (0 : Fin 1) p)).toInt < 50000)
    (t : ℕ) (ht : t < 6250) (xo : FVec Ideal S64x50000 .f32) (q : Fin 64) (r : Fin 50000) :
    KT.step (F := Ideal) (KT.blk s t ht) (KT.blk d t ht) (KT.blk nr t ht) hT xo (ix2 q r)
      = xo (ix2 q r) + ∑ j : Fin 128, edgeTerm s d nr hT q r (128 * t + j.val) := by
  rw [step_apply (KT.blk s t ht) (KT.blk d t ht) (KT.blk nr t ht) hT xo
    (fun j => hs ⟨128 * t + j.val, by have := j.isLt; omega⟩) q r]
  refine congrArg (fun z : EReal => xo (ix2 q r) + z) ?_
  refine Finset.sum_congr rfl fun j _ => ?_
  unfold edgeTerm
  rw [dif_pos (show 128 * t + j.val < 800000 by have := j.isLt; omega)]
  rfl

/-- The accumulator after grid point n at (q, r): the contributions of the edges of blocks 0 … n. -/
theorem aggAt_apply (s d : S1x800000.Idx → BitVec 32) (nr : FVec Ideal S1x800000 .f32) (hT : FVec Ideal S64x50000 .bf16)
    (hs : ∀ p : Fin 800000, 0 ≤ (s (ix2 (0 : Fin 1) p)).toInt ∧ (s (ix2 (0 : Fin 1) p)).toInt < 50000)
    (q : Fin 64) (r : Fin 50000) : ∀ (n : ℕ) (hn : n < 6250),
    KT.aggAt (F := Ideal) s d nr hT n hn (ix2 q r)
      = ∑ t ∈ Finset.range (n + 1), ∑ j : Fin 128, edgeTerm s d nr hT q r (128 * t + j.val)
  | 0, hn => by
    rw [KT.aggAt, step_blk_apply s d nr hT hs 0 hn _ q r, Finset.sum_range_one]
    have hz : KT.zeroAcc (F := Ideal) (ix2 q r) = 0 := Ideal.ofBits_zero_f32
    rw [hz, zero_add]
  | n + 1, hn => by
    rw [KT.aggAt, step_blk_apply s d nr hT hs (n + 1) hn _ q r, aggAt_apply s d nr hT hs q r n (Nat.lt_of_succ_lt hn),
      Finset.sum_range_succ _ (n + 1)]

/-- A sum over a blocks of b consecutive numbers is the sum over the first a b numbers. -/
theorem sum_blocks (f : ℕ → EReal) (b : ℕ) : ∀ (a n : ℕ), a * b = n →
    ∑ t ∈ Finset.range a, ∑ j ∈ Finset.range b, f (b * t + j) = ∑ p ∈ Finset.range n, f p
  | 0, n, h => by
    subst h
    rw [Nat.zero_mul, Finset.sum_range_zero, Finset.sum_range_zero]
  | a + 1, n, h => by
    subst h
    rw [Finset.sum_range_succ, sum_blocks f b a (a * b) rfl, Nat.succ_mul, Finset.sum_range_add, Nat.mul_comm b a]

/-- The fold over the 6250 blocks of 128 edges, read at (q, r): one sum over all 800000 edges. -/
theorem aggLast_apply (s d : S1x800000.Idx → BitVec 32) (nr : FVec Ideal S1x800000 .f32) (hT : FVec Ideal S64x50000 .bf16)
    (hs : ∀ p : Fin 800000, 0 ≤ (s (ix2 (0 : Fin 1) p)).toInt ∧ (s (ix2 (0 : Fin 1) p)).toInt < 50000) (q : Fin 64) (r : Fin 50000) :
    KT.aggLast (F := Ideal) s d nr hT (ix2 q r)
      = ∑ p : Fin 800000, if (d (ix2 (0 : Fin 1) p)).toInt = (r.val : Int)
          then hT (ix2 q ⟨(s (ix2 (0 : Fin 1) p)).toInt.toNat, by have := hs p; omega⟩) * nr (ix2 (0 : Fin 1) p) else 0 := by
  unfold KT.aggLast
  refine (aggAt_apply s d nr hT hs q r 6249 (by decide)).trans ?_
  refine (Finset.sum_congr rfl (fun t _ =>
    (Finset.sum_range (fun j => edgeTerm s d nr hT q r (128 * t + j))).symm)).trans ?_
  refine (sum_blocks (edgeTerm s d nr hT q r) 128 6250 800000 (by norm_num)).trans ?_
  refine (Finset.sum_range (edgeTerm s d nr hT q r)).trans ?_
  refine Finset.sum_congr rfl fun p _ => ?_
  unfold edgeTerm featAt
  rw [dif_pos p.isLt, dif_pos (hs p)]

end Cert.KernelIdeal.KAggSum

end
-- ==== Proof.BridgeLayer.lean ====
/-
  One graph-convolution layer agrees over the extended reals when every endpoint names a node: the aggregation kernel's
  sum over the edges that end at a node, plus the node's own weighted row, is the reference's sum over edges and loops.
-/
import proofs.«426948_j5884105195871_1_alg».proof.Proof.KTerms
import proofs.«426948_j5884105195871_1_alg».proof.Proof.RTerms
import proofs.«426948_j5884105195871_1_alg».proof.Proof.LibRows
import proofs.«426948_j5884105195871_1_alg».proof.Proof.LibIdx
import proofs.«426948_j5884105195871_1_alg».proof.Proof.KAggSum
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx
open Cert.KernelIdeal (S50000x64 S2x800000 S800000x16 S64x64 S64 S144x1 S1 S50000 S800000x1)

/-- Every endpoint of the edge list names a node. -/
def InRange (ei : IVec S2x800000 32) : Prop := ∀ i, 0 ≤ (ei i).toInt ∧ (ei i).toInt < 50000

open Cert.LibIdx (wrapW clampN)

/-! ## The algebra: edges and loops against edges plus the node's own term -/

/-- Over e edges followed by the n loops (k, k): the entries that end at r contribute the edges that end at r, and the
    one loop of r itself. -/
private theorem sum_edges_loops {n e : ℕ} (S D : Fin e → Fin n) (SL DL : Fin (e + n) → Fin n)
    (hS : ∀ p, SL (Fin.castAdd n p) = S p) (hD : ∀ p, DL (Fin.castAdd n p) = D p)
    (hSl : ∀ k, SL (Fin.natAdd e k) = k) (hDl : ∀ k, DL (Fin.natAdd e k) = k)
    (H w : Fin n → EReal) (r : Fin n) :
    (∑ p : Fin (e + n), if DL p = r then H (SL p) * (w (SL p) * w (DL p)) else 0)
      = (∑ p : Fin e, if D p = r then H (S p) * (w (S p) * w (D p)) else 0) + (w r * w r) * H r := by
  rw [Fin.sum_univ_add]
  simp only [hS, hD, hSl, hDl]
  rw [Finset.sum_ite_eq' Finset.univ r (fun k => H k * (w k * w k))]
  simp only [Finset.mem_univ, if_true]
  rw [mul_comm (H r)]

/-! ## The endpoint vectors and the layout operations read at an index -/

/-- The source endpoint of edge p is the edge list's entry (0, p). -/
private theorem src1_apply (ei : IVec S2x800000 32) (p : Fin 800000) : Cert.KernelIdeal.KT.src1 ei (ix1 p) = ei (ix2 (0 : Fin 2) p) := by
  unfold Cert.KernelIdeal.KT.src1
  refine (shapeCast_apply _ _ (ix1 p) (ix2 (0 : Fin 1) p) (by
    rw [Shape.rowMajor_val_two, Shape.rowMajor_val_one]; show 0 * 800000 + p.val = p.val; omega)).trans ?_
  refine extractStridedSlice_apply _ _ _ (ix2 (0 : Fin 1) p) (ix2 (0 : Fin 2) p) ?_
  intro a
  match a with
  | ⟨0, _⟩ => rfl
  | ⟨1, _⟩ => show p.val = 0 + p.val; omega

/-- The destination endpoint of edge p is the edge list's entry (1, p). -/
private theorem dst1_apply (ei : IVec S2x800000 32) (p : Fin 800000) : Cert.KernelIdeal.KT.dst1 ei (ix1 p) = ei (ix2 (1 : Fin 2) p) := by
  unfold Cert.KernelIdeal.KT.dst1
  refine (shapeCast_apply _ _ (ix1 p) (ix2 (0 : Fin 1) p) (by
    rw [Shape.rowMajor_val_two, Shape.rowMajor_val_one]; show 0 * 800000 + p.val = p.val; omega)).trans ?_
  refine extractStridedSlice_apply _ _ _ (ix2 (0 : Fin 1) p) (ix2 (1 : Fin 2) p) ?_
  intro a
  match a with
  | ⟨0, _⟩ => rfl
  | ⟨1, _⟩ => show p.val = 0 + p.val; omega

/-- The reference's endpoint vectors are the kernel program's. -/
private theorem rsrc1_eq (ei : IVec S2x800000 32) : Cert.ReferenceIdeal.RT.src1 ei = Cert.KernelIdeal.KT.src1 ei := rfl
private theorem rdst1_eq (ei : IVec S2x800000 32) : Cert.ReferenceIdeal.RT.dst1 ei = Cert.KernelIdeal.KT.dst1 ei := rfl

/-- A per-edge vector as one row, read at (0, p). -/
private theorem rowOf_apply {α : Type} (v : Cert.KernelIdeal.S800000.Idx → α) (p : Fin 800000) :
    Cert.KernelIdeal.KT.rowOf v (ix2 (0 : Fin 1) p) = v (ix1 p) := by
  unfold Cert.KernelIdeal.KT.rowOf
  exact shapeCast_apply _ _ (ix2 (0 : Fin 1) p) (ix1 p) (by
    rw [Shape.rowMajor_val_two, Shape.rowMajor_val_one]; show p.val = 0 * 800000 + p.val; omega)

/-- The transposed feature table read at (q, k) is the table at (k, q). -/
private theorem hTof_apply (h : FVec Ideal S50000x64 .f32) (q : Fin 64) (k : Fin 50000) :
    Cert.KernelIdeal.KT.hTof (F := Ideal) h (ix2 q k) = h (ix2 k q) := by
  unfold Cert.KernelIdeal.KT.hTof
  show transpose Cert.KernelIdeal.S64x50000 [1, 0] h _ (ix2 q k) = _
  refine transpose_apply _ _ _ (ix2 q k) (ix2 k q) ?_
  intro b
  match b with
  | ⟨0, _⟩ => rfl
  | ⟨1, _⟩ => rfl

/-! ## Words in range -/

/-- The node a word names: the word with negatives counted from the end, clamped into [0, 49999]. -/
private abbrev node (w : BitVec 32) : Fin 50000 := clampN (wrapW w)

/-- A word in [0, 50000) names the node of its own value. -/
private theorem node_val (w : BitVec 32) (hw : 0 ≤ w.toInt ∧ w.toInt < 50000) : ((node w).val : Int) = w.toInt :=
  Cert.LibIdx.clamp_wrap_of_inRange w hw.1 hw.2

/-- ... so it is the node r exactly when its value is r. -/
private theorem toInt_eq_iff (w : BitVec 32) (hw : 0 ≤ w.toInt ∧ w.toInt < 50000) (r : Fin 50000) :
    w.toInt = (r.val : Int) ↔ node w = r := by
  have h := node_val w hw
  constructor
  · intro e; exact Fin.ext (by omega)
  · intro e; rw [← e]; omega

/-- ... and the node is the word's value as a natural number. -/
private theorem node_eq_toNat (w : BitVec 32) (hw : 0 ≤ w.toInt ∧ w.toInt < 50000) :
    (⟨w.toInt.toNat, by omega⟩ : Fin 50000) = node w := by
  have h := node_val w hw
  exact Fin.ext (by show w.toInt.toNat = (node w).val; omega)

/-! ## The kernel program's edge weights -/

/-- An endpoint vector as a column of start indices, read at (p, 0). -/
private theorem colE_apply (v : IVec Cert.KernelIdeal.S800000 32) (p : Fin 800000) : Cert.KernelIdeal.KT.colE v (ix2 p (0 : Fin 1)) = v (ix1 p) := by
  unfold Cert.KernelIdeal.KT.colE
  refine broadcastInDim_apply _ _ _ (ix2 p (0 : Fin 1)) (ix1 p) ?_
  intro a
  match a with
  | ⟨0, _⟩ => rfl

/-- Counting a negative endpoint from the end, read at p. -/
private theorem wrapE_apply (v : IVec Cert.KernelIdeal.S800000 32) (p : Fin 800000) : Cert.KernelIdeal.KT.wrapE v (ix1 p) = wrapW (v (ix1 p)) := rfl

/-- The inverse-root degrees taken at a column of endpoints, read at p: the entry of the node the endpoint names. -/
private theorem gatherE_apply (dinv : FVec Ideal S50000 .f32) (v : IVec Cert.KernelIdeal.S800000 32) (p : Fin 800000) :
    Host.gather Cert.KernelIdeal.gather_S50000_S800000x1_S800000_n_0_n_n_0_1_1 dinv (Cert.KernelIdeal.KT.colE (Cert.KernelIdeal.KT.wrapE v)) (ix1 p)
      = dinv (ix1 (node (v (ix1 p)))) := by
  refine (Cert.LibIdx.vecGather_apply (n := 50000) (e := 800000) (by decide)
    Cert.KernelIdeal.gather_S50000_S800000x1_S800000_n_0_n_n_0_1_1.wf dinv (Cert.KernelIdeal.KT.colE (Cert.KernelIdeal.KT.wrapE v)) p).trans ?_
  refine congrArg (fun k => dinv (ix1 k)) (Fin.ext ?_)
  show min (Cert.KernelIdeal.KT.colE (Cert.KernelIdeal.KT.wrapE v) (ix2 p (0 : Fin 1))).toInt.toNat (50000 - 1) = min (wrapW (v (ix1 p))).toInt.toNat 49999
  rw [colE_apply, wrapE_apply]

/-- The weight of edge p: d at its source node times d at its destination node. -/
private theorem normK_apply (dinv : FVec Ideal S50000 .f32) (ei : IVec S2x800000 32) (p : Fin 800000) :
    Cert.KernelIdeal.KT.normK dinv ei (ix1 p) = dinv (ix1 (node (ei (ix2 (0 : Fin 2) p)))) * dinv (ix1 (node (ei (ix2 (1 : Fin 2) p)))) := by
  unfold Cert.KernelIdeal.KT.normK
  rw [mulf_apply, gatherE_apply, gatherE_apply, src1_apply, dst1_apply]

/-! ## The kernel program's aggregate read at an entry -/

/-- Entry (q, r) of the aggregate: over the edges that end at node r, the feature q of the edge's source node times the
    edge's weight. -/
private theorem aggOf_apply (ei : IVec S2x800000 32) (hr : InRange ei) (dinv : FVec Ideal S50000 .f32) (h : FVec Ideal S50000x64 .f32)
    (q : Fin 64) (r : Fin 50000) :
    Cert.KernelIdeal.KT.aggOf ei (Cert.KernelIdeal.KT.normK dinv ei) h (ix2 q r)
      = ∑ p : Fin 800000, if node (ei (ix2 (1 : Fin 2) p)) = r
          then h (ix2 (node (ei (ix2 (0 : Fin 2) p))) q)
            * (dinv (ix1 (node (ei (ix2 (0 : Fin 2) p)))) * dinv (ix1 (node (ei (ix2 (1 : Fin 2) p))))) else 0 := by
  unfold Cert.KernelIdeal.KT.aggOf
  have hs : ∀ p : Fin 800000, 0 ≤ (Cert.KernelIdeal.KT.rowOf (Cert.KernelIdeal.KT.src1 ei) (ix2 (0 : Fin 1) p)).toInt
      ∧ (Cert.KernelIdeal.KT.rowOf (Cert.KernelIdeal.KT.src1 ei) (ix2 (0 : Fin 1) p)).toInt < 50000 := by
    intro p; rw [rowOf_apply, src1_apply]; exact hr _
  refine (Cert.KernelIdeal.KAggSum.aggLast_apply _ _ _ _ hs q r).trans ?_
  refine Finset.sum_congr rfl fun p _ => ?_
  have e1 : Cert.KernelIdeal.KT.rowOf (Cert.KernelIdeal.KT.dst1 ei) (ix2 (0 : Fin 1) p) = ei (ix2 (1 : Fin 2) p) := by rw [rowOf_apply, dst1_apply]
  have e2 : Cert.KernelIdeal.KT.rowOf (Cert.KernelIdeal.KT.src1 ei) (ix2 (0 : Fin 1) p) = ei (ix2 (0 : Fin 2) p) := by rw [rowOf_apply, src1_apply]
  have e3 := (rowOf_apply (Cert.KernelIdeal.KT.normK dinv ei) p).trans (normK_apply dinv ei p)
  have e4 : Cert.KernelIdeal.KT.hTof (F := Ideal) h (ix2 q ⟨(Cert.KernelIdeal.KT.rowOf (Cert.KernelIdeal.KT.src1 ei) (ix2 (0 : Fin 1) p)).toInt.toNat, by have := hs p; omega⟩)
      = h (ix2 (node (ei (ix2 (0 : Fin 2) p))) q) := by
    refine (hTof_apply h q _).trans (congrArg (fun k => h (ix2 k q)) (Fin.ext ?_))
    show (Cert.KernelIdeal.KT.rowOf (Cert.KernelIdeal.KT.src1 ei) (ix2 (0 : Fin 1) p)).toInt.toNat = (node (ei (ix2 (0 : Fin 2) p))).val
    rw [e2]
    have := node_val _ (hr (ix2 (0 : Fin 2) p))
    omega
  rw [e4, e3, e1]
  exact if_congr (toInt_eq_iff _ (hr _) r) rfl rfl

/-! ## The kernel program's layer read at an entry -/

/-- Entry (r, q) of the layer around an aggregate A: A at (q, r), plus d r squared times the node's own feature, plus the bias. -/
private theorem layerK_apply (A : FVec Ideal Cert.KernelIdeal.S64x50000 .f32) (dinv : FVec Ideal S50000 .f32)
    (h : FVec Ideal S50000x64 .f32) (b : FVec Ideal S64 .f32) (r : Fin 50000) (q : Fin 64) :
    Cert.KernelIdeal.KT.layerK A dinv h b (ix2 r q) = (A (ix2 q r) + (dinv (ix1 r) * dinv (ix1 r)) * h (ix2 r q)) + b (ix1 q) := by
  have t : transpose S50000x64 [1, 0] A Cert.KernelIdeal.Gen.transposes_S64x50000_S50000x64_1_0 (ix2 r q) = A (ix2 q r) :=
    transpose_apply _ _ _ (ix2 r q) (ix2 q r) (fun a => match a with | ⟨0, _⟩ => rfl | ⟨1, _⟩ => rfl)
  have d : broadcastInDim S50000x64 ![0, 1] Cert.KernelIdeal.Gen.bcast_S50000x1_S50000x64_0_1
      (broadcastInDim Cert.KernelIdeal.S50000x1 ![0] Cert.KernelIdeal.Gen.bcast_S50000_S50000x1_0 (mulf dinv dinv)) (ix2 r q)
        = dinv (ix1 r) * dinv (ix1 r) := by
    refine (broadcastInDim_apply _ _ _ (ix2 r q) (ix2 r (0 : Fin 1)) ?_).trans ?_
    · intro a
      match a with
      | ⟨0, _⟩ => rfl
      | ⟨1, _⟩ => rfl
    refine (broadcastInDim_apply _ _ _ (ix2 r (0 : Fin 1)) (ix1 r) ?_).trans rfl
    intro a
    match a with
    | ⟨0, _⟩ => rfl
  have bb : broadcastInDim S50000x64 ![0, 1] Cert.KernelIdeal.Gen.bcast_S1x64_S50000x64_0_1
      (broadcastInDim Cert.KernelIdeal.S1x64 ![1] Cert.KernelIdeal.Gen.bcast_S64_S1x64_1 b) (ix2 r q) = b (ix1 q) := by
    refine (broadcastInDim_apply _ _ _ (ix2 r q) (ix2 (0 : Fin 1) q) ?_).trans ?_
    · intro a
      match a with
      | ⟨0, _⟩ => rfl
      | ⟨1, _⟩ => rfl
    refine broadcastInDim_apply _ _ _ (ix2 (0 : Fin 1) q) (ix1 q) ?_
    intro a
    match a with
    | ⟨0, _⟩ => rfl
  unfold Cert.KernelIdeal.KT.layerK
  rw [addf_apply, addf_apply, mulf_apply, t, d, bb]

/-! ## The reference: entries (edges, then loops), weights and rows read at an index -/

/-- An entry vector as a column of start indices, read at (p, 0). -/
private theorem col_apply (v : IVec Cert.ReferenceIdeal.S850000 32) (p : Fin 850000) : Cert.ReferenceIdeal.RT.col v (ix2 p (0 : Fin 1)) = v (ix1 p) := by
  unfold Cert.ReferenceIdeal.RT.col
  refine broadcastInDim_apply _ _ _ (ix2 p (0 : Fin 1)) (ix1 p) ?_
  intro a
  match a with
  | ⟨0, _⟩ => rfl

/-- Counting a negative entry from the end, read at p. -/
private theorem wrap_apply (v : IVec Cert.ReferenceIdeal.S850000 32) (p : Fin 850000) : Cert.ReferenceIdeal.RT.wrap v (ix1 p) = wrapW (v (ix1 p)) := rfl

/-- The inverse-root degrees taken at a column of entries, read at p: the entry of the node the word names. -/
private theorem gatherR_apply (dinv : FVec Ideal S50000 .f32) (v : IVec Cert.ReferenceIdeal.S850000 32) (p : Fin 850000) :
    Host.gather Cert.ReferenceIdeal.gather_S50000_S850000x1_S850000_n_0_n_n_0_1_1 dinv (Cert.ReferenceIdeal.RT.col (Cert.ReferenceIdeal.RT.wrap v)) (ix1 p)
      = dinv (ix1 (node (v (ix1 p)))) := by
  refine (Cert.LibIdx.vecGather_apply (n := 50000) (e := 850000) (by decide)
    Cert.ReferenceIdeal.gather_S50000_S850000x1_S850000_n_0_n_n_0_1_1.wf dinv (Cert.ReferenceIdeal.RT.col (Cert.ReferenceIdeal.RT.wrap v)) p).trans ?_
  refine congrArg (fun k => dinv (ix1 k)) (Fin.ext ?_)
  show min (Cert.ReferenceIdeal.RT.col (Cert.ReferenceIdeal.RT.wrap v) (ix2 p (0 : Fin 1))).toInt.toNat (50000 - 1) = min (wrapW (v (ix1 p))).toInt.toNat 49999
  rw [col_apply, wrap_apply]

/-- The weight of entry p: d at its source node times d at its destination node. -/
private theorem normR_apply (dinv : FVec Ideal S50000 .f32) (ei : IVec S2x800000 32) (p : Fin 850000) :
    Cert.ReferenceIdeal.RT.normR dinv ei (ix1 p)
      = dinv (ix1 (node (Cert.ReferenceIdeal.RT.withLoops (Cert.ReferenceIdeal.RT.src1 ei) (ix1 p)))) * dinv (ix1 (node (Cert.ReferenceIdeal.RT.withLoops (Cert.ReferenceIdeal.RT.dst1 ei) (ix1 p)))) := by
  unfold Cert.ReferenceIdeal.RT.normR
  rw [mulf_apply, gatherR_apply, gatherR_apply]

/-- The feature rows taken at a column of entries, read at (p, q): feature q of the node the word names. -/
private theorem rowGatherR_apply (h : FVec Ideal S50000x64 .f32) (v : IVec Cert.ReferenceIdeal.S850000 32) (p : Fin 850000) (q : Fin 64) :
    Host.gather Cert.ReferenceIdeal.gather_S50000x64_S850000x1_S850000x64_1_0_n_n_0_1_164 h (Cert.ReferenceIdeal.RT.col (Cert.ReferenceIdeal.RT.wrap v)) (ix2 p q)
      = h (ix2 (node (v (ix1 p))) q) := by
  refine (Cert.LibRows.rowGather_apply (n := 50000) (e := 850000) (c := 64) (by decide)
    Cert.ReferenceIdeal.gather_S50000x64_S850000x1_S850000x64_1_0_n_n_0_1_164.wf h (Cert.ReferenceIdeal.RT.col (Cert.ReferenceIdeal.RT.wrap v)) p q).trans ?_
  refine congrArg (fun k => h (ix2 k q)) (Fin.ext ?_)
  show min (Cert.ReferenceIdeal.RT.col (Cert.ReferenceIdeal.RT.wrap v) (ix2 p (0 : Fin 1))).toInt.toNat (50000 - 1) = min (wrapW (v (ix1 p))).toInt.toNat 49999
  rw [col_apply, wrap_apply]

/-- A per-entry vector spread along the features, read at (p, q). -/
private theorem spread_apply (w : FVec Ideal Cert.ReferenceIdeal.S850000 .f32) (p : Fin 850000) (q : Fin 64) :
    broadcastInDim Cert.ReferenceIdeal.S850000x64 ![0, 1] Cert.ReferenceIdeal.Gen.bcast_S850000x1_S850000x64_0_1
      (broadcastInDim Cert.ReferenceIdeal.S850000x1 ![0] Cert.ReferenceIdeal.Gen.bcast_S850000_S850000x1_0 w) (ix2 p q) = w (ix1 p) := by
  refine (broadcastInDim_apply _ _ _ (ix2 p q) (ix2 p (0 : Fin 1)) ?_).trans ?_
  · intro a
    match a with
    | ⟨0, _⟩ => rfl
    | ⟨1, _⟩ => rfl
  refine broadcastInDim_apply _ _ _ (ix2 p (0 : Fin 1)) (ix1 p) ?_
  intro a
  match a with
  | ⟨0, _⟩ => rfl

/-- Entry (r, q) of the reference's layer: over the entries whose destination word is r, feature q of the source node
    times the entry's weight, added to zero; plus the bias. -/
private theorem layerR_apply (dinv : FVec Ideal S50000 .f32) (ei : IVec S2x800000 32) (h : FVec Ideal S50000x64 .f32)
    (b : FVec Ideal S64 .f32) (r : Fin 50000) (q : Fin 64) :
    Cert.ReferenceIdeal.RT.layerR dinv ei h b (ix2 r q)
      = (0 + ∑ p : Fin 850000, if (Cert.ReferenceIdeal.RT.withLoops (Cert.ReferenceIdeal.RT.dst1 ei) (ix1 p)).toInt = (r.val : Int)
            then h (ix2 (node (Cert.ReferenceIdeal.RT.withLoops (Cert.ReferenceIdeal.RT.src1 ei) (ix1 p))) q)
              * (dinv (ix1 (node (Cert.ReferenceIdeal.RT.withLoops (Cert.ReferenceIdeal.RT.src1 ei) (ix1 p)))) * dinv (ix1 (node (Cert.ReferenceIdeal.RT.withLoops (Cert.ReferenceIdeal.RT.dst1 ei) (ix1 p)))))
            else 0) + b (ix1 q) := by
  have bb : broadcastInDim S50000x64 ![0, 1] Cert.ReferenceIdeal.Gen.bcast_S1x64_S50000x64_0_1
      (broadcastInDim Cert.ReferenceIdeal.S1x64 ![1] Cert.ReferenceIdeal.Gen.bcast_S64_S1x64_1 b) (ix2 r q) = b (ix1 q) := by
    refine (broadcastInDim_apply _ _ _ (ix2 r q) (ix2 (0 : Fin 1) q) ?_).trans ?_
    · intro a
      match a with
      | ⟨0, _⟩ => rfl
      | ⟨1, _⟩ => rfl
    refine broadcastInDim_apply _ _ _ (ix2 (0 : Fin 1) q) (ix1 q) ?_
    intro a
    match a with
    | ⟨0, _⟩ => rfl
  unfold Cert.ReferenceIdeal.RT.layerR
  rw [addf_apply, bb]
  refine congrArg (fun x => x + b (ix1 q)) ?_
  refine (Cert.LibRows.rowScatterAdd_apply (n := 50000) (e := 850000) (c := 64)
    Cert.ReferenceIdeal.scatter_S50000x64_S850000x1_S850000x64_1_0_0_1.wf _ _ _ r q).trans ?_
  refine congrArg₂ (fun x y => x + y) ?_ ?_
  · exact Ideal.ofBits_zero_f32
  · refine Finset.sum_congr rfl fun p _ => ?_
    rw [col_apply, mulf_apply, rowGatherR_apply, spread_apply, normR_apply]

/-! ## The entries: edges first, then every node's own loop -/

/-- Entry p below 800000 is the edge's endpoint. -/
private theorem loops_edge (v : IVec Cert.ReferenceIdeal.S800000 32) (p : Fin 800000) :
    Cert.ReferenceIdeal.RT.withLoops v (ix1 (n := 850000) (Fin.castAdd 50000 p)) = v (ix1 p) := by
  rw [Cert.LibIdx.withLoops_apply, dif_pos (show (Fin.castAdd 50000 p).val < 800000 from p.isLt)]
  rfl

/-- Entry 800000 + k is the word of node k. -/
private theorem loops_loop (v : IVec Cert.ReferenceIdeal.S800000 32) (k : Fin 50000) :
    Cert.ReferenceIdeal.RT.withLoops v (ix1 (n := 850000) (Fin.natAdd 800000 k)) = BitVec.ofNat 32 k.val := by
  rw [Cert.LibIdx.withLoops_apply, dif_neg (show ¬ (Fin.natAdd 800000 k).val < 800000 from by
    show ¬ 800000 + k.val < 800000; omega)]
  show BitVec.ofNat 32 (800000 + k.val - 800000) = _
  rw [Nat.add_sub_cancel_left]

/-- The word of node k names node k. -/
private theorem node_ofNat (k : Fin 50000) : node (BitVec.ofNat 32 k.val) = k := by
  have e := Cert.LibIdx.toInt_ofNat_lt k.val k.isLt
  exact (toInt_eq_iff _ ⟨by omega, by have := k.isLt; omega⟩ k).mp e

/-- When every endpoint names a node, so does every entry. -/
private theorem loops_inRange (v : IVec Cert.ReferenceIdeal.S800000 32)
    (hv : ∀ p : Fin 800000, 0 ≤ (v (ix1 p)).toInt ∧ (v (ix1 p)).toInt < 50000) (p : Fin 850000) :
    0 ≤ (Cert.ReferenceIdeal.RT.withLoops v (ix1 p)).toInt ∧ (Cert.ReferenceIdeal.RT.withLoops v (ix1 p)).toInt < 50000 := by
  rw [Cert.LibIdx.withLoops_apply]
  by_cases hp : p.val < 800000
  · rw [dif_pos hp]; exact hv _
  · rw [dif_neg hp]
    have := Cert.LibIdx.toInt_ofNat_lt (p.val - 800000) (by have := p.isLt; omega)
    omega

/-- One layer agrees, for any inverse-root degrees, feature table and bias. -/
theorem layer_eq (ei : IVec S2x800000 32) (hr : InRange ei) (dinv : FVec Ideal S50000 .f32) (h : FVec Ideal S50000x64 .f32)
    (b : FVec Ideal S64 .f32) :
    Cert.KernelIdeal.KT.layerK (Cert.KernelIdeal.KT.aggOf ei (Cert.KernelIdeal.KT.normK dinv ei) h) dinv h b
      = Cert.ReferenceIdeal.RT.layerR dinv ei h b := by
  funext i
  obtain ⟨r, q, rfl⟩ : ∃ (r : Fin 50000) (q : Fin 64), i = ix2 r q := ⟨i 0, i 1, eq_ix2 i⟩
  have hdst : ∀ p : Fin 800000, 0 ≤ (Cert.ReferenceIdeal.RT.dst1 ei (ix1 p)).toInt ∧ (Cert.ReferenceIdeal.RT.dst1 ei (ix1 p)).toInt < 50000 := fun p => by
    rw [rdst1_eq, dst1_apply]; exact hr _
  have hc : ∀ p : Fin 850000, (Cert.ReferenceIdeal.RT.withLoops (Cert.ReferenceIdeal.RT.dst1 ei) (ix1 p)).toInt = (r.val : Int)
      ↔ node (Cert.ReferenceIdeal.RT.withLoops (Cert.ReferenceIdeal.RT.dst1 ei) (ix1 p)) = r :=
    fun p => toInt_eq_iff _ (loops_inRange _ hdst p) r
  rw [layerK_apply, layerR_apply, aggOf_apply ei hr, zero_add]
  refine congrArg (fun x => x + b (ix1 q)) ?_
  refine Eq.trans ?_ (Finset.sum_congr rfl fun p _ => if_congr (hc p).symm rfl rfl)
  refine (sum_edges_loops (n := 50000) (e := 800000)
    (fun p => node (ei (ix2 (0 : Fin 2) p))) (fun p => node (ei (ix2 (1 : Fin 2) p)))
    (fun p => node (Cert.ReferenceIdeal.RT.withLoops (Cert.ReferenceIdeal.RT.src1 ei) (ix1 (n := 850000) p)))
    (fun p => node (Cert.ReferenceIdeal.RT.withLoops (Cert.ReferenceIdeal.RT.dst1 ei) (ix1 (n := 850000) p)))
    ?_ ?_ ?_ ?_ (fun k => h (ix2 k q)) (fun k => dinv (ix1 k)) r).symm
  · intro p
    show node (Cert.ReferenceIdeal.RT.withLoops (Cert.ReferenceIdeal.RT.src1 ei) (ix1 (n := 850000) (Fin.castAdd 50000 p))) = _
    rw [loops_edge, rsrc1_eq, src1_apply]
  · intro p
    show node (Cert.ReferenceIdeal.RT.withLoops (Cert.ReferenceIdeal.RT.dst1 ei) (ix1 (n := 850000) (Fin.castAdd 50000 p))) = _
    rw [loops_edge, rdst1_eq, dst1_apply]
  · intro k
    show node (Cert.ReferenceIdeal.RT.withLoops (Cert.ReferenceIdeal.RT.src1 ei) (ix1 (n := 850000) (Fin.natAdd 800000 k))) = _
    rw [loops_loop, node_ofNat]
  · intro k
    show node (Cert.ReferenceIdeal.RT.withLoops (Cert.ReferenceIdeal.RT.dst1 ei) (ix1 (n := 850000) (Fin.natAdd 800000 k))) = _
    rw [loops_loop, node_ofNat]

end Cert.Bridge

end
-- ==== Proof.BridgeHead.lean ====
/-
  The edge scores agree over the extended reals: a sum over the 144 columns of endpoint rows and attributes laid side by
  side splits into the two endpoints' node scores and the attributes' score.

  Both sides read an edge's endpoint word the same way: signed, clamped into [0, 49999]. On the kernel side the node
  scores h2 · We[0:64] and h2 · We[64:128] are computed first and gathered at the endpoints; on the reference side the
  rows of h2 are gathered first, laid beside the attributes, and the 144 columns are contracted with We in one sum.
  Columns 0 … 63 of that sum are the source's node score, columns 64 … 127 the destination's, columns 128 … 143 the
  attributes' score; no distributivity is used, only the splitting of a finite sum into three consecutive stretches.
-/
import proofs.«426948_j5884105195871_1_alg».proof.Proof.KTerms
import proofs.«426948_j5884105195871_1_alg».proof.Proof.RTerms
import proofs.«426948_j5884105195871_1_alg».proof.Proof.LibRows
import proofs.«426948_j5884105195871_1_alg».proof.Proof.LibIdx
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember
import Mathlib.Algebra.BigOperators.Fin

noncomputable section

open scoped BigOperators

namespace Cert.Bridge

open Idealize.ShloMosaic Idealize.ShloMosaic.ValueIdx
open Cert.KernelIdeal (S50000x64 S2x800000 S800000x16 S64x64 S64 S144x1 S1 S50000 S800000x1)

/-! ## A sum over three consecutive stretches -/

/-- A sum over m + n + l consecutive indices is the sum over the first m, plus the sum over the next n, plus the sum
    over the last l. -/
private theorem sum_three {M : Type*} [AddCommMonoid M] (m n l : Nat) (f : Fin (m + n + l) → M) :
    ∑ c, f c = (∑ k : Fin m, f ⟨k.val, by have := k.isLt; omega⟩ + ∑ k : Fin n, f ⟨m + k.val, by have := k.isLt; omega⟩)
      + ∑ k : Fin l, f ⟨m + n + k.val, by have := k.isLt; omega⟩ := by
  rw [Fin.sum_univ_add, Fin.sum_univ_add]
  rfl

/-! ## The operations read at an index -/

/-- The node an edge's endpoint word names: the word read signed and clamped into [0, 49999]. -/
private def nodeAt (idx : IVec S800000x1 32) (p : Fin 800000) : Fin 50000 :=
  ⟨min (idx (ix2 p (0 : Fin 1))).toInt.toNat (50000 - 1), by omega⟩

/-- Node scores gathered at a column of endpoint words: edge p reads ∑ c, h2[node, c] * W[c, 0] at the node its word
    names. -/
private theorem nodeScore_apply (h2 : FVec Ideal S50000x64 .f32) (W : FVec Ideal Cert.KernelIdeal.S64x1 .f32)
    (idx : IVec S800000x1 32) (p : Fin 800000) (q : Fin 1) :
    Host.gather Cert.KernelIdeal.gather_S50000x1_S800000x1_S800000x1_1_0_n_n_0_1_11
        (Host.dotGeneral Cert.KernelIdeal.dot_S50000x64_S64x1_S50000x1_1_0_0_1_n_n none h2 W) idx (ix2 p q)
      = ∑ c : Fin 64, h2 (ix2 (nodeAt idx p) c) * W (ix2 c q) := by
  refine (Cert.LibRows.rowGather_apply (n := 50000) (e := 800000) (c := 1) (by decide)
    Cert.KernelIdeal.Facts₀.gather_S50000x1_S800000x1_S800000x1_1_0_n_n_0_1_11_wf _ idx p q).trans ?_
  exact StackMember.dotGeneral_plain_apply none h2 W (nodeAt idx p) q

/-- The attributes' score: edge p reads ∑ c, attr[p, c] * W[c, 0]. -/
private theorem attrScore_apply (attr : FVec Ideal S800000x16 .f32) (W : FVec Ideal Cert.KernelIdeal.S16x1 .f32)
    (p : Fin 800000) (q : Fin 1) :
    Host.dotGeneral Cert.KernelIdeal.dot_S800000x16_S16x1_S800000x1_1_0_0_1_n_n none attr W (ix2 p q)
      = ∑ c : Fin 16, attr (ix2 p c) * W (ix2 c q) :=
  StackMember.dotGeneral_plain_apply none attr W p q

/-- The rows of the feature table gathered at a column of endpoint words: edge p reads the row of the node its word
    names. -/
private theorem rowAt_apply (h2 : FVec Ideal S50000x64 .f32) (idx : IVec S800000x1 32) (p : Fin 800000) (c : Fin 64) :
    Host.gather Cert.ReferenceIdeal.gather_S50000x64_S800000x1_S800000x64_1_0_n_n_0_1_164 h2 idx (ix2 p c)
      = h2 (ix2 (nodeAt idx p) c) :=
  Cert.LibRows.rowGather_apply (n := 50000) (e := 800000) (c := 64) (by decide)
    Cert.ReferenceIdeal.Facts₀.gather_S50000x64_S800000x1_S800000x64_1_0_n_n_0_1_164_wf h2 idx p c

/-- The score over the 144 columns laid side by side: edge p reads ∑ c, X[p, c] * We[c, 0]. -/
private theorem catScore_apply (X : FVec Ideal Cert.ReferenceIdeal.S800000x144 .f32) (We : FVec Ideal S144x1 .f32)
    (p : Fin 800000) (q : Fin 1) :
    Host.dotGeneral Cert.ReferenceIdeal.dot_S800000x144_S144x1_S800000x1_1_0_0_1_n_n none X We (ix2 p q)
      = ∑ c : Fin 144, X (ix2 p c) * We (ix2 c q) :=
  StackMember.dotGeneral_plain_apply none X We p q

/-- Rows o … o + m - 1 of the score weights, read at a row: the weights' row o + c. -/
private theorem slice_apply (o m : Nat) (hs : S144x1.Slices ![o, 0] ⟨2, ![m, 1]⟩)
    (We : FVec Ideal S144x1 .f32) (c : Fin m) (q : Fin 1) (r : Fin 144) (hr : r.val = o + c.val) :
    extractStridedSlice ⟨2, ![m, 1]⟩ ![o, 0] We hs (ix2 c q) = We (ix2 r q) := by
  refine extractStridedSlice_apply _ We hs _ _ fun a => ?_
  match a with
  | ⟨0, _⟩ => exact hr
  | ⟨1, _⟩ => exact (Nat.zero_add _).symm

section Cat
variable (X Y : FVec Ideal Cert.ReferenceIdeal.S800000x64 .f32) (Z : FVec Ideal S800000x16 .f32)
  (hc : Shape.Concatenates [Cert.ReferenceIdeal.S800000x64, Cert.ReferenceIdeal.S800000x64, Cert.ReferenceIdeal.S800000x16]
    Cert.ReferenceIdeal.S800000x144 1)
  (p : Fin 800000)

/-- Columns 0 … 63 of three blocks laid side by side are the first block's columns. -/
private theorem cat_apply_left (c : Fin 64) :
    concatenate Cert.ReferenceIdeal.S800000x144 1
        [⟨Cert.ReferenceIdeal.S800000x64, X⟩, ⟨Cert.ReferenceIdeal.S800000x64, Y⟩, ⟨Cert.ReferenceIdeal.S800000x16, Z⟩] hc
        (ix2 p (⟨c.val, by have := c.isLt; omega⟩ : Fin 144))
      = X (ix2 p c) := by
  refine concatenate_apply_piece (t := Cert.ReferenceIdeal.S800000x144) 1
    [⟨Cert.ReferenceIdeal.S800000x64, X⟩, ⟨Cert.ReferenceIdeal.S800000x64, Y⟩, ⟨Cert.ReferenceIdeal.S800000x16, Z⟩] hc _ 0 (show 0 < 3 by decide) Cert.ReferenceIdeal.S800000x64 X rfl rfl 0 rfl (ix2 p c)
    (fun b hb => ?_) (Nat.zero_add _)
  match b with
  | ⟨0, _⟩ => rfl
  | ⟨1, _⟩ => exact absurd rfl hb

/-- Columns 64 … 127 are the second block's columns. -/
private theorem cat_apply_mid (c : Fin 64) :
    concatenate Cert.ReferenceIdeal.S800000x144 1
        [⟨Cert.ReferenceIdeal.S800000x64, X⟩, ⟨Cert.ReferenceIdeal.S800000x64, Y⟩, ⟨Cert.ReferenceIdeal.S800000x16, Z⟩] hc
        (ix2 p (⟨64 + c.val, by have := c.isLt; omega⟩ : Fin 144))
      = Y (ix2 p c) := by
  refine concatenate_apply_piece (t := Cert.ReferenceIdeal.S800000x144) 1
    [⟨Cert.ReferenceIdeal.S800000x64, X⟩, ⟨Cert.ReferenceIdeal.S800000x64, Y⟩, ⟨Cert.ReferenceIdeal.S800000x16, Z⟩] hc _ 1 (show 1 < 3 by decide) Cert.ReferenceIdeal.S800000x64 Y rfl rfl 64 rfl (ix2 p c)
    (fun b hb => ?_) rfl
  match b with
  | ⟨0, _⟩ => rfl
  | ⟨1, _⟩ => exact absurd rfl hb

/-- Columns 128 … 143 are the third block's columns. -/
private theorem cat_apply_right (c : Fin 16) :
    concatenate Cert.ReferenceIdeal.S800000x144 1
        [⟨Cert.ReferenceIdeal.S800000x64, X⟩, ⟨Cert.ReferenceIdeal.S800000x64, Y⟩, ⟨Cert.ReferenceIdeal.S800000x16, Z⟩] hc
        (ix2 p (⟨64 + 64 + c.val, by have := c.isLt; omega⟩ : Fin 144))
      = Z (ix2 p c) := by
  refine concatenate_apply_piece (t := Cert.ReferenceIdeal.S800000x144) 1
    [⟨Cert.ReferenceIdeal.S800000x64, X⟩, ⟨Cert.ReferenceIdeal.S800000x64, Y⟩, ⟨Cert.ReferenceIdeal.S800000x16, Z⟩] hc _ 2 (show 2 < 3 by decide) Cert.ReferenceIdeal.S800000x16 Z rfl rfl 128 rfl (ix2 p c)
    (fun b hb => ?_) rfl
  match b with
  | ⟨0, _⟩ => rfl
  | ⟨1, _⟩ => exact absurd rfl hb

/-- The contraction of the three blocks laid side by side with a column of 144 weights is the sum of the three blocks'
    contractions with the weights' rows 0 … 63, 64 … 127 and 128 … 143. -/
private theorem catSum_split (We : FVec Ideal S144x1 .f32) (q : Fin 1) :
    ∑ c : Fin 144, concatenate Cert.ReferenceIdeal.S800000x144 1
        [⟨Cert.ReferenceIdeal.S800000x64, X⟩, ⟨Cert.ReferenceIdeal.S800000x64, Y⟩, ⟨Cert.ReferenceIdeal.S800000x16, Z⟩] hc
        (ix2 p c) * We (ix2 c q)
      = (∑ c : Fin 64, X (ix2 p c) * We (ix2 (⟨c.val, by have := c.isLt; omega⟩ : Fin 144) q)
          + ∑ c : Fin 64, Y (ix2 p c) * We (ix2 (⟨64 + c.val, by have := c.isLt; omega⟩ : Fin 144) q))
        + ∑ c : Fin 16, Z (ix2 p c) * We (ix2 (⟨64 + 64 + c.val, by have := c.isLt; omega⟩ : Fin 144) q) := by
  refine (sum_three 64 64 16 _).trans ?_
  refine congrArg₂ (· + ·) (congrArg₂ (· + ·) ?_ ?_) ?_
  · exact Finset.sum_congr rfl fun c _ => congrArg (· * _) (cat_apply_left X Y Z hc p c)
  · exact Finset.sum_congr rfl fun c _ => congrArg (· * _) (cat_apply_mid X Y Z hc p c)
  · exact Finset.sum_congr rfl fun c _ => congrArg (· * _) (cat_apply_right X Y Z hc p c)

end Cat

/-- The two programs read the source endpoints' column of words alike … -/
private theorem srcCol_eq (ei : IVec S2x800000 32) :
    Cert.KernelIdeal.KT.colE (Cert.KernelIdeal.KT.wrapE (Cert.KernelIdeal.KT.src1 ei))
      = Cert.ReferenceIdeal.RT.colE (Cert.ReferenceIdeal.RT.wrapE (Cert.ReferenceIdeal.RT.src1 ei)) := rfl
/-- … and the destination endpoints' column. -/
private theorem dstCol_eq (ei : IVec S2x800000 32) :
    Cert.KernelIdeal.KT.colE (Cert.KernelIdeal.KT.wrapE (Cert.KernelIdeal.KT.dst1 ei))
      = Cert.ReferenceIdeal.RT.colE (Cert.ReferenceIdeal.RT.wrapE (Cert.ReferenceIdeal.RT.dst1 ei)) := rfl

/-- The edge scores agree, for any last-layer features. -/
theorem head_eq (h2 : FVec Ideal S50000x64 .f32) (ei : IVec S2x800000 32) (attr : FVec Ideal S800000x16 .f32)
    (We : FVec Ideal S144x1 .f32) (be : FVec Ideal S1 .f32) :
    Cert.KernelIdeal.KT.headK h2 ei attr We be = Cert.ReferenceIdeal.RT.headR h2 ei attr We be := by
  funext i
  obtain ⟨p, q, rfl⟩ : ∃ (p : Fin 800000) (q : Fin 1), i = ix2 p q := ⟨i 0, i 1, eq_ix2 i⟩
  unfold Cert.KernelIdeal.KT.headK Cert.ReferenceIdeal.RT.headR
  simp only [addf_apply]
  rw [nodeScore_apply, nodeScore_apply, attrScore_apply, catScore_apply, catSum_split, srcCol_eq, dstCol_eq]
  refine congrArg₂ (· + ·) (congrArg₂ (· + ·) (congrArg₂ (· + ·) ?_ ?_) ?_) rfl
  · refine Finset.sum_congr rfl fun c _ => ?_
    refine congrArg₂ (· * ·) (rowAt_apply h2 _ p c).symm ?_
    exact slice_apply 0 64 _ We c q _ (Nat.zero_add _).symm
  · refine Finset.sum_congr rfl fun c _ => ?_
    refine congrArg₂ (· * ·) (rowAt_apply h2 _ p c).symm ?_
    exact slice_apply 64 64 _ We c q _ rfl
  · refine Finset.sum_congr rfl fun c _ => ?_
    refine congrArg (_ * ·) ?_
    exact slice_apply 128 16 _ We c q _ rfl

end Cert.Bridge

end
-- ==== Proof.Bridge.lean ====
/-
  The two programs compute one function of their nine arguments, over the extended reals, when every endpoint of the
  edge list names a node: the degrees agree, each layer agrees, and the edge scores agree.
-/
import proofs.«426948_j5884105195871_1_alg».proof.Proof.BridgeDeg
import proofs.«426948_j5884105195871_1_alg».proof.Proof.BridgeLayer
import proofs.«426948_j5884105195871_1_alg».proof.Proof.BridgeHead

noncomputable section

namespace Cert.Bridge

open Idealize.ShloMosaic
open Cert.KernelIdeal (S50000x64 S2x800000 S800000x16 S64x64 S64 S144x1 S1 S50000 S800000x1)

/-- The whole programs agree. -/
theorem res_eq (x : FVec Ideal S50000x64 .f32) (ei : IVec S2x800000 32) (attr : FVec Ideal S800000x16 .f32)
    (W1 : FVec Ideal S64x64 .f32) (b1 : FVec Ideal S64 .f32) (W2 : FVec Ideal S64x64 .f32) (b2 : FVec Ideal S64 .f32)
    (We : FVec Ideal S144x1 .f32) (be : FVec Ideal S1 .f32) (hr : InRange ei) :
    Cert.KernelIdeal.KT.resK x ei attr W1 b1 W2 b2 We be = Cert.ReferenceIdeal.RT.resR x ei attr W1 b1 W2 b2 We be := by
  unfold Cert.KernelIdeal.KT.resK Cert.ReferenceIdeal.RT.resR
  rw [head_eq, layer_eq ei hr, layer_eq ei hr, deg_eq]
  rfl

end Cert.Bridge

end
-- ==== Proof.PreDecode.lean ====
/-
  What the precondition says of the edge list: its last conjunct is "every entry e of the edge list has 0 ≤ e and
  e < 50000" (a signed compare against 0, a signed compare against 50000, their conjunction at every entry, the
  conjunction of all entries), so when the precondition is all ones every endpoint names a node.
-/
import proofs.«426948_j5884105195871_1_alg».proof.Proof.Gen.Pre_finite_inputs
import Idealize.ShloMosaic.Lib.ReduceAll
import Idealize.ShloMosaic.Lib.ValueIdx

noncomputable section

namespace Cert.PreDecode

open Idealize.ShloMosaic Cert.Pre_finite_inputs Cert.Pre_finite_inputs.Gen

/-- A rank-0 shape has one index. -/
instance : Subsingleton S_.Idx := ⟨fun a b => funext fun d => d.elim0⟩

/-- The precondition holds only of edge lists whose every endpoint names a node. -/
theorem range_of_pre {F : FTy → Type} [FloatOps F] (x : FVec F S50000x64 .f32) (ei : IVec S2x800000 32) (attr : FVec F S800000x16 .f32)
    (W1 : FVec F S64x64 .f32) (b1 : FVec F S64 .f32) (W2 : FVec F S64x64 .f32) (b2 : FVec F S64 .f32) (We : FVec F S144x1 .f32)
    (be : FVec F S1 .f32) (h : fn (F := F) x ei attr W1 b1 W2 b2 We be = fun _ => 1#1) :
    ∀ i, 0 ≤ (ei i).toInt ∧ (ei i).toInt < 50000 := by
  intro i
  have h0 := congrFun h ValueIdx.ix0
  unfold fn fn_part1 fn_part2 at h0
  dsimp only at h0
  have h1 := (IntOp.andi_eq_one.1 h0).2
  have h2 := Host.reduce_andi_all _ _ _ _ _ h1 i
  obtain ⟨ha, hb⟩ := IntOp.andi_eq_one.1 h2
  have ha' := IntOp.cmpi_sge.1 ha
  have hb' := IntOp.cmpi_slt.1 hb
  refine ⟨?_, ?_⟩
  · have e0 : (broadcastInDim S2x800000 ![] bcast_S_S2x800000 (constantI S_ 32 0#32) i).toInt = 0 := rfl
    rw [e0] at ha'
    exact ha'
  · have e1 : (broadcastInDim S2x800000 ![] bcast_S_S2x800000 (constantI S_ 32 50000#32) i).toInt = 50000 := by
      show (50000#32 : BitVec 32).toInt = 50000
      decide
    rw [e1] at hb'
    exact hb'

end Cert.PreDecode

end
-- ==== Proof.lean ====
/-
  A two-layer graph convolution with an edge-score head, as a Pallas kernel program against its jnp reference.

  Each layer multiplies the node features by a weight matrix, sends every edge's source row, weighted by
  d[src] * d[dst] with d the inverse square root of the in-degree counted with self-loops, to the edge's destination
  node, adds the node's own row weighted by d * d, and adds a bias; the head scores every edge from the rows of its two
  endpoints and its attributes.

  The kernel program realizes "take the source rows and add them into the destination rows" by two matrix products
  against 0/1 matrices built from the endpoint words, 128 edges per grid point, accumulated over 6250 grid points,
  and handles the self-loops and the degree's "+ 1" outside the kernel; the reference appends the loops (n, n) to the
  edge list and takes rows and adds rows by index. The 0/1 matrix of a word that names no node is zero, where taking
  a row by index clamps the word into range: the two agree exactly when every endpoint names a node, which is the
  statement's added precondition 0 ≤ edge_index < 50000.

  Over the extended reals, under that precondition: the degrees agree (a count over edges plus one is the count over
  edges and loops), each layer agrees (a sum over the edges that end at a node, plus the node's own term, is the sum
  over edges and loops that end at it — only commutativity and associativity of + and *, x * 0 = 0 and 0 + x = x are
  used, which hold for every extended real, so finiteness of the float inputs is not used), and the head agrees (a sum
  over 144 columns splits into 64 + 64 + 16). The kernel program's result is read off its run: the result buffer at
  the last boundary's contents, each aggregation region's output array being the fold of the per-block steps.

  The idealization rewrote nothing, so the kernel's sanctioned idealization is the program's own text.
-/
import proofs.«426948_j5884105195871_1_alg».proof.Defs
import proofs.«426948_j5884105195871_1_alg».proof.Proof.Gen.Kernel
import proofs.«426948_j5884105195871_1_alg».proof.Proof.Gen.Kernel.Frame
import proofs.«426948_j5884105195871_1_alg».proof.Proof.Gen.KernelIdeal
import proofs.«426948_j5884105195871_1_alg».proof.Proof.Gen.KernelIdeal.Frame
import proofs.«426948_j5884105195871_1_alg».proof.Proof.Gen.ReferenceIdeal
import proofs.«426948_j5884105195871_1_alg».proof.Proof.Gen.Pre_finite_inputs
import proofs.«426948_j5884105195871_1_alg».proof.Proof.KRun
import proofs.«426948_j5884105195871_1_alg».proof.Proof.KHost
import proofs.«426948_j5884105195871_1_alg».proof.Proof.RRun
import proofs.«426948_j5884105195871_1_alg».proof.Proof.Bridge
import proofs.«426948_j5884105195871_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RRun.run (F := Ideal) m ρ)

/-- The ideal pass rewrote no operation. -/
theorem preserves : Cert.preserves_Kernel_KernelIdeal := trivial

/-- From memories that agree on the nine arguments, under the precondition, both programs end with the same edge
    scores: the kernel's result is resK of its arguments, the reference's resR of the same arguments, and the two
    functions agree when every endpoint names a node, which the precondition says. -/
theorem algebraic : Cert.algebraic_KernelIdeal_ReferenceIdeal := by
  intro m ρ m' ρ' hpre hagree
  refine ⟨fun c => Cert.KernelIdeal.KT.resK (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KHost.W11_result m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.RRun.run (F := Ideal) m' ρ')
    obtain ⟨a0, a1, a2, a3, a4, a5, a6, a7, a8⟩ := hagree c
    rw [a0, a1, a2, a3, a4, a5, a6, a7, a8]
    exact (Cert.Bridge.res_eq _ _ _ _ _ _ _ _ _ (Cert.PreDecode.range_of_pre _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
